-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x2048 : Shape := ⟨2, ![2048, 2048]⟩
abbrev S2048 : Shape := ⟨1, ![2048]⟩
abbrev S32000x1024 : Shape := ⟨2, ![32000, 1024]⟩
abbrev S32000 : Shape := ⟨1, ![32000]⟩
abbrev S32000x2048 : Shape := ⟨2, ![32000, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_
  bcast_S_S32000x2048 : S_.BroadcastsInDim S32000x2048 (![] : Fin 0 → Fin S32000x2048.rank)
  reducesTo_S32000x2048_S_d0_1 : S32000x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg2 : IVec S2048 32) (main_v28 : IVec S_ 1) (main_v30 : IVec S2048 1) (main_v32 : IVec S2048 1) (main_c_12 : IVec S_ 32) : IVec S_ 1 :=
  let main_v33 : IVec S2048 32 := broadcastInDim S2048 ![] bcast_S_S2048 main_c_12
  let main_v34 : IVec S2048 1 := cmpi .slt main_arg2 main_v33
  let main_v35 : IVec S2048 1 := andi main_v32 main_v34
  let main_v36 : IVec S2048 1 := ori main_v30 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v28 main_v37
  main_v38

def fn_part1 {F : FTy → Type} [FloatOps F] (main_arg2 : IVec S2048 32) (main_arg5 : FVec F S32000x2048 .f32) (main_arg6 : FVec F S32000 .f32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_v19 : FVec F S32000x2048 .f32 := Host.absf main_arg5
  let main_cst_6 : FVec F S_ .f32 := constant S_ .f32 0x7F800000#32
  let main_v20 : FVec F S32000x2048 .f32 := broadcastInDim S32000x2048 ![] bcast_S_S32000x2048 main_cst_6
  let main_v21 : IVec S32000x2048 1 := cmpf .olt main_v19 main_v20
  let main_c_7 : IVec S_ 1 := constantI S_ 1 1#1
  let main_v22 : IVec S_ 1 := (fun x v => Host.reduce IntOp.andi x v reducesTo_S32000x2048_S_d0_1 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 4294967196#32
  let main_v29 : IVec S2048 32 := broadcastInDim S2048 ![] bcast_S_S2048 main_c_10
  let main_v30 : IVec S2048 1 := cmpi .eq main_arg2 main_v29
  let main_c_11 : IVec S_ 32 := constantI S_ 32 0#32
  let main_v31 : IVec S2048 32 := broadcastInDim S2048 ![] bcast_S_S2048 main_c_11
  let main_v32 : IVec S2048 1 := cmpi .sge main_arg2 main_v31
  let main_c_12 : IVec S_ 32 := constantI S_ 32 32000#32
  fn_part2 (F := F) main_arg2 main_v28 main_v30 main_v32 main_c_12

def fn {F : FTy → Type} [FloatOps F] (main_arg0 : FVec F S2048x1024 .f32) (main_arg1 : FVec F S2048x2048 .f32) (main_arg2 : IVec S2048 32) (main_arg3 : FVec F S32000x1024 .f32) (main_arg4 : FVec F S32000 .f32) (main_arg5 : FVec F S32000x2048 .f32) (main_arg6 : FVec F S32000 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S32000 .f32 := Host.absf main_arg4
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg2 main_arg5 main_arg6 main_v13 main_v16
-- ==== Kernel.lean ====
abbrev S2048x1024 : Shape := ⟨2, ![2048, 1024]⟩
abbrev S2048x2048 : Shape := ⟨2, ![2048, 2048]⟩
abbrev S2048 : Shape := ⟨1, ![2048]⟩
abbrev S32000x1024 : Shape := ⟨2, ![32000, 1024]⟩
abbrev S32000 : Shape := ⟨1, ![32000]⟩
abbrev S32000x2048 : Shape := ⟨2, ![32000, 2048]⟩
abbrev S_ : Shape := ⟨0, ![]⟩
abbrev S2048x1 : Shape := ⟨2, ![2048, 1]⟩
abbrev S1x32000 : Shape := ⟨2, ![1, 32000]⟩
abbrev S2048x8 : Shape := ⟨2, ![2048, 8]⟩
abbrev S512x1024 : Shape := ⟨2, ![512, 1024]⟩
abbrev S512x2048 : Shape := ⟨2, ![512, 2048]⟩
abbrev S512x1 : Shape := ⟨2, ![512, 1]⟩
abbrev S640x1024 : Shape := ⟨2, ![640, 1024]⟩
abbrev S1x640 : Shape := ⟨2, ![1, 640]⟩
abbrev S640x2048 : Shape := ⟨2, ![640, 2048]⟩
abbrev S512x8 : Shape := ⟨2, ![512, 8]⟩
abbrev S512x7 : Shape := ⟨2, ![512, 7]⟩
abbrev S512x640 : Shape := ⟨2, ![512, 640]⟩
abbrev S512 : Shape := ⟨1, ![512]⟩
abbrev S512x2 : Shape := ⟨2, ![512, 2]⟩

abbrev nBuf : Space → Nat
  | .hbm => 73
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048, .i32⟩
  | .hbm, ⟨3, _⟩ => ⟨S32000x1024, .f32⟩
  | .hbm, ⟨4, _⟩ => ⟨S32000, .f32⟩
  | .hbm, ⟨5, _⟩ => ⟨S32000x2048, .f32⟩
  | .hbm, ⟨6, _⟩ => ⟨S32000, .f32⟩
  | .hbm, ⟨7, _⟩ => ⟨S2048x1024, .bf16⟩
  | .hbm, ⟨8, _⟩ => ⟨S2048x2048, .bf16⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S1x32000, .f32⟩
  | .hbm, ⟨26, _⟩ => ⟨S1x32000, .f32⟩
  | .hbm, ⟨27, _⟩ => ⟨S2048x8, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1, .i32⟩
  | .local _ .vmem, ⟨5, _⟩ => ⟨S512x1, .i32⟩
  | .local _ .vmem, ⟨6, _⟩ => ⟨S640x1024, .f32⟩
  | .local _ .vmem, ⟨7, _⟩ => ⟨S640x1024, .f32⟩
  | .local _ .vmem, ⟨8, _⟩ => ⟨S1x640, .f32⟩
  | .local _ .vmem, ⟨9, _⟩ => ⟨S1x640, .f32⟩
  | .local _ .vmem, ⟨10, _⟩ => ⟨S640x2048, .f32⟩
  | .local _ .vmem, ⟨11, _⟩ => ⟨S640x2048, .f32⟩
  | .local _ .vmem, ⟨12, _⟩ => ⟨S1x640, .f32⟩
  | .local _ .vmem, ⟨13, _⟩ => ⟨S1x640, .f32⟩
  | .local _ .vmem, ⟨14, _⟩ => ⟨S512x8, .f32⟩
  | .local _ .vmem, ⟨15, _⟩ => ⟨S512x8, .f32⟩
  | .local _ .vmem, ⟨16, _⟩ => ⟨S512x8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v70 : BitVec 1 := Scalar.cmpi .eq arg1 c49_i32
  let v71 : BitVec 32 := Scalar.extui v70
  let c0_i32_27 : BitVec 32 := 0#32
  let v72 : BitVec 1 := Scalar.cmpi .ne v71 c0_i32_27
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  bcast_S_S2048 : S_.BroadcastsInDim S2048 (![] : Fin 0 → Fin S2048.rank)
  shapeCasts_S2048_S2048x1 : S2048.ShapeCasts S2048x1
  shapeCasts_S32000_S1x32000 : S32000.ShapeCasts S1x32000
  concatenates_S512x1_S512x7_S512x8_d1 : Shape.Concatenates [S512x1, S512x7] S512x8 1
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S640x1024_S640x1024_0_0 : ∀ a, (![0, 0] : Fin 2 → Nat) a + S640x1024.size a ≤ S640x1024.size a
  h_S640x1024 : 0 < S640x1024.numel
  inb_S640x2048_S640x2048_0_0 : ∀ a, (![0, 0] : Fin 2 → Nat) a + S640x2048.size a ≤ S640x2048.size a
  h_S640x2048 : 0 < S640x2048.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x640_d1_w32 : S512x640.Iotas .tc 32 [1]
  broadcasts_S512x1_S512x640 : S512x1.Broadcasts S512x640
  slices_S512x8_o0_0_S512x1 : S512x8.Slices ![0, 0] S512x1
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_4_S512x1 : S512x8.Slices ![0, 4] S512x1
  slices_S512x8_o0_5_S512x1 : S512x8.Slices ![0, 5] S512x1
  reduces_S512x640_S512 : S512x640.Reduces [1] S512
  shapeCasts_S512_S512x1 : S512.ShapeCasts S512x1
  concatenates_S512x1_S512x1_S512x1_S512x1_S512x1_S512x1_S512x2_S512x8_d1 : Shape.Concatenates [S512x1, S512x1, S512x1, S512x1, S512x1, S512x1, S512x2] S512x8 1
  slices_S2048x8_S2048x1_0_0 : S2048x8.Slices ![0, 0] S2048x1
  slices_S2048x8_S2048x1_0_1 : S2048x8.Slices ![0, 1] S2048x1
  slices_S2048x8_S2048x1_0_2 : S2048x8.Slices ![0, 2] S2048x1
  slices_S2048x8_S2048x1_0_3 : S2048x8.Slices ![0, 3] S2048x1
  slices_S2048x8_S2048x1_0_4 : S2048x8.Slices ![0, 4] S2048x1
  slices_S2048x8_S2048x1_0_5 : S2048x8.Slices ![0, 5] S2048x1
  shapeCasts_S2048x1_S2048 : S2048x1.ShapeCasts S2048
  bcast_S_S2048x1 : S_.BroadcastsInDim S2048x1 (![] : Fin 0 → Fin S2048x1.rank)
  reducesTo_S2048_S_d0 : S2048.ReducesTo [0] S_
  h_S_ : 0 < S_.numel
  dot_S512x1024_S640x1024_S512x640_1_1_0_0_n_n_wf : DotDims.WF S512x1024 S640x1024 S512x640 [1] [1] [0] [0] [] []
  dot_S512x2048_S640x2048_S512x640_1_1_0_0_n_n_wf : DotDims.WF S512x2048 S640x2048 S512x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .i32 = 32 ∨ (Rect.block (s := S2048x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x1024.size a ≤ S32000x1024.size a
  hwx0_3 : ∀ i : grid0.Coords, EltTy.bits .f32 = 32 ∨ (Rect.block (s := S32000x1024) S640x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x32000.size a
  hwx0_4 : ∀ i : grid0.Coords, EltTy.bits .f32 = 32 ∨ (Rect.block (s := S1x32000) S1x640.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S640x2048.size a ≤ S32000x2048.size a
  hwx0_5 : ∀ i : grid0.Coords, EltTy.bits .f32 = 32 ∨ (Rect.block (s := S32000x2048) S640x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x640.size a ≤ S1x32000.size a
  hwx0_6 : ∀ i : grid0.Coords, EltTy.bits .f32 = 32 ∨ (Rect.block (s := S1x32000) S1x640.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x8.size a ≤ S2048x8.size a
  hwx0_7 : ∀ i : grid0.Coords, EltTy.bits .f32 = 32 ∨ (Rect.block (s := S2048x8) S512x8.size (cc0_transform_7 i) (hinb0_7 i)).WholeWords (EltTy.packing .f32)

variable [Facts₀]

def dot_S512x1024_S640x1024_S512x640_1_1_0_0_n_n : DotDims S512x1024 S640x1024 S512x640 where
  lhsContracting := [1]
  rhsContracting := [1]
  lhsNonContracting := [0]
  rhsNonContracting := [0]
  lhsBatch := []
  rhsBatch := []
  wf := dot_S512x1024_S640x1024_S512x640_1_1_0_0_n_n_wf
def dot_S512x2048_S640x2048_S512x640_1_1_0_0_n_n : DotDims S512x2048 S640x2048 S512x640 where
  lhsContracting := [1]
  rhsContracting := [1]
  lhsNonContracting := [0]
  rhsNonContracting := [0]
  lhsBatch := []
  rhsBatch := []
  wf := dot_S512x2048_S640x2048_S512x640_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x640.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048x2048 : Shape := ⟨2, ![2048, 2048]⟩
abbrev S2048 : Shape := ⟨1, ![2048]⟩
abbrev S32000x1024 : Shape := ⟨2, ![32000, 1024]⟩
abbrev S32000 : Shape := ⟨1, ![32000]⟩
abbrev S32000x2048 : Shape := ⟨2, ![32000, 2048]⟩
abbrev S1024x32000 : Shape := ⟨2, ![1024, 32000]⟩
abbrev S2048x32000 : Shape := ⟨2, ![2048, 32000]⟩
abbrev S1x32000 : Shape := ⟨2, ![1, 32000]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048, .i32⟩
  | .hbm, ⟨3, _⟩ => ⟨S32000x1024, .f32⟩
  | .hbm, ⟨4, _⟩ => ⟨S32000, .f32⟩
  | .hbm, ⟨5, _⟩ => ⟨S32000x2048, .f32⟩
  | .hbm, ⟨6, _⟩ => ⟨S32000, .f32⟩
  | .hbm, ⟨7, _⟩ => ⟨S1024x32000, .f32⟩
  | .hbm, ⟨8, _⟩ => ⟨S2048x32000, .f32⟩
  | .hbm, ⟨9, _⟩ => ⟨S1x32000, .f32⟩
  | .hbm, ⟨10, _⟩ => ⟨S2048x32000, .f32⟩
  | .hbm, ⟨11, _⟩ => ⟨S2048x32000, .f32⟩
  | .hbm, ⟨12, _⟩ => ⟨S2048x32000, .f32⟩
  | .hbm, ⟨13, _⟩ => ⟨S2048x32000, .f32⟩
  | .hbm, ⟨14, _⟩ => ⟨S1x32000, .f32⟩
  | .hbm, ⟨15, _⟩ => ⟨S2048x32000, .f32⟩
  | .hbm, ⟨16, _⟩ => ⟨S2048x32000, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x1, .f32⟩
  | .hbm, ⟨30, _⟩ => ⟨S2048x32000, .f32⟩
  | .hbm, ⟨31, _⟩ => ⟨S2048x32000, .f32⟩
  | .hbm, ⟨32, _⟩ => ⟨S2048x32000, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1, .f32⟩
  | .hbm, ⟨37, _⟩ => ⟨S2048x32000, .f32⟩
  | .hbm, ⟨38, _⟩ => ⟨S2048x32000, .f32⟩
  | .hbm, ⟨39, _⟩ => ⟨S2048x1, .i32⟩
  | .hbm, ⟨40, _⟩ => ⟨S_, .i32⟩
  | .hbm, ⟨41, _⟩ => ⟨S2048x1, .i32⟩
  | .hbm, ⟨42, _⟩ => ⟨S2048x1, .i1⟩
  | .hbm, ⟨43, _⟩ => ⟨S_, .i32⟩
  | .hbm, ⟨44, _⟩ => ⟨S2048x1, .i32⟩
  | .hbm, ⟨45, _⟩ => ⟨S2048x1, .i32⟩
  | .hbm, ⟨46, _⟩ => ⟨S2048x1, .i32⟩
  | .hbm, ⟨47, _⟩ => ⟨S2048x1x1, .i32⟩
  | .hbm, ⟨48, _⟩ => ⟨S1, .i32⟩
  | .hbm, ⟨49, _⟩ => ⟨S_, .i32⟩
  | .hbm, ⟨50, _⟩ => ⟨S2048x1x1, .i32⟩
  | .hbm, ⟨51, _⟩ => ⟨S2048x1x1, .i1⟩
  | .hbm, ⟨52, _⟩ => ⟨S1x1x1, .i32⟩
  | .hbm, ⟨53, _⟩ => ⟨S2048x1x1, .i32⟩
  | .hbm, ⟨54, _⟩ => ⟨S2048x1x1, .i1⟩
  | .hbm, ⟨55, _⟩ => ⟨S2048x1x1, .i1⟩
  | .hbm, ⟨56, _⟩ => ⟨S_, .i1⟩
  | .hbm, ⟨57, _⟩ => ⟨S2048x1, .i1⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048, .f32⟩
  | .hbm, ⟨63, _⟩ => ⟨S2048, .f32⟩
  | .hbm, ⟨64, _⟩ => ⟨S2048, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S2048x32000, .f32⟩
  | .hbm, ⟨79, _⟩ => ⟨S2048x32000, .f32⟩
  | .hbm, ⟨80, _⟩ => ⟨S_, .f32⟩
  | .hbm, ⟨81, _⟩ => ⟨S2048x32000, .f32⟩
  | .hbm, ⟨82, _⟩ => ⟨S2048x32000, .f32⟩
  | .hbm, ⟨83, _⟩ => ⟨S2048x32000, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S2048x32000, .f32⟩
  | .hbm, ⟨92, _⟩ => ⟨S2048x32000, .f32⟩
  | .hbm, ⟨93, _⟩ => ⟨S2048x32000, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S2048x32000, .f32⟩
  | .hbm, ⟨102, _⟩ => ⟨S2048x32000, .f32⟩
  | .hbm, ⟨103, _⟩ => ⟨S2048x32000, .f32⟩
  | .hbm, ⟨104, _⟩ => ⟨S_, .f32⟩
  | .hbm, ⟨105, _⟩ => ⟨S2048, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S_, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v13 : Ref sig .tc := ⟨.hbm, 38, rfl⟩
abbrev main_v14 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_c_1 : Ref sig .tc := ⟨.hbm, 65, rfl⟩
abbrev main_v19 : Ref sig .tc := ⟨.hbm, 66, rfl⟩
abbrev main_c_2 : Ref sig .tc := ⟨.hbm, 67, rfl⟩
abbrev main_v20 : Ref sig .tc := ⟨.hbm, 68, rfl⟩
abbrev main_cst : Ref sig .tc := ⟨.hbm, 69, rfl⟩
abbrev main_call3_v0 : Ref sig .tc := ⟨.hbm, 70, rfl⟩
abbrev main_call3_v1 : Ref sig .tc := ⟨.hbm, 71, rfl⟩
abbrev main_v21 : Ref sig .tc := ⟨.hbm, 72, rfl⟩
abbrev main_cst_3 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_4 : Ref sig .tc := ⟨.hbm, 77, rfl⟩
abbrev main_v25 : Ref sig .tc := ⟨.hbm, 78, rfl⟩
abbrev main_v26 : Ref sig .tc := ⟨.hbm, 79, rfl⟩
abbrev main_cst_5 : Ref sig .tc := ⟨.hbm, 80, rfl⟩
abbrev main_v27 : Ref sig .tc := ⟨.hbm, 81, rfl⟩
abbrev main_v28 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_call4_v2 : Ref sig .tc := ⟨.hbm, 86, rfl⟩
abbrev main_v29 : Ref sig .tc := ⟨.hbm, 87, rfl⟩
abbrev main_cst_6 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_call5_v0 : Ref sig .tc := ⟨.hbm, 93, rfl⟩
abbrev main_call5_cst : Ref sig .tc := ⟨.hbm, 94, rfl⟩
abbrev main_call5_v1 : Ref sig .tc := ⟨.hbm, 95, rfl⟩
abbrev main_call5_v2 : Ref sig .tc := ⟨.hbm, 96, rfl⟩
abbrev main_v34 : Ref sig .tc := ⟨.hbm, 97, rfl⟩
abbrev main_cst_7 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst_8 : Ref sig .tc := ⟨.hbm, 104, rfl⟩
abbrev main_v40 : Ref sig .tc := ⟨.hbm, 105, rfl⟩
abbrev main_cst_9 : Ref sig .tc := ⟨.hbm, 106, rfl⟩
abbrev main_v41 : Ref sig .tc := ⟨.hbm, 107, rfl⟩
abbrev main_v42 : Ref sig .tc := ⟨.hbm, 108, rfl⟩
abbrev main_cst_10 : Ref sig .tc := ⟨.hbm, 109, rfl⟩
abbrev main_v43 : Ref sig .tc := ⟨.hbm, 110, rfl⟩
abbrev main_v44 : Ref sig .tc := ⟨.hbm, 111, rfl⟩
abbrev main_cst_11 : Ref sig .tc := ⟨.hbm, 112, rfl⟩
abbrev main_v45 : Ref sig .tc := ⟨.hbm, 113, rfl⟩
abbrev main_cst_12 : Ref sig .tc := ⟨.hbm, 114, rfl⟩
abbrev main_v46 : Ref sig .tc := ⟨.hbm, 115, rfl⟩
abbrev main_cst_13 : Ref sig .tc := ⟨.hbm, 116, rfl⟩
abbrev main_v47 : Ref sig .tc := ⟨.hbm, 117, rfl⟩
abbrev main_cst_14 : Ref sig .tc := ⟨.hbm, 118, rfl⟩
abbrev main_v48 : Ref sig .tc := ⟨.hbm, 119, rfl⟩
abbrev main_v49 : Ref sig .tc := ⟨.hbm, 120, rfl⟩

abbrev nD : Nat := 1
abbrev τ : Topo := Topo.v7x

variable {F : FTy → Type} [FloatOps F]

class Facts₀ : Prop where
  transposes_S32000x1024_S1024x32000_1_0 : S32000x1024.Transposes [1, 0] S1024x32000
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  transposes_S32000x2048_S2048x32000_1_0 : S32000x2048.Transposes [1, 0] S2048x32000
  bcast_S_S2048 : S_.BroadcastsInDim S2048 (![] : Fin 0 → Fin S2048.rank)
  reducesTo_S2048x32000_S2048_d1 : S2048x32000.ReducesTo [1] S2048
  h_S_ : 0 < S_.numel
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  natLt_1_32 : 1 < 32
  reducesTo_S2048_S_d0 : S2048.ReducesTo [0] S_
  bcast_S_S2048x32000 : S_.BroadcastsInDim S2048x32000 (![] : Fin 0 → Fin S2048x32000.rank)
  dot_S2048x1024_S1024x32000_S2048x32000_1_0_0_1_n_n_wf : DotDims.WF S2048x1024 S1024x32000 S2048x32000 [1] [0] [0] [1] [] []
  dot_S2048x2048_S2048x32000_S2048x32000_1_0_0_1_n_n_wf : DotDims.WF S2048x2048 S2048x32000 S2048x32000 [1] [0] [0] [1] [] []
  gather_S2048x32000_S2048x1x1_S2048x1_n_1_0_0_1_2_11_wf : GatherDims.WF S2048x32000 S2048x1x1 S2048x1 [] [1] [0] [1] [0] 2 ![1, 1]

variable [Facts₀]

def dot_S2048x1024_S1024x32000_S2048x32000_1_0_0_1_n_n : DotDims S2048x1024 S1024x32000 S2048x32000 where
  lhsContracting := [1]
  rhsContracting := [0]
  lhsNonContracting := [0]
  rhsNonContracting := [1]
  lhsBatch := []
  rhsBatch := []
  wf := dot_S2048x1024_S1024x32000_S2048x32000_1_0_0_1_n_n_wf
def dot_S2048x2048_S2048x32000_S2048x32000_1_0_0_1_n_n : DotDims S2048x2048 S2048x32000 S2048x32000 where
  lhsContracting := [1]
  rhsContracting := [0]
  lhsNonContracting := [0]
  rhsNonContracting := [1]
  lhsBatch := []
  rhsBatch := []
  wf := dot_S2048x2048_S2048x32000_S2048x32000_1_0_0_1_n_n_wf
def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

class Facts : Prop extends Facts₀ where

variable [Facts]
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«424027_j51376398794762_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.RefFresh.lean ====
/-
  The reference program's host line is fresh: no operation writes a buffer an earlier one reads or writes.

  The program's buffers are numbered in program order, the seven arguments first, then one buffer per operation.
  With a buffer's number as its rank, operation number p writes buffer 7 + p only and touches no later buffer.  That
  is a property of the buffers the operations name, not of the float values they compute with, so it is decided once,
  at the extended reals, and carried to any float instance.
-/
import proofs.«424027_j51376398794762_3_alg».proof.Proof.RefOps
import proofs.«424027_j51376398794762_3_alg».proof.Proof.LibHostRank
import Idealize.ShloMosaic.PureOps.Ideal

noncomputable section

namespace Cert.Distill.Ref

open Cert.ReferenceIdeal Cert.ReferenceIdeal.Gen Cert.ReferenceIdeal.Value
open Idealize.ShloMosaic Idealize.ShloMosaic.TcCoe Idealize.ShloMosaic.StableHlo
open Cert.HostRead

/-- A buffer's rank: its index in its table. -/
def rk (b : DevRef τ sig) : Nat := b.idx.val

/-- Rankedness looks only at the buffers each operation writes and touches: two lines that agree on those, operation
    by operation, are ranked together. -/
theorem ranked_of_same_bufs {Val Val' : EltTy → Type} (r : DevRef τ sig → Nat) :
    ∀ (n : Nat) (L : List (HloOp τ sig Val)) (L' : List (HloOp τ sig Val')),
      List.Forall₂ (fun o o' => o.writes = o'.writes ∧ o.bufs = o'.bufs) L L' → Ranked r n L → Ranked r n L'
  | _, _, _, .nil, _ => trivial
  | n, _, _, .cons h t, hr => ⟨h.1 ▸ hr.1, h.2 ▸ hr.2.1, ranked_of_same_bufs r (n + 1) _ _ t hr.2.2⟩

set_option maxRecDepth 65536 in
/-- At the extended reals: operation number p writes buffer 7 + p only and touches no later buffer. -/
theorem ops_ranked_ideal : Ranked rk 7 (ops (F := Ideal)) := by decide

variable {F : FTy → Type} [FloatOps F]

set_option maxRecDepth 65536 in
/-- The line at any float instance names the same buffers as the line at the extended reals. -/
theorem ops_same_bufs :
    List.Forall₂ (fun o o' => o.writes = o'.writes ∧ o.bufs = o'.bufs) (ops (F := Ideal)) (ops (F := F)) := by
  repeat (first | exact List.Forall₂.nil | refine List.Forall₂.cons ⟨rfl, rfl⟩ ?_)

/-- So it is ranked at any float instance. -/
theorem ops_ranked : Ranked rk 7 (ops (F := F)) := ranked_of_same_bufs rk 7 _ _ ops_same_bufs ops_ranked_ideal

/-- And fresh. -/
theorem ops_fresh : Fresh (ops (F := F)) := Ranked.fresh rk 7 _ ops_ranked

/-- The line has 114 operations. -/
theorem ops_length : (ops (F := F)).length = 114 := rfl

end Cert.Distill.Ref

end
-- ==== Proof.RefStages.lean ====
/- One lemma per host operation of the reference program, in program order: what the operation's result buffer holds after
   the whole line is the one-operation-deep value of that buffer as a function of the launched arguments.  Each follows from
   the line's freshness (no operation writes a buffer an earlier one reads or writes): the result is the operation's function
   of its operands' contents after the whole line, and those are the earlier lemmas.  The line is never unfolded. -/
import proofs.«424027_j51376398794762_3_alg».proof.Proof.RefFresh
import proofs.«424027_j51376398794762_3_alg».proof.Proof.RefRead

noncomputable section

namespace Cert.Distill.Ref

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo
open Cert.HostRead

-- the folds over a whole axis are compared by their arguments only, never unfolded
attribute [local irreducible] Host.reduce

variable {F : FTy → Type} [FloatOps F]
variable (m : (ℓ : Loc nD τ sig) → Buf (Elt F) ℓ) (c : Dev nD)

/-! ### The seven argument buffers: ranked below every operation's result, so no operation writes them -/

theorem at_main_arg0 : after (ops (F := F)) (launchContents m c) (Proc.devRef .tc main_arg0) = m ((c.tc : Thread nD τ).loc main_arg0) :=
  Ranked.after_of_lt rk 7 _ ops_ranked _ _ (by decide)
theorem at_main_arg1 : after (ops (F := F)) (launchContents m c) (Proc.devRef .tc main_arg1) = m ((c.tc : Thread nD τ).loc main_arg1) :=
  Ranked.after_of_lt rk 7 _ ops_ranked _ _ (by decide)
theorem at_main_arg2 : after (ops (F := F)) (launchContents m c) (Proc.devRef .tc main_arg2) = m ((c.tc : Thread nD τ).loc main_arg2) :=
  Ranked.after_of_lt rk 7 _ ops_ranked _ _ (by decide)
theorem at_main_arg3 : after (ops (F := F)) (launchContents m c) (Proc.devRef .tc main_arg3) = m ((c.tc : Thread nD τ).loc main_arg3) :=
  Ranked.after_of_lt rk 7 _ ops_ranked _ _ (by decide)
theorem at_main_arg4 : after (ops (F := F)) (launchContents m c) (Proc.devRef .tc main_arg4) = m ((c.tc : Thread nD τ).loc main_arg4) :=
  Ranked.after_of_lt rk 7 _ ops_ranked _ _ (by decide)
theorem at_main_arg5 : after (ops (F := F)) (launchContents m c) (Proc.devRef .tc main_arg5) = m ((c.tc : Thread nD τ).loc main_arg5) :=
  Ranked.after_of_lt rk 7 _ ops_ranked _ _ (by decide)
theorem at_main_arg6 : after (ops (F := F)) (launchContents m c) (Proc.devRef .tc main_arg6) = m ((c.tc : Thread nD τ).loc main_arg6) :=
  Ranked.after_of_lt rk 7 _ ops_ranked _ _ (by decide)

/-! ### The operations, in program order -/

theorem at_main_v0 : after (ops (F := F)) (launchContents m c) (Proc.devRef .tc main_v0)
    = val_main_v0 (F := F) (m ((c.tc : Thread nD τ).loc main_arg3)) :=
  (read_unary (x := main_arg3) (y := main_v0)
    (f := ((transpose S1024x32000 [1, 0] · transposes_S32000x1024_S1024x32000_1_0) : (⟨S32000x1024, .f32⟩ : BufTy).Contents (Elt F) → (⟨S1024x32000, .f32⟩ : BufTy).Contents (Elt F)))
    ops_fresh 0 (hp := by rw [ops_length]; omega) (hop := rfl)).trans (by first | (rw [at_main_arg3 m c]; rfl) | rw [at_main_arg3 m c])
theorem at_main_v1 : after (ops (F := F)) (launchContents m c) (Proc.devRef .tc main_v1)
    = val_main_v1 (F := F) (m ((c.tc : Thread nD τ).loc main_arg0)) (m ((c.tc : Thread nD τ).loc main_arg3)) :=
  (read_binary (a := main_arg0) (b := main_v0) (y := main_v1)
    (f := ((fun l r => Host.dotGeneral dot_S2048x1024_S1024x32000_S2048x32000_1_0_0_1_n_n none l r) : (⟨S2048x1024, .f32⟩ : BufTy).Contents (Elt F) → (⟨S1024x32000, .f32⟩ : BufTy).Contents (Elt F) → (⟨S2048x32000, .f32⟩ : BufTy).Contents (Elt F)))
    ops_fresh 1 (hp := by rw [ops_length]; omega) (hop := rfl)).trans (by first | (rw [at_main_arg0 m c, at_main_v0 m c]; rfl) | rw [at_main_arg0 m c, at_main_v0 m c])
theorem at_main_v2 : after (ops (F := F)) (launchContents m c) (Proc.devRef .tc main_v2)
    = val_main_v2 (F := F) (m ((c.tc : Thread nD τ).loc main_arg4)) :=
  (read_unary (x := main_arg4) (y := main_v2)
    (f := (broadcastInDim S1x32000 ![1] bcast_S32000_S1x32000_1 : (⟨S32000, .f32⟩ : BufTy).Contents (Elt F) → (⟨S1x32000, .f32⟩ : BufTy).Contents (Elt F)))
    ops_fresh 2 (hp := by rw [ops_length]; omega) (hop := rfl)).trans (by first | (rw [at_main_arg4 m c]; rfl) | rw [at_main_arg4 m c])
theorem at_main_v3 : after (ops (F := F)) (launchContents m c) (Proc.devRef .tc main_v3)
    = val_main_v3 (F := F) (m ((c.tc : Thread nD τ).loc main_arg4)) :=
  (read_unary (x := main_v2) (y := main_v3)
    (f := (broadcastInDim S2048x32000 ![0, 1] bcast_S1x32000_S2048x32000_0_1 : (⟨S1x32000, .f32⟩ : BufTy).Contents (Elt F) → (⟨S2048x32000, .f32⟩ : BufTy).Contents (Elt F)))
    ops_fresh 3 (hp := by rw [ops_length]; omega) (hop := rfl)).trans (by first | (rw [at_main_v2 m c]; rfl) | rw [at_main_v2 m c])
theorem at_main_v4 : after (ops (F := F)) (launchContents m c) (Proc.devRef .tc main_v4)
    = val_main_v4 (F := F) (m ((c.tc : Thread nD τ).loc main_arg0)) (m ((c.tc : Thread nD τ).loc main_arg3)) (m ((c.tc : Thread nD τ).loc main_arg4)) :=
  (read_binary (a := main_v1) (b := main_v3) (y := main_v4)
    (f := (addf : (⟨S2048x32000, .f32⟩ : BufTy).Contents (Elt F) → (⟨S2048x32000, .f32⟩ : BufTy).Contents (Elt F) → (⟨S2048x32000, .f32⟩ : BufTy).Contents (Elt F)))
    ops_fresh 4 (hp := by rw [ops_length]; omega) (hop := rfl)).trans (by first | (rw [at_main_v1 m c, at_main_v3 m c]; rfl) | rw [at_main_v1 m c, at_main_v3 m c])
theorem at_main_v5 : after (ops (F := F)) (launchContents m c) (Proc.devRef .tc main_v5)
    = val_main_v5 (F := F) (m ((c.tc : Thread nD τ).loc main_arg5)) :=
  (read_unary (x := main_arg5) (y := main_v5)
    (f := ((transpose S2048x32000 [1, 0] · transposes_S32000x2048_S2048x32000_1_0) : (⟨S32000x2048, .f32⟩ : BufTy).Contents (Elt F) → (⟨S2048x32000, .f32⟩ : BufTy).Contents (Elt F)))
    ops_fresh 5 (hp := by rw [ops_length]; omega) (hop := rfl)).trans (by first | (rw [at_main_arg5 m c]; rfl) | rw [at_main_arg5 m c])
theorem at_main_v6 : after (ops (F := F)) (launchContents m c) (Proc.devRef .tc main_v6)
    = val_main_v6 (F := F) (m ((c.tc : Thread nD τ).loc main_arg1)) (m ((c.tc : Thread nD τ).loc main_arg5)) :=
  (read_binary (a := main_arg1) (b := main_v5) (y := main_v6)
    (f := ((fun l r => Host.dotGeneral dot_S2048x2048_S2048x32000_S2048x32000_1_0_0_1_n_n none l r) : (⟨S2048x2048, .f32⟩ : BufTy).Contents (Elt F) → (⟨S2048x32000, .f32⟩ : BufTy).Contents (Elt F) → (⟨S2048x32000, .f32⟩ : BufTy).Contents (Elt F)))
    ops_fresh 6 (hp := by rw [ops_length]; omega) (hop := rfl)).trans (by first | (rw [at_main_arg1 m c, at_main_v5 m c]; rfl) | rw [at_main_arg1 m c, at_main_v5 m c])
theorem at_main_v7 : after (ops (F := F)) (launchContents m c) (Proc.devRef .tc main_v7)
    = val_main_v7 (F := F) (m ((c.tc : Thread nD τ).loc main_arg6)) :=
  (read_unary (x := main_arg6) (y := main_v7)
    (f := (broadcastInDim S1x32000 ![1] bcast_S32000_S1x32000_1 : (⟨S32000, .f32⟩ : BufTy).Contents (Elt F) → (⟨S1x32000, .f32⟩ : BufTy).Contents (Elt F)))
    ops_fresh 7 (hp := by rw [ops_length]; omega) (hop := rfl)).trans (by first | (rw [at_main_arg6 m c]; rfl) | rw [at_main_arg6 m c])
theorem at_main_v8 : after (ops (F := F)) (launchContents m c) (Proc.devRef .tc main_v8)
    = val_main_v8 (F := F) (m ((c.tc : Thread nD τ).loc main_arg6)) :=
  (read_unary (x := main_v7) (y := main_v8)
    (f := (broadcastInDim S2048x32000 ![0, 1] bcast_S1x32000_S2048x32000_0_1 : (⟨S1x32000, .f32⟩ : BufTy).Contents (Elt F) → (⟨S2048x32000, .f32⟩ : BufTy).Contents (Elt F)))
    ops_fresh 8 (hp := by rw [ops_length]; omega) (hop := rfl)).trans (by first | (rw [at_main_v7 m c]; rfl) | rw [at_main_v7 m c])
theorem at_main_v9 : after (ops (F := F)) (launchContents m c) (Proc.devRef .tc main_v9)
    = val_main_v9 (F := F) (m ((c.tc : Thread nD τ).loc main_arg1)) (m ((c.tc : Thread nD τ).loc main_arg5)) (m ((c.tc : Thread nD τ).loc main_arg6)) :=
  (read_binary (a := main_v6) (b := main_v8) (y := main_v9)
    (f := (addf : (⟨S2048x32000, .f32⟩ : BufTy).Contents (Elt F) → (⟨S2048x32000, .f32⟩ : BufTy).Contents (Elt F) → (⟨S2048x32000, .f32⟩ : BufTy).Contents (Elt F)))
    ops_fresh 9 (hp := by rw [ops_length]; omega) (hop := rfl)).trans (by first | (rw [at_main_v6 m c, at_main_v8 m c]; rfl) | rw [at_main_v6 m c, at_main_v8 m c])
theorem at_main_c : after (ops (F := F)) (launchContents m c) (Proc.devRef .tc main_c)
    = val_main_c (F := F) :=
  (read_nullary (y := main_c) (v := val_main_c (F := F)) ops_fresh 10 (hp := by rw [ops_length]; omega) (hop := rfl)).trans rfl
theorem at_main_v10 : after (ops (F := F)) (launchContents m c) (Proc.devRef .tc main_v10)
    = val_main_v10 (F := F) :=
  (read_unary (x := main_c) (y := main_v10)
    (f := (broadcastInDim S2048 ![] bcast_S_S2048 : (⟨S_, .i32⟩ : BufTy).Contents (Elt F) → (⟨S2048, .i32⟩ : BufTy).Contents (Elt F)))
    ops_fresh 11 (hp := by rw [ops_length]; omega) (hop := rfl)).trans (by first | (rw [at_main_c m c]; rfl) | rw [at_main_c m c])
theorem at_main_v11 : after (ops (F := F)) (launchContents m c) (Proc.devRef .tc main_v11)
    = val_main_v11 (F := F) (m ((c.tc : Thread nD τ).loc main_arg2)) :=
  (read_binary (a := main_arg2) (b := main_v10) (y := main_v11)
    (f := (cmpi .ne : (⟨S2048, .i32⟩ : BufTy).Contents (Elt F) → (⟨S2048, .i32⟩ : BufTy).Contents (Elt F) → (⟨S2048, .i1⟩ : BufTy).Contents (Elt F)))
    ops_fresh 12 (hp := by rw [ops_length]; omega) (hop := rfl)).trans (by first | (rw [at_main_arg2 m c, at_main_v10 m c]; rfl) | rw [at_main_arg2 m c, at_main_v10 m c])
theorem at_main_c_0 : after (ops (F := F)) (launchContents m c) (Proc.devRef .tc main_c_0)
    = val_main_c_0 (F := F) :=
  (read_nullary (y := main_c_0) (v := val_main_c_0 (F := F)) ops_fresh 13 (hp := by rw [ops_length]; omega) (hop := rfl)).trans rfl
theorem at_main_call0_v0 : after (ops (F := F)) (launchContents m c) (Proc.devRef .tc main_call0_v0)
    = val_main_call0_v0 (F := F) :=
  (read_unary (x := main_c_0) (y := main_call0_v0)
    (f := (id : (⟨S_, .i32⟩ : BufTy).Contents (Elt F) → (⟨S_, .i32⟩ : BufTy).Contents (Elt F)))
    ops_fresh 14 (hp := by rw [ops_length]; omega) (hop := rfl)).trans (by first | (rw [at_main_c_0 m c]; rfl) | rw [at_main_c_0 m c])
theorem at_main_call0_v1 : after (ops (F := F)) (launchContents m c) (Proc.devRef .tc main_call0_v1)
    = val_main_call0_v1 (F := F) :=
  (read_unary (x := main_call0_v0) (y := main_call0_v1)
    (f := ((broadcastInDim S2048 ![] bcast_S_S2048) : (⟨S_, .i32⟩ : BufTy).Contents (Elt F) → (⟨S2048, .i32⟩ : BufTy).Contents (Elt F)))
    ops_fresh 15 (hp := by rw [ops_length]; omega) (hop := rfl)).trans (by first | (rw [at_main_call0_v0 m c]; rfl) | rw [at_main_call0_v0 m c])
theorem at_main_v12 : after (ops (F := F)) (launchContents m c) (Proc.devRef .tc main_v12)
    = val_main_v12 (F := F) (m ((c.tc : Thread nD τ).loc main_arg2)) :=
  (read_ternary (c := main_v11) (a := main_arg2) (b := main_call0_v1) (y := main_v12)
    (f := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)))
    ops_fresh 16 (hp := by rw [ops_length]; omega) (hop := rfl)).trans (by first | (rw [at_main_v11 m c, at_main_arg2 m c, at_main_call0_v1 m c]; rfl) | rw [at_main_v11 m c, at_main_arg2 m c, at_main_call0_v1 m c])
theorem at_main_call1_cst : after (ops (F := F)) (launchContents m c) (Proc.devRef .tc main_call1_cst)
    = val_main_call1_cst (F := F) :=
  (read_nullary (y := main_call1_cst) (v := val_main_call1_cst (F := F)) ops_fresh 17 (hp := by rw [ops_length]; omega) (hop := rfl)).trans rfl
theorem at_main_call1_v0 : after (ops (F := F)) (launchContents m c) (Proc.devRef .tc main_call1_v0)
    = val_main_call1_v0 (F := F) (m ((c.tc : Thread nD τ).loc main_arg0)) (m ((c.tc : Thread nD τ).loc main_arg3)) (m ((c.tc : Thread nD τ).loc main_arg4)) :=
  (read_binary (a := main_v4) (b := main_call1_cst) (y := main_call1_v0)
    (f := ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)))
    ops_fresh 18 (hp := by rw [ops_length]; omega) (hop := rfl)).trans (by first | (rw [at_main_v4 m c, at_main_call1_cst m c]; rfl) | rw [at_main_v4 m c, at_main_call1_cst m c])
theorem at_main_call1_cst_0 : after (ops (F := F)) (launchContents m c) (Proc.devRef .tc main_call1_cst_0)
    = val_main_call1_cst_0 (F := F) :=
  (read_nullary (y := main_call1_cst_0) (v := val_main_call1_cst_0 (F := F)) ops_fresh 19 (hp := by rw [ops_length]; omega) (hop := rfl)).trans rfl
theorem at_main_call1_v1 : after (ops (F := F)) (launchContents m c) (Proc.devRef .tc main_call1_v1)
    = val_main_call1_v1 (F := F) :=
  (read_unary (x := main_call1_cst_0) (y := main_call1_v1)
    (f := ((broadcastInDim S2048 ![] bcast_S_S2048) : (⟨S_, .f32⟩ : BufTy).Contents (Elt F) → (⟨S2048, .f32⟩ : BufTy).Contents (Elt F)))
    ops_fresh 20 (hp := by rw [ops_length]; omega) (hop := rfl)).trans (by first | (rw [at_main_call1_cst_0 m c]; rfl) | rw [at_main_call1_cst_0 m c])
theorem at_main_call1_v2 : after (ops (F := F)) (launchContents m c) (Proc.devRef .tc main_call1_v2)
    = val_main_call1_v2 (F := F) (m ((c.tc : Thread nD τ).loc main_arg0)) (m ((c.tc : Thread nD τ).loc main_arg3)) (m ((c.tc : Thread nD τ).loc main_arg4)) :=
  (read_binary (a := main_call1_v1) (b := main_call1_v0) (y := main_call1_v2)
    (f := (maximumf : (⟨S2048, .f32⟩ : BufTy).Contents (Elt F) → (⟨S2048, .f32⟩ : BufTy).Contents (Elt F) → (⟨S2048, .f32⟩ : BufTy).Contents (Elt F)))
    ops_fresh 21 (hp := by rw [ops_length]; omega) (hop := rfl)).trans (by first | (rw [at_main_call1_v1 m c, at_main_call1_v0 m c]; rfl) | rw [at_main_call1_v1 m c, at_main_call1_v0 m c])
theorem at_main_call1_v3 : after (ops (F := F)) (launchContents m c) (Proc.devRef .tc main_call1_v3)
    = val_main_call1_v3 (F := F) (m ((c.tc : Thread nD τ).loc main_arg0)) (m ((c.tc : Thread nD τ).loc main_arg3)) (m ((c.tc : Thread nD τ).loc main_arg4)) :=
  (read_unary (x := main_call1_v2) (y := main_call1_v3)
    (f := ((broadcastInDim S2048x1 ![0] bcast_S2048_S2048x1_0) : (⟨S2048, .f32⟩ : BufTy).Contents (Elt F) → (⟨S2048x1, .f32⟩ : BufTy).Contents (Elt F)))
    ops_fresh 22 (hp := by rw [ops_length]; omega) (hop := rfl)).trans (by first | (rw [at_main_call1_v2 m c]; rfl) | rw [at_main_call1_v2 m c])
theorem at_main_call1_v4 : after (ops (F := F)) (launchContents m c) (Proc.devRef .tc main_call1_v4)
    = val_main_call1_v4 (F := F) (m ((c.tc : Thread nD τ).loc main_arg0)) (m ((c.tc : Thread nD τ).loc main_arg3)) (m ((c.tc : Thread nD τ).loc main_arg4)) :=
  (read_unary (x := main_call1_v3) (y := main_call1_v4)
    (f := ((broadcastInDim S2048x32000 ![0, 1] bcast_S2048x1_S2048x32000_0_1) : (⟨S2048x1, .f32⟩ : BufTy).Contents (Elt F) → (⟨S2048x32000, .f32⟩ : BufTy).Contents (Elt F)))
    ops_fresh 23 (hp := by rw [ops_length]; omega) (hop := rfl)).trans (by first | (rw [at_main_call1_v3 m c]; rfl) | rw [at_main_call1_v3 m c])
theorem at_main_call1_v5 : after (ops (F := F)) (launchContents m c) (Proc.devRef .tc main_call1_v5)
    = val_main_call1_v5 (F := F) (m ((c.tc : Thread nD τ).loc main_arg0)) (m ((c.tc : Thread nD τ).loc main_arg3)) (m ((c.tc : Thread nD τ).loc main_arg4)) :=
  (read_binary (a := main_v4) (b := main_call1_v4) (y := main_call1_v5)
    (f := (subf : (⟨S2048x32000, .f32⟩ : BufTy).Contents (Elt F) → (⟨S2048x32000, .f32⟩ : BufTy).Contents (Elt F) → (⟨S2048x32000, .f32⟩ : BufTy).Contents (Elt F)))
    ops_fresh 24 (hp := by rw [ops_length]; omega) (hop := rfl)).trans (by first | (rw [at_main_v4 m c, at_main_call1_v4 m c]; rfl) | rw [at_main_v4 m c, at_main_call1_v4 m c])
theorem at_main_call1_v6 : after (ops (F := F)) (launchContents m c) (Proc.devRef .tc main_call1_v6)
    = val_main_call1_v6 (F := F) (m ((c.tc : Thread nD τ).loc main_arg0)) (m ((c.tc : Thread nD τ).loc main_arg3)) (m ((c.tc : Thread nD τ).loc main_arg4)) :=
  (read_unary (x := main_call1_v5) (y := main_call1_v6)
    (f := (Host.exp : (⟨S2048x32000, .f32⟩ : BufTy).Contents (Elt F) → (⟨S2048x32000, .f32⟩ : BufTy).Contents (Elt F)))
    ops_fresh 25 (hp := by rw [ops_length]; omega) (hop := rfl)).trans (by first | (rw [at_main_call1_v5 m c]; rfl) | rw [at_main_call1_v5 m c])
theorem at_main_call1_cst_1 : after (ops (F := F)) (launchContents m c) (Proc.devRef .tc main_call1_cst_1)
    = val_main_call1_cst_1 (F := F) :=
  (read_nullary (y := main_call1_cst_1) (v := val_main_call1_cst_1 (F := F)) ops_fresh 26 (hp := by rw [ops_length]; omega) (hop := rfl)).trans rfl
theorem at_main_call1_v7 : after (ops (F := F)) (launchContents m c) (Proc.devRef .tc main_call1_v7)
    = val_main_call1_v7 (F := F) (m ((c.tc : Thread nD τ).loc main_arg0)) (m ((c.tc : Thread nD τ).loc main_arg3)) (m ((c.tc : Thread nD τ).loc main_arg4)) :=
  (read_binary (a := main_call1_v6) (b := main_call1_cst_1) (y := main_call1_v7)
    (f := ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)))
    ops_fresh 27 (hp := by rw [ops_length]; omega) (hop := rfl)).trans (by first | (rw [at_main_call1_v6 m c, at_main_call1_cst_1 m c]; rfl) | rw [at_main_call1_v6 m c, at_main_call1_cst_1 m c])
theorem at_main_call1_v8 : after (ops (F := F)) (launchContents m c) (Proc.devRef .tc main_call1_v8)
    = val_main_call1_v8 (F := F) (m ((c.tc : Thread nD τ).loc main_arg0)) (m ((c.tc : Thread nD τ).loc main_arg3)) (m ((c.tc : Thread nD τ).loc main_arg4)) :=
  (read_unary (x := main_call1_v7) (y := main_call1_v8)
    (f := ((broadcastInDim S2048x1 ![0] bcast_S2048_S2048x1_0) : (⟨S2048, .f32⟩ : BufTy).Contents (Elt F) → (⟨S2048x1, .f32⟩ : BufTy).Contents (Elt F)))
    ops_fresh 28 (hp := by rw [ops_length]; omega) (hop := rfl)).trans (by first | (rw [at_main_call1_v7 m c]; rfl) | rw [at_main_call1_v7 m c])
theorem at_main_call1_v9 : after (ops (F := F)) (launchContents m c) (Proc.devRef .tc main_call1_v9)
    = val_main_call1_v9 (F := F) (m ((c.tc : Thread nD τ).loc main_arg0)) (m ((c.tc : Thread nD τ).loc main_arg3)) (m ((c.tc : Thread nD τ).loc main_arg4)) :=
  (read_unary (x := main_call1_v8) (y := main_call1_v9)
    (f := (Host.log : (⟨S2048x1, .f32⟩ : BufTy).Contents (Elt F) → (⟨S2048x1, .f32⟩ : BufTy).Contents (Elt F)))
    ops_fresh 29 (hp := by rw [ops_length]; omega) (hop := rfl)).trans (by first | (rw [at_main_call1_v8 m c]; rfl) | rw [at_main_call1_v8 m c])
theorem at_main_call1_v10 : after (ops (F := F)) (launchContents m c) (Proc.devRef .tc main_call1_v10)
    = val_main_call1_v10 (F := F) (m ((c.tc : Thread nD τ).loc main_arg0)) (m ((c.tc : Thread nD τ).loc main_arg3)) (m ((c.tc : Thread nD τ).loc main_arg4)) :=
  (read_unary (x := main_call1_v9) (y := main_call1_v10)
    (f := ((broadcastInDim S2048x32000 ![0, 1] bcast_S2048x1_S2048x32000_0_1) : (⟨S2048x1, .f32⟩ : BufTy).Contents (Elt F) → (⟨S2048x32000, .f32⟩ : BufTy).Contents (Elt F)))
    ops_fresh 30 (hp := by rw [ops_length]; omega) (hop := rfl)).trans (by first | (rw [at_main_call1_v9 m c]; rfl) | rw [at_main_call1_v9 m c])
theorem at_main_v13 : after (ops (F := F)) (launchContents m c) (Proc.devRef .tc main_v13)
    = val_main_v13 (F := F) (m ((c.tc : Thread nD τ).loc main_arg0)) (m ((c.tc : Thread nD τ).loc main_arg3)) (m ((c.tc : Thread nD τ).loc main_arg4)) :=
  (read_binary (a := main_call1_v5) (b := main_call1_v10) (y := main_v13)
    (f := (subf : (⟨S2048x32000, .f32⟩ : BufTy).Contents (Elt F) → (⟨S2048x32000, .f32⟩ : BufTy).Contents (Elt F) → (⟨S2048x32000, .f32⟩ : BufTy).Contents (Elt F)))
    ops_fresh 31 (hp := by rw [ops_length]; omega) (hop := rfl)).trans (by first | (rw [at_main_call1_v5 m c, at_main_call1_v10 m c]; rfl) | rw [at_main_call1_v5 m c, at_main_call1_v10 m c])
theorem at_main_v14 : after (ops (F := F)) (launchContents m c) (Proc.devRef .tc main_v14)
    = val_main_v14 (F := F) (m ((c.tc : Thread nD τ).loc main_arg2)) :=
  (read_unary (x := main_v12) (y := main_v14)
    (f := (broadcastInDim S2048x1 ![0] bcast_S2048_S2048x1_0 : (⟨S2048, .i32⟩ : BufTy).Contents (Elt F) → (⟨S2048x1, .i32⟩ : BufTy).Contents (Elt F)))
    ops_fresh 32 (hp := by rw [ops_length]; omega) (hop := rfl)).trans (by first | (rw [at_main_v12 m c]; rfl) | rw [at_main_v12 m c])
theorem at_main_call2_c : after (ops (F := F)) (launchContents m c) (Proc.devRef .tc main_call2_c)
    = val_main_call2_c (F := F) :=
  (read_nullary (y := main_call2_c) (v := val_main_call2_c (F := F)) ops_fresh 33 (hp := by rw [ops_length]; omega) (hop := rfl)).trans rfl
theorem at_main_call2_v0 : after (ops (F := F)) (launchContents m c) (Proc.devRef .tc main_call2_v0)
    = val_main_call2_v0 (F := F) :=
  (read_unary (x := main_call2_c) (y := main_call2_v0)
    (f := ((broadcastInDim S2048x1 ![] bcast_S_S2048x1) : (⟨S_, .i32⟩ : BufTy).Contents (Elt F) → (⟨S2048x1, .i32⟩ : BufTy).Contents (Elt F)))
    ops_fresh 34 (hp := by rw [ops_length]; omega) (hop := rfl)).trans (by first | (rw [at_main_call2_c m c]; rfl) | rw [at_main_call2_c m c])
theorem at_main_call2_v1 : after (ops (F := F)) (launchContents m c) (Proc.devRef .tc main_call2_v1)
    = val_main_call2_v1 (F := F) (m ((c.tc : Thread nD τ).loc main_arg2)) :=
  (read_binary (a := main_v14) (b := main_call2_v0) (y := main_call2_v1)
    (f := ((cmpi .slt) : (⟨S2048x1, .i32⟩ : BufTy).Contents (Elt F) → (⟨S2048x1, .i32⟩ : BufTy).Contents (Elt F) → (⟨S2048x1, .i1⟩ : BufTy).Contents (Elt F)))
    ops_fresh 35 (hp := by rw [ops_length]; omega) (hop := rfl)).trans (by first | (rw [at_main_v14 m c, at_main_call2_v0 m c]; rfl) | rw [at_main_v14 m c, at_main_call2_v0 m c])
theorem at_main_call2_c_0 : after (ops (F := F)) (launchContents m c) (Proc.devRef .tc main_call2_c_0)
    = val_main_call2_c_0 (F := F) :=
  (read_nullary (y := main_call2_c_0) (v := val_main_call2_c_0 (F := F)) ops_fresh 36 (hp := by rw [ops_length]; omega) (hop := rfl)).trans rfl
theorem at_main_call2_v2 : after (ops (F := F)) (launchContents m c) (Proc.devRef .tc main_call2_v2)
    = val_main_call2_v2 (F := F) :=
  (read_unary (x := main_call2_c_0) (y := main_call2_v2)
    (f := ((broadcastInDim S2048x1 ![] bcast_S_S2048x1) : (⟨S_, .i32⟩ : BufTy).Contents (Elt F) → (⟨S2048x1, .i32⟩ : BufTy).Contents (Elt F)))
    ops_fresh 37 (hp := by rw [ops_length]; omega) (hop := rfl)).trans (by first | (rw [at_main_call2_c_0 m c]; rfl) | rw [at_main_call2_c_0 m c])
theorem at_main_call2_v3 : after (ops (F := F)) (launchContents m c) (Proc.devRef .tc main_call2_v3)
    = val_main_call2_v3 (F := F) (m ((c.tc : Thread nD τ).loc main_arg2)) :=
  (read_binary (a := main_v14) (b := main_call2_v2) (y := main_call2_v3)
    (f := (addi : (⟨S2048x1, .i32⟩ : BufTy).Contents (Elt F) → (⟨S2048x1, .i32⟩ : BufTy).Contents (Elt F) → (⟨S2048x1, .i32⟩ : BufTy).Contents (Elt F)))
    ops_fresh 38 (hp := by rw [ops_length]; omega) (hop := rfl)).trans (by first | (rw [at_main_v14 m c, at_main_call2_v2 m c]; rfl) | rw [at_main_v14 m c, at_main_call2_v2 m c])
theorem at_main_call2_v4 : after (ops (F := F)) (launchContents m c) (Proc.devRef .tc main_call2_v4)
    = val_main_call2_v4 (F := F) (m ((c.tc : Thread nD τ).loc main_arg2)) :=
  (read_ternary (c := main_call2_v1) (a := main_call2_v3) (b := main_v14) (y := main_call2_v4)
    (f := (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F)))
    ops_fresh 39 (hp := by rw [ops_length]; omega) (hop := rfl)).trans (by first | (rw [at_main_call2_v1 m c, at_main_call2_v3 m c, at_main_v14 m c]; rfl) | rw [at_main_call2_v1 m c, at_main_call2_v3 m c, at_main_v14 m c])
theorem at_main_call2_v5 : after (ops (F := F)) (launchContents m c) (Proc.devRef .tc main_call2_v5)
    = val_main_call2_v5 (F := F) (m ((c.tc : Thread nD τ).loc main_arg2)) :=
  (read_reshape (x := main_call2_v4) (y := main_call2_v5)
    ops_fresh 40 (hp := by rw [ops_length]; omega) (hop := rfl)).trans (by first | (rw [at_main_call2_v4 m c]; rfl) | rw [at_main_call2_v4 m c])
theorem at_main_call2_c_1 : after (ops (F := F)) (launchContents m c) (Proc.devRef .tc main_call2_c_1)
    = val_main_call2_c_1 (F := F) :=
  (read_nullary (y := main_call2_c_1) (v := val_main_call2_c_1 (F := F)) ops_fresh 41 (hp := by rw [ops_length]; omega) (hop := rfl)).trans rfl
theorem at_main_call2_c_2 : after (ops (F := F)) (launchContents m c) (Proc.devRef .tc main_call2_c_2)
    = val_main_call2_c_2 (F := F) :=
  (read_nullary (y := main_call2_c_2) (v := val_main_call2_c_2 (F := F)) ops_fresh 42 (hp := by rw [ops_length]; omega) (hop := rfl)).trans rfl
theorem at_main_call2_v6 : after (ops (F := F)) (launchContents m c) (Proc.devRef .tc main_call2_v6)
    = val_main_call2_v6 (F := F) :=
  (read_unary (x := main_call2_c_2) (y := main_call2_v6)
    (f := ((broadcastInDim S2048x1x1 ![] bcast_S_S2048x1x1) : (⟨S_, .i32⟩ : BufTy).Contents (Elt F) → (⟨S2048x1x1, .i32⟩ : BufTy).Contents (Elt F)))
    ops_fresh 43 (hp := by rw [ops_length]; omega) (hop := rfl)).trans (by first | (rw [at_main_call2_c_2 m c]; rfl) | rw [at_main_call2_c_2 m c])
theorem at_main_call2_v7 : after (ops (F := F)) (launchContents m c) (Proc.devRef .tc main_call2_v7)
    = val_main_call2_v7 (F := F) (m ((c.tc : Thread nD τ).loc main_arg2)) :=
  (read_binary (a := main_call2_v5) (b := main_call2_v6) (y := main_call2_v7)
    (f := ((cmpi .sge) : (⟨S2048x1x1, .i32⟩ : BufTy).Contents (Elt F) → (⟨S2048x1x1, .i32⟩ : BufTy).Contents (Elt F) → (⟨S2048x1x1, .i1⟩ : BufTy).Contents (Elt F)))
    ops_fresh 44 (hp := by rw [ops_length]; omega) (hop := rfl)).trans (by first | (rw [at_main_call2_v5 m c, at_main_call2_v6 m c]; rfl) | rw [at_main_call2_v5 m c, at_main_call2_v6 m c])
theorem at_main_call2_v8 : after (ops (F := F)) (launchContents m c) (Proc.devRef .tc main_call2_v8)
    = val_main_call2_v8 (F := F) :=
  (read_unary (x := main_call2_c_1) (y := main_call2_v8)
    (f := ((broadcastInDim S1x1x1 ![2] bcast_S1_S1x1x1_2) : (⟨S1, .i32⟩ : BufTy).Contents (Elt F) → (⟨S1x1x1, .i32⟩ : BufTy).Contents (Elt F)))
    ops_fresh 45 (hp := by rw [ops_length]; omega) (hop := rfl)).trans (by first | (rw [at_main_call2_c_1 m c]; rfl) | rw [at_main_call2_c_1 m c])
theorem at_main_call2_v9 : after (ops (F := F)) (launchContents m c) (Proc.devRef .tc main_call2_v9)
    = val_main_call2_v9 (F := F) :=
  (read_unary (x := main_call2_v8) (y := main_call2_v9)
    (f := ((broadcastInDim S2048x1x1 ![0, 1, 2] bcast_S1x1x1_S2048x1x1_0_1_2) : (⟨S1x1x1, .i32⟩ : BufTy).Contents (Elt F) → (⟨S2048x1x1, .i32⟩ : BufTy).Contents (Elt F)))
    ops_fresh 46 (hp := by rw [ops_length]; omega) (hop := rfl)).trans (by first | (rw [at_main_call2_v8 m c]; rfl) | rw [at_main_call2_v8 m c])
theorem at_main_call2_v10 : after (ops (F := F)) (launchContents m c) (Proc.devRef .tc main_call2_v10)
    = val_main_call2_v10 (F := F) (m ((c.tc : Thread nD τ).loc main_arg2)) :=
  (read_binary (a := main_call2_v5) (b := main_call2_v9) (y := main_call2_v10)
    (f := ((cmpi .sle) : (⟨S2048x1x1, .i32⟩ : BufTy).Contents (Elt F) → (⟨S2048x1x1, .i32⟩ : BufTy).Contents (Elt F) → (⟨S2048x1x1, .i1⟩ : BufTy).Contents (Elt F)))
    ops_fresh 47 (hp := by rw [ops_length]; omega) (hop := rfl)).trans (by first | (rw [at_main_call2_v5 m c, at_main_call2_v9 m c]; rfl) | rw [at_main_call2_v5 m c, at_main_call2_v9 m c])
theorem at_main_call2_v11 : after (ops (F := F)) (launchContents m c) (Proc.devRef .tc main_call2_v11)
    = val_main_call2_v11 (F := F) (m ((c.tc : Thread nD τ).loc main_arg2)) :=
  (read_binary (a := main_call2_v7) (b := main_call2_v10) (y := main_call2_v11)
    (f := (andi : (⟨S2048x1x1, .i1⟩ : BufTy).Contents (Elt F) → (⟨S2048x1x1, .i1⟩ : BufTy).Contents (Elt F) → (⟨S2048x1x1, .i1⟩ : BufTy).Contents (Elt F)))
    ops_fresh 48 (hp := by rw [ops_length]; omega) (hop := rfl)).trans (by first | (rw [at_main_call2_v7 m c, at_main_call2_v10 m c]; rfl) | rw [at_main_call2_v7 m c, at_main_call2_v10 m c])
theorem at_main_call2_c_3 : after (ops (F := F)) (launchContents m c) (Proc.devRef .tc main_call2_c_3)
    = val_main_call2_c_3 (F := F) :=
  (read_nullary (y := main_call2_c_3) (v := val_main_call2_c_3 (F := F)) ops_fresh 49 (hp := by rw [ops_length]; omega) (hop := rfl)).trans rfl
theorem at_main_call2_v12 : after (ops (F := F)) (launchContents m c) (Proc.devRef .tc main_call2_v12)
    = val_main_call2_v12 (F := F) (m ((c.tc : Thread nD τ).loc main_arg2)) :=
  (read_binary (a := main_call2_v11) (b := main_call2_c_3) (y := main_call2_v12)
    (f := ((fun x v => Host.reduce IntOp.andi x v reducesTo_S2048x1x1_S2048x1_d2 h_S_) : (⟨S2048x1x1, .i1⟩ : BufTy).Contents (Elt F) → (⟨S_, .i1⟩ : BufTy).Contents (Elt F) → (⟨S2048x1, .i1⟩ : BufTy).Contents (Elt F)))
    ops_fresh 50 (hp := by rw [ops_length]; omega) (hop := rfl)).trans (by first | (rw [at_main_call2_v11 m c, at_main_call2_c_3 m c]; rfl) | rw [at_main_call2_v11 m c, at_main_call2_c_3 m c])
theorem at_main_call2_v13 : after (ops (F := F)) (launchContents m c) (Proc.devRef .tc main_call2_v13)
    = val_main_call2_v13 (F := F) (m ((c.tc : Thread nD τ).loc main_arg0)) (m ((c.tc : Thread nD τ).loc main_arg2)) (m ((c.tc : Thread nD τ).loc main_arg3)) (m ((c.tc : Thread nD τ).loc main_arg4)) :=
  (read_binary (a := main_v13) (b := main_call2_v5) (y := main_call2_v13)
    (f := ((fun x i => Host.gather gather_S2048x32000_S2048x1x1_S2048x1_n_1_0_0_1_2_11 x i) : (⟨S2048x32000, .f32⟩ : BufTy).Contents (Elt F) → (⟨S2048x1x1, .i32⟩ : BufTy).Contents (Elt F) → (⟨S2048x1, .f32⟩ : BufTy).Contents (Elt F)))
    ops_fresh 51 (hp := by rw [ops_length]; omega) (hop := rfl)).trans (by first | (rw [at_main_v13 m c, at_main_call2_v5 m c]; rfl) | rw [at_main_v13 m c, at_main_call2_v5 m c])
theorem at_main_call2_cst : after (ops (F := F)) (launchContents m c) (Proc.devRef .tc main_call2_cst)
    = val_main_call2_cst (F := F) :=
  (read_nullary (y := main_call2_cst) (v := val_main_call2_cst (F := F)) ops_fresh 52 (hp := by rw [ops_length]; omega) (hop := rfl)).trans rfl
theorem at_main_call2_v14 : after (ops (F := F)) (launchContents m c) (Proc.devRef .tc main_call2_v14)
    = val_main_call2_v14 (F := F) :=
  (read_unary (x := main_call2_cst) (y := main_call2_v14)
    (f := ((broadcastInDim S2048x1 ![] bcast_S_S2048x1) : (⟨S_, .f32⟩ : BufTy).Contents (Elt F) → (⟨S2048x1, .f32⟩ : BufTy).Contents (Elt F)))
    ops_fresh 53 (hp := by rw [ops_length]; omega) (hop := rfl)).trans (by first | (rw [at_main_call2_cst m c]; rfl) | rw [at_main_call2_cst m c])
theorem at_main_v15 : after (ops (F := F)) (launchContents m c) (Proc.devRef .tc main_v15)
    = val_main_v15 (F := F) (m ((c.tc : Thread nD τ).loc main_arg0)) (m ((c.tc : Thread nD τ).loc main_arg2)) (m ((c.tc : Thread nD τ).loc main_arg3)) (m ((c.tc : Thread nD τ).loc main_arg4)) :=
  (read_ternary (c := main_call2_v12) (a := main_call2_v13) (b := main_call2_v14) (y := main_v15)
    (f := (select : (⟨S2048x1, .i1⟩ : BufTy).Contents (Elt F) → (⟨S2048x1, .f32⟩ : BufTy).Contents (Elt F) → (⟨S2048x1, .f32⟩ : BufTy).Contents (Elt F) → (⟨S2048x1, .f32⟩ : BufTy).Contents (Elt F)))
    ops_fresh 54 (hp := by rw [ops_length]; omega) (hop := rfl)).trans (by first | (rw [at_main_call2_v12 m c, at_main_call2_v13 m c, at_main_call2_v14 m c]; rfl) | rw [at_main_call2_v12 m c, at_main_call2_v13 m c, at_main_call2_v14 m c])
theorem at_main_v16 : after (ops (F := F)) (launchContents m c) (Proc.devRef .tc main_v16)
    = val_main_v16 (F := F) (m ((c.tc : Thread nD τ).loc main_arg0)) (m ((c.tc : Thread nD τ).loc main_arg2)) (m ((c.tc : Thread nD τ).loc main_arg3)) (m ((c.tc : Thread nD τ).loc main_arg4)) :=
  (read_reshape (x := main_v15) (y := main_v16)
    ops_fresh 55 (hp := by rw [ops_length]; omega) (hop := rfl)).trans (by first | (rw [at_main_v15 m c]; rfl) | rw [at_main_v15 m c])
theorem at_main_v17 : after (ops (F := F)) (launchContents m c) (Proc.devRef .tc main_v17)
    = val_main_v17 (F := F) (m ((c.tc : Thread nD τ).loc main_arg0)) (m ((c.tc : Thread nD τ).loc main_arg2)) (m ((c.tc : Thread nD τ).loc main_arg3)) (m ((c.tc : Thread nD τ).loc main_arg4)) :=
  (read_unary (x := main_v16) (y := main_v17)
    (f := (Host.negf : (⟨S2048, .f32⟩ : BufTy).Contents (Elt F) → (⟨S2048, .f32⟩ : BufTy).Contents (Elt F)))
    ops_fresh 56 (hp := by rw [ops_length]; omega) (hop := rfl)).trans (by first | (rw [at_main_v16 m c]; rfl) | rw [at_main_v16 m c])
theorem at_main_v18 : after (ops (F := F)) (launchContents m c) (Proc.devRef .tc main_v18)
    = val_main_v18 (F := F) (m ((c.tc : Thread nD τ).loc main_arg2)) :=
  (read_unary (x := main_v11) (y := main_v18)
    (f := ((extui 32 · natLt_1_32) : (⟨S2048, .i1⟩ : BufTy).Contents (Elt F) → (⟨S2048, .i32⟩ : BufTy).Contents (Elt F)))
    ops_fresh 57 (hp := by rw [ops_length]; omega) (hop := rfl)).trans (by first | (rw [at_main_v11 m c]; rfl) | rw [at_main_v11 m c])
theorem at_main_c_1 : after (ops (F := F)) (launchContents m c) (Proc.devRef .tc main_c_1)
    = val_main_c_1 (F := F) :=
  (read_nullary (y := main_c_1) (v := val_main_c_1 (F := F)) ops_fresh 58 (hp := by rw [ops_length]; omega) (hop := rfl)).trans rfl
theorem at_main_v19 : after (ops (F := F)) (launchContents m c) (Proc.devRef .tc main_v19)
    = val_main_v19 (F := F) (m ((c.tc : Thread nD τ).loc main_arg2)) :=
  (read_binary (a := main_v18) (b := main_c_1) (y := main_v19)
    (f := ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)))
    ops_fresh 59 (hp := by rw [ops_length]; omega) (hop := rfl)).trans (by first | (rw [at_main_v18 m c, at_main_c_1 m c]; rfl) | rw [at_main_v18 m c, at_main_c_1 m c])
theorem at_main_c_2 : after (ops (F := F)) (launchContents m c) (Proc.devRef .tc main_c_2)
    = val_main_c_2 (F := F) :=
  (read_nullary (y := main_c_2) (v := val_main_c_2 (F := F)) ops_fresh 60 (hp := by rw [ops_length]; omega) (hop := rfl)).trans rfl
theorem at_main_v20 : after (ops (F := F)) (launchContents m c) (Proc.devRef .tc main_v20)
    = val_main_v20 (F := F) (m ((c.tc : Thread nD τ).loc main_arg2)) :=
  (read_binary (a := main_v19) (b := main_c_2) (y := main_v20)
    (f := (maxsi : (⟨S_, .i32⟩ : BufTy).Contents (Elt F) → (⟨S_, .i32⟩ : BufTy).Contents (Elt F) → (⟨S_, .i32⟩ : BufTy).Contents (Elt F)))
    ops_fresh 61 (hp := by rw [ops_length]; omega) (hop := rfl)).trans (by first | (rw [at_main_v19 m c, at_main_c_2 m c]; rfl) | rw [at_main_v19 m c, at_main_c_2 m c])
theorem at_main_cst : after (ops (F := F)) (launchContents m c) (Proc.devRef .tc main_cst)
    = val_main_cst (F := F) :=
  (read_nullary (y := main_cst) (v := val_main_cst (F := F)) ops_fresh 62 (hp := by rw [ops_length]; omega) (hop := rfl)).trans rfl
theorem at_main_call3_v0 : after (ops (F := F)) (launchContents m c) (Proc.devRef .tc main_call3_v0)
    = val_main_call3_v0 (F := F) :=
  (read_unary (x := main_cst) (y := main_call3_v0)
    (f := (id : (⟨S_, .f32⟩ : BufTy).Contents (Elt F) → (⟨S_, .f32⟩ : BufTy).Contents (Elt F)))
    ops_fresh 63 (hp := by rw [ops_length]; omega) (hop := rfl)).trans (by first | (rw [at_main_cst m c]; rfl) | rw [at_main_cst m c])
theorem at_main_call3_v1 : after (ops (F := F)) (launchContents m c) (Proc.devRef .tc main_call3_v1)
    = val_main_call3_v1 (F := F) :=
  (read_unary (x := main_call3_v0) (y := main_call3_v1)
    (f := ((broadcastInDim S2048 ![] bcast_S_S2048) : (⟨S_, .f32⟩ : BufTy).Contents (Elt F) → (⟨S2048, .f32⟩ : BufTy).Contents (Elt F)))
    ops_fresh 64 (hp := by rw [ops_length]; omega) (hop := rfl)).trans (by first | (rw [at_main_call3_v0 m c]; rfl) | rw [at_main_call3_v0 m c])
theorem at_main_v21 : after (ops (F := F)) (launchContents m c) (Proc.devRef .tc main_v21)
    = val_main_v21 (F := F) (m ((c.tc : Thread nD τ).loc main_arg0)) (m ((c.tc : Thread nD τ).loc main_arg2)) (m ((c.tc : Thread nD τ).loc main_arg3)) (m ((c.tc : Thread nD τ).loc main_arg4)) :=
  (read_ternary (c := main_v11) (a := main_v17) (b := main_call3_v1) (y := main_v21)
    (f := (select : (⟨S2048, .i1⟩ : BufTy).Contents (Elt F) → (⟨S2048, .f32⟩ : BufTy).Contents (Elt F) → (⟨S2048, .f32⟩ : BufTy).Contents (Elt F) → (⟨S2048, .f32⟩ : BufTy).Contents (Elt F)))
    ops_fresh 65 (hp := by rw [ops_length]; omega) (hop := rfl)).trans (by first | (rw [at_main_v11 m c, at_main_v17 m c, at_main_call3_v1 m c]; rfl) | rw [at_main_v11 m c, at_main_v17 m c, at_main_call3_v1 m c])
theorem at_main_cst_3 : after (ops (F := F)) (launchContents m c) (Proc.devRef .tc main_cst_3)
    = val_main_cst_3 (F := F) :=
  (read_nullary (y := main_cst_3) (v := val_main_cst_3 (F := F)) ops_fresh 66 (hp := by rw [ops_length]; omega) (hop := rfl)).trans rfl
theorem at_main_v22 : after (ops (F := F)) (launchContents m c) (Proc.devRef .tc main_v22)
    = val_main_v22 (F := F) (m ((c.tc : Thread nD τ).loc main_arg0)) (m ((c.tc : Thread nD τ).loc main_arg2)) (m ((c.tc : Thread nD τ).loc main_arg3)) (m ((c.tc : Thread nD τ).loc main_arg4)) :=
  (read_binary (a := main_v21) (b := main_cst_3) (y := main_v22)
    (f := ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)))
    ops_fresh 67 (hp := by rw [ops_length]; omega) (hop := rfl)).trans (by first | (rw [at_main_v21 m c, at_main_cst_3 m c]; rfl) | rw [at_main_v21 m c, at_main_cst_3 m c])
theorem at_main_v23 : after (ops (F := F)) (launchContents m c) (Proc.devRef .tc main_v23)
    = val_main_v23 (F := F) (m ((c.tc : Thread nD τ).loc main_arg2)) :=
  (read_unary (x := main_v20) (y := main_v23)
    (f := (sitofp .f32 : (⟨S_, .i32⟩ : BufTy).Contents (Elt F) → (⟨S_, .f32⟩ : BufTy).Contents (Elt F)))
    ops_fresh 68 (hp := by rw [ops_length]; omega) (hop := rfl)).trans (by first | (rw [at_main_v20 m c]; rfl) | rw [at_main_v20 m c])
theorem at_main_v24 : after (ops (F := F)) (launchContents m c) (Proc.devRef .tc main_v24)
    = val_main_v24 (F := F) (m ((c.tc : Thread nD τ).loc main_arg0)) (m ((c.tc : Thread nD τ).loc main_arg2)) (m ((c.tc : Thread nD τ).loc main_arg3)) (m ((c.tc : Thread nD τ).loc main_arg4)) :=
  (read_binary (a := main_v22) (b := main_v23) (y := main_v24)
    (f := (Host.divf : (⟨S_, .f32⟩ : BufTy).Contents (Elt F) → (⟨S_, .f32⟩ : BufTy).Contents (Elt F) → (⟨S_, .f32⟩ : BufTy).Contents (Elt F)))
    ops_fresh 69 (hp := by rw [ops_length]; omega) (hop := rfl)).trans (by first | (rw [at_main_v22 m c, at_main_v23 m c]; rfl) | rw [at_main_v22 m c, at_main_v23 m c])
theorem at_main_cst_4 : after (ops (F := F)) (launchContents m c) (Proc.devRef .tc main_cst_4)
    = val_main_cst_4 (F := F) :=
  (read_nullary (y := main_cst_4) (v := val_main_cst_4 (F := F)) ops_fresh 70 (hp := by rw [ops_length]; omega) (hop := rfl)).trans rfl
theorem at_main_v25 : after (ops (F := F)) (launchContents m c) (Proc.devRef .tc main_v25)
    = val_main_v25 (F := F) :=
  (read_unary (x := main_cst_4) (y := main_v25)
    (f := (broadcastInDim S2048x32000 ![] bcast_S_S2048x32000 : (⟨S_, .f32⟩ : BufTy).Contents (Elt F) → (⟨S2048x32000, .f32⟩ : BufTy).Contents (Elt F)))
    ops_fresh 71 (hp := by rw [ops_length]; omega) (hop := rfl)).trans (by first | (rw [at_main_cst_4 m c]; rfl) | rw [at_main_cst_4 m c])
theorem at_main_v26 : after (ops (F := F)) (launchContents m c) (Proc.devRef .tc main_v26)
    = val_main_v26 (F := F) (m ((c.tc : Thread nD τ).loc main_arg0)) (m ((c.tc : Thread nD τ).loc main_arg3)) (m ((c.tc : Thread nD τ).loc main_arg4)) :=
  (read_binary (a := main_v4) (b := main_v25) (y := main_v26)
    (f := (Host.divf : (⟨S2048x32000, .f32⟩ : BufTy).Contents (Elt F) → (⟨S2048x32000, .f32⟩ : BufTy).Contents (Elt F) → (⟨S2048x32000, .f32⟩ : BufTy).Contents (Elt F)))
    ops_fresh 72 (hp := by rw [ops_length]; omega) (hop := rfl)).trans (by first | (rw [at_main_v4 m c, at_main_v25 m c]; rfl) | rw [at_main_v4 m c, at_main_v25 m c])
theorem at_main_cst_5 : after (ops (F := F)) (launchContents m c) (Proc.devRef .tc main_cst_5)
    = val_main_cst_5 (F := F) :=
  (read_nullary (y := main_cst_5) (v := val_main_cst_5 (F := F)) ops_fresh 73 (hp := by rw [ops_length]; omega) (hop := rfl)).trans rfl
theorem at_main_v27 : after (ops (F := F)) (launchContents m c) (Proc.devRef .tc main_v27)
    = val_main_v27 (F := F) :=
  (read_unary (x := main_cst_5) (y := main_v27)
    (f := (broadcastInDim S2048x32000 ![] bcast_S_S2048x32000 : (⟨S_, .f32⟩ : BufTy).Contents (Elt F) → (⟨S2048x32000, .f32⟩ : BufTy).Contents (Elt F)))
    ops_fresh 74 (hp := by rw [ops_length]; omega) (hop := rfl)).trans (by first | (rw [at_main_cst_5 m c]; rfl) | rw [at_main_cst_5 m c])
theorem at_main_v28 : after (ops (F := F)) (launchContents m c) (Proc.devRef .tc main_v28)
    = val_main_v28 (F := F) (m ((c.tc : Thread nD τ).loc main_arg1)) (m ((c.tc : Thread nD τ).loc main_arg5)) (m ((c.tc : Thread nD τ).loc main_arg6)) :=
  (read_binary (a := main_v9) (b := main_v27) (y := main_v28)
    (f := (Host.divf : (⟨S2048x32000, .f32⟩ : BufTy).Contents (Elt F) → (⟨S2048x32000, .f32⟩ : BufTy).Contents (Elt F) → (⟨S2048x32000, .f32⟩ : BufTy).Contents (Elt F)))
    ops_fresh 75 (hp := by rw [ops_length]; omega) (hop := rfl)).trans (by first | (rw [at_main_v9 m c, at_main_v27 m c]; rfl) | rw [at_main_v9 m c, at_main_v27 m c])
theorem at_main_call4_v0 : after (ops (F := F)) (launchContents m c) (Proc.devRef .tc main_call4_v0)
    = val_main_call4_v0 (F := F) (m ((c.tc : Thread nD τ).loc main_arg0)) (m ((c.tc : Thread nD τ).loc main_arg3)) (m ((c.tc : Thread nD τ).loc main_arg4)) :=
  (read_binary (a := main_v26) (b := main_v26) (y := main_call4_v0)
    (f := (mulf : (⟨S2048x32000, .f32⟩ : BufTy).Contents (Elt F) → (⟨S2048x32000, .f32⟩ : BufTy).Contents (Elt F) → (⟨S2048x32000, .f32⟩ : BufTy).Contents (Elt F)))
    ops_fresh 76 (hp := by rw [ops_length]; omega) (hop := rfl)).trans (by first | (rw [at_main_v26 m c]; rfl) | rw [at_main_v26 m c])
theorem at_main_call4_cst : after (ops (F := F)) (launchContents m c) (Proc.devRef .tc main_call4_cst)
    = val_main_call4_cst (F := F) :=
  (read_nullary (y := main_call4_cst) (v := val_main_call4_cst (F := F)) ops_fresh 77 (hp := by rw [ops_length]; omega) (hop := rfl)).trans rfl
theorem at_main_call4_v1 : after (ops (F := F)) (launchContents m c) (Proc.devRef .tc main_call4_v1)
    = val_main_call4_v1 (F := F) (m ((c.tc : Thread nD τ).loc main_arg0)) (m ((c.tc : Thread nD τ).loc main_arg3)) (m ((c.tc : Thread nD τ).loc main_arg4)) :=
  (read_binary (a := main_call4_v0) (b := main_call4_cst) (y := main_call4_v1)
    (f := ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)))
    ops_fresh 78 (hp := by rw [ops_length]; omega) (hop := rfl)).trans (by first | (rw [at_main_call4_v0 m c, at_main_call4_cst m c]; rfl) | rw [at_main_call4_v0 m c, at_main_call4_cst m c])
theorem at_main_call4_v2 : after (ops (F := F)) (launchContents m c) (Proc.devRef .tc main_call4_v2)
    = val_main_call4_v2 (F := F) (m ((c.tc : Thread nD τ).loc main_arg0)) (m ((c.tc : Thread nD τ).loc main_arg3)) (m ((c.tc : Thread nD τ).loc main_arg4)) :=
  (read_unary (x := main_call4_v1) (y := main_call4_v2)
    (f := ((broadcastInDim S2048x1 ![0] bcast_S2048_S2048x1_0) : (⟨S2048, .f32⟩ : BufTy).Contents (Elt F) → (⟨S2048x1, .f32⟩ : BufTy).Contents (Elt F)))
    ops_fresh 79 (hp := by rw [ops_length]; omega) (hop := rfl)).trans (by first | (rw [at_main_call4_v1 m c]; rfl) | rw [at_main_call4_v1 m c])
theorem at_main_v29 : after (ops (F := F)) (launchContents m c) (Proc.devRef .tc main_v29)
    = val_main_v29 (F := F) (m ((c.tc : Thread nD τ).loc main_arg0)) (m ((c.tc : Thread nD τ).loc main_arg3)) (m ((c.tc : Thread nD τ).loc main_arg4)) :=
  (read_unary (x := main_call4_v2) (y := main_v29)
    (f := (Host.sqrt : (⟨S2048x1, .f32⟩ : BufTy).Contents (Elt F) → (⟨S2048x1, .f32⟩ : BufTy).Contents (Elt F)))
    ops_fresh 80 (hp := by rw [ops_length]; omega) (hop := rfl)).trans (by first | (rw [at_main_call4_v2 m c]; rfl) | rw [at_main_call4_v2 m c])
theorem at_main_cst_6 : after (ops (F := F)) (launchContents m c) (Proc.devRef .tc main_cst_6)
    = val_main_cst_6 (F := F) :=
  (read_nullary (y := main_cst_6) (v := val_main_cst_6 (F := F)) ops_fresh 81 (hp := by rw [ops_length]; omega) (hop := rfl)).trans rfl
theorem at_main_v30 : after (ops (F := F)) (launchContents m c) (Proc.devRef .tc main_v30)
    = val_main_v30 (F := F) :=
  (read_unary (x := main_cst_6) (y := main_v30)
    (f := (broadcastInDim S2048x1 ![] bcast_S_S2048x1 : (⟨S_, .f32⟩ : BufTy).Contents (Elt F) → (⟨S2048x1, .f32⟩ : BufTy).Contents (Elt F)))
    ops_fresh 82 (hp := by rw [ops_length]; omega) (hop := rfl)).trans (by first | (rw [at_main_cst_6 m c]; rfl) | rw [at_main_cst_6 m c])
theorem at_main_v31 : after (ops (F := F)) (launchContents m c) (Proc.devRef .tc main_v31)
    = val_main_v31 (F := F) (m ((c.tc : Thread nD τ).loc main_arg0)) (m ((c.tc : Thread nD τ).loc main_arg3)) (m ((c.tc : Thread nD τ).loc main_arg4)) :=
  (read_binary (a := main_v29) (b := main_v30) (y := main_v31)
    (f := (maximumf : (⟨S2048x1, .f32⟩ : BufTy).Contents (Elt F) → (⟨S2048x1, .f32⟩ : BufTy).Contents (Elt F) → (⟨S2048x1, .f32⟩ : BufTy).Contents (Elt F)))
    ops_fresh 83 (hp := by rw [ops_length]; omega) (hop := rfl)).trans (by first | (rw [at_main_v29 m c, at_main_v30 m c]; rfl) | rw [at_main_v29 m c, at_main_v30 m c])
theorem at_main_v32 : after (ops (F := F)) (launchContents m c) (Proc.devRef .tc main_v32)
    = val_main_v32 (F := F) (m ((c.tc : Thread nD τ).loc main_arg0)) (m ((c.tc : Thread nD τ).loc main_arg3)) (m ((c.tc : Thread nD τ).loc main_arg4)) :=
  (read_unary (x := main_v31) (y := main_v32)
    (f := (broadcastInDim S2048x32000 ![0, 1] bcast_S2048x1_S2048x32000_0_1 : (⟨S2048x1, .f32⟩ : BufTy).Contents (Elt F) → (⟨S2048x32000, .f32⟩ : BufTy).Contents (Elt F)))
    ops_fresh 84 (hp := by rw [ops_length]; omega) (hop := rfl)).trans (by first | (rw [at_main_v31 m c]; rfl) | rw [at_main_v31 m c])
theorem at_main_v33 : after (ops (F := F)) (launchContents m c) (Proc.devRef .tc main_v33)
    = val_main_v33 (F := F) (m ((c.tc : Thread nD τ).loc main_arg0)) (m ((c.tc : Thread nD τ).loc main_arg3)) (m ((c.tc : Thread nD τ).loc main_arg4)) :=
  (read_binary (a := main_v26) (b := main_v32) (y := main_v33)
    (f := (Host.divf : (⟨S2048x32000, .f32⟩ : BufTy).Contents (Elt F) → (⟨S2048x32000, .f32⟩ : BufTy).Contents (Elt F) → (⟨S2048x32000, .f32⟩ : BufTy).Contents (Elt F)))
    ops_fresh 85 (hp := by rw [ops_length]; omega) (hop := rfl)).trans (by first | (rw [at_main_v26 m c, at_main_v32 m c]; rfl) | rw [at_main_v26 m c, at_main_v32 m c])
theorem at_main_call5_v0 : after (ops (F := F)) (launchContents m c) (Proc.devRef .tc main_call5_v0)
    = val_main_call5_v0 (F := F) (m ((c.tc : Thread nD τ).loc main_arg1)) (m ((c.tc : Thread nD τ).loc main_arg5)) (m ((c.tc : Thread nD τ).loc main_arg6)) :=
  (read_binary (a := main_v28) (b := main_v28) (y := main_call5_v0)
    (f := (mulf : (⟨S2048x32000, .f32⟩ : BufTy).Contents (Elt F) → (⟨S2048x32000, .f32⟩ : BufTy).Contents (Elt F) → (⟨S2048x32000, .f32⟩ : BufTy).Contents (Elt F)))
    ops_fresh 86 (hp := by rw [ops_length]; omega) (hop := rfl)).trans (by first | (rw [at_main_v28 m c]; rfl) | rw [at_main_v28 m c])
theorem at_main_call5_cst : after (ops (F := F)) (launchContents m c) (Proc.devRef .tc main_call5_cst)
    = val_main_call5_cst (F := F) :=
  (read_nullary (y := main_call5_cst) (v := val_main_call5_cst (F := F)) ops_fresh 87 (hp := by rw [ops_length]; omega) (hop := rfl)).trans rfl
theorem at_main_call5_v1 : after (ops (F := F)) (launchContents m c) (Proc.devRef .tc main_call5_v1)
    = val_main_call5_v1 (F := F) (m ((c.tc : Thread nD τ).loc main_arg1)) (m ((c.tc : Thread nD τ).loc main_arg5)) (m ((c.tc : Thread nD τ).loc main_arg6)) :=
  (read_binary (a := main_call5_v0) (b := main_call5_cst) (y := main_call5_v1)
    (f := ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)))
    ops_fresh 88 (hp := by rw [ops_length]; omega) (hop := rfl)).trans (by first | (rw [at_main_call5_v0 m c, at_main_call5_cst m c]; rfl) | rw [at_main_call5_v0 m c, at_main_call5_cst m c])
theorem at_main_call5_v2 : after (ops (F := F)) (launchContents m c) (Proc.devRef .tc main_call5_v2)
    = val_main_call5_v2 (F := F) (m ((c.tc : Thread nD τ).loc main_arg1)) (m ((c.tc : Thread nD τ).loc main_arg5)) (m ((c.tc : Thread nD τ).loc main_arg6)) :=
  (read_unary (x := main_call5_v1) (y := main_call5_v2)
    (f := ((broadcastInDim S2048x1 ![0] bcast_S2048_S2048x1_0) : (⟨S2048, .f32⟩ : BufTy).Contents (Elt F) → (⟨S2048x1, .f32⟩ : BufTy).Contents (Elt F)))
    ops_fresh 89 (hp := by rw [ops_length]; omega) (hop := rfl)).trans (by first | (rw [at_main_call5_v1 m c]; rfl) | rw [at_main_call5_v1 m c])
theorem at_main_v34 : after (ops (F := F)) (launchContents m c) (Proc.devRef .tc main_v34)
    = val_main_v34 (F := F) (m ((c.tc : Thread nD τ).loc main_arg1)) (m ((c.tc : Thread nD τ).loc main_arg5)) (m ((c.tc : Thread nD τ).loc main_arg6)) :=
  (read_unary (x := main_call5_v2) (y := main_v34)
    (f := (Host.sqrt : (⟨S2048x1, .f32⟩ : BufTy).Contents (Elt F) → (⟨S2048x1, .f32⟩ : BufTy).Contents (Elt F)))
    ops_fresh 90 (hp := by rw [ops_length]; omega) (hop := rfl)).trans (by first | (rw [at_main_call5_v2 m c]; rfl) | rw [at_main_call5_v2 m c])
theorem at_main_cst_7 : after (ops (F := F)) (launchContents m c) (Proc.devRef .tc main_cst_7)
    = val_main_cst_7 (F := F) :=
  (read_nullary (y := main_cst_7) (v := val_main_cst_7 (F := F)) ops_fresh 91 (hp := by rw [ops_length]; omega) (hop := rfl)).trans rfl
theorem at_main_v35 : after (ops (F := F)) (launchContents m c) (Proc.devRef .tc main_v35)
    = val_main_v35 (F := F) :=
  (read_unary (x := main_cst_7) (y := main_v35)
    (f := (broadcastInDim S2048x1 ![] bcast_S_S2048x1 : (⟨S_, .f32⟩ : BufTy).Contents (Elt F) → (⟨S2048x1, .f32⟩ : BufTy).Contents (Elt F)))
    ops_fresh 92 (hp := by rw [ops_length]; omega) (hop := rfl)).trans (by first | (rw [at_main_cst_7 m c]; rfl) | rw [at_main_cst_7 m c])
theorem at_main_v36 : after (ops (F := F)) (launchContents m c) (Proc.devRef .tc main_v36)
    = val_main_v36 (F := F) (m ((c.tc : Thread nD τ).loc main_arg1)) (m ((c.tc : Thread nD τ).loc main_arg5)) (m ((c.tc : Thread nD τ).loc main_arg6)) :=
  (read_binary (a := main_v34) (b := main_v35) (y := main_v36)
    (f := (maximumf : (⟨S2048x1, .f32⟩ : BufTy).Contents (Elt F) → (⟨S2048x1, .f32⟩ : BufTy).Contents (Elt F) → (⟨S2048x1, .f32⟩ : BufTy).Contents (Elt F)))
    ops_fresh 93 (hp := by rw [ops_length]; omega) (hop := rfl)).trans (by first | (rw [at_main_v34 m c, at_main_v35 m c]; rfl) | rw [at_main_v34 m c, at_main_v35 m c])
theorem at_main_v37 : after (ops (F := F)) (launchContents m c) (Proc.devRef .tc main_v37)
    = val_main_v37 (F := F) (m ((c.tc : Thread nD τ).loc main_arg1)) (m ((c.tc : Thread nD τ).loc main_arg5)) (m ((c.tc : Thread nD τ).loc main_arg6)) :=
  (read_unary (x := main_v36) (y := main_v37)
    (f := (broadcastInDim S2048x32000 ![0, 1] bcast_S2048x1_S2048x32000_0_1 : (⟨S2048x1, .f32⟩ : BufTy).Contents (Elt F) → (⟨S2048x32000, .f32⟩ : BufTy).Contents (Elt F)))
    ops_fresh 94 (hp := by rw [ops_length]; omega) (hop := rfl)).trans (by first | (rw [at_main_v36 m c]; rfl) | rw [at_main_v36 m c])
theorem at_main_v38 : after (ops (F := F)) (launchContents m c) (Proc.devRef .tc main_v38)
    = val_main_v38 (F := F) (m ((c.tc : Thread nD τ).loc main_arg1)) (m ((c.tc : Thread nD τ).loc main_arg5)) (m ((c.tc : Thread nD τ).loc main_arg6)) :=
  (read_binary (a := main_v28) (b := main_v37) (y := main_v38)
    (f := (Host.divf : (⟨S2048x32000, .f32⟩ : BufTy).Contents (Elt F) → (⟨S2048x32000, .f32⟩ : BufTy).Contents (Elt F) → (⟨S2048x32000, .f32⟩ : BufTy).Contents (Elt F)))
    ops_fresh 95 (hp := by rw [ops_length]; omega) (hop := rfl)).trans (by first | (rw [at_main_v28 m c, at_main_v37 m c]; rfl) | rw [at_main_v28 m c, at_main_v37 m c])
theorem at_main_v39 : after (ops (F := F)) (launchContents m c) (Proc.devRef .tc main_v39)
    = val_main_v39 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_v33) (b := main_v38) (y := main_v39)
    (f := (mulf : (⟨S2048x32000, .f32⟩ : BufTy).Contents (Elt F) → (⟨S2048x32000, .f32⟩ : BufTy).Contents (Elt F) → (⟨S2048x32000, .f32⟩ : BufTy).Contents (Elt F)))
    ops_fresh 96 (hp := by rw [ops_length]; omega) (hop := rfl)).trans (by first | (rw [at_main_v33 m c, at_main_v38 m c]; rfl) | rw [at_main_v33 m c, at_main_v38 m c])
theorem at_main_cst_8 : after (ops (F := F)) (launchContents m c) (Proc.devRef .tc main_cst_8)
    = val_main_cst_8 (F := F) :=
  (read_nullary (y := main_cst_8) (v := val_main_cst_8 (F := F)) ops_fresh 97 (hp := by rw [ops_length]; omega) (hop := rfl)).trans rfl
theorem at_main_v40 : after (ops (F := F)) (launchContents m c) (Proc.devRef .tc main_v40)
    = val_main_v40 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_v39) (b := main_cst_8) (y := main_v40)
    (f := ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)))
    ops_fresh 98 (hp := by rw [ops_length]; omega) (hop := rfl)).trans (by first | (rw [at_main_v39 m c, at_main_cst_8 m c]; rfl) | rw [at_main_v39 m c, at_main_cst_8 m c])
theorem at_main_cst_9 : after (ops (F := F)) (launchContents m c) (Proc.devRef .tc main_cst_9)
    = val_main_cst_9 (F := F) :=
  (read_nullary (y := main_cst_9) (v := val_main_cst_9 (F := F)) ops_fresh 99 (hp := by rw [ops_length]; omega) (hop := rfl)).trans rfl
theorem at_main_v41 : after (ops (F := F)) (launchContents m c) (Proc.devRef .tc main_v41)
    = val_main_v41 (F := F) :=
  (read_unary (x := main_cst_9) (y := main_v41)
    (f := (broadcastInDim S2048 ![] bcast_S_S2048 : (⟨S_, .f32⟩ : BufTy).Contents (Elt F) → (⟨S2048, .f32⟩ : BufTy).Contents (Elt F)))
    ops_fresh 100 (hp := by rw [ops_length]; omega) (hop := rfl)).trans (by first | (rw [at_main_cst_9 m c]; rfl) | rw [at_main_cst_9 m c])
theorem at_main_v42 : after (ops (F := F)) (launchContents m c) (Proc.devRef .tc main_v42)
    = val_main_v42 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_v41) (b := main_v40) (y := main_v42)
    (f := (subf : (⟨S2048, .f32⟩ : BufTy).Contents (Elt F) → (⟨S2048, .f32⟩ : BufTy).Contents (Elt F) → (⟨S2048, .f32⟩ : BufTy).Contents (Elt F)))
    ops_fresh 101 (hp := by rw [ops_length]; omega) (hop := rfl)).trans (by first | (rw [at_main_v41 m c, at_main_v40 m c]; rfl) | rw [at_main_v41 m c, at_main_v40 m c])
theorem at_main_cst_10 : after (ops (F := F)) (launchContents m c) (Proc.devRef .tc main_cst_10)
    = val_main_cst_10 (F := F) :=
  (read_nullary (y := main_cst_10) (v := val_main_cst_10 (F := F)) ops_fresh 102 (hp := by rw [ops_length]; omega) (hop := rfl)).trans rfl
theorem at_main_v43 : after (ops (F := F)) (launchContents m c) (Proc.devRef .tc main_v43)
    = val_main_v43 (F := F) :=
  (read_unary (x := main_cst_10) (y := main_v43)
    (f := (broadcastInDim S2048 ![] bcast_S_S2048 : (⟨S_, .f32⟩ : BufTy).Contents (Elt F) → (⟨S2048, .f32⟩ : BufTy).Contents (Elt F)))
    ops_fresh 103 (hp := by rw [ops_length]; omega) (hop := rfl)).trans (by first | (rw [at_main_cst_10 m c]; rfl) | rw [at_main_cst_10 m c])
theorem at_main_v44 : after (ops (F := F)) (launchContents m c) (Proc.devRef .tc main_v44)
    = val_main_v44 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_v43) (b := main_v42) (y := main_v44)
    (f := (mulf : (⟨S2048, .f32⟩ : BufTy).Contents (Elt F) → (⟨S2048, .f32⟩ : BufTy).Contents (Elt F) → (⟨S2048, .f32⟩ : BufTy).Contents (Elt F)))
    ops_fresh 104 (hp := by rw [ops_length]; omega) (hop := rfl)).trans (by first | (rw [at_main_v43 m c, at_main_v42 m c]; rfl) | rw [at_main_v43 m c, at_main_v42 m c])
theorem at_main_cst_11 : after (ops (F := F)) (launchContents m c) (Proc.devRef .tc main_cst_11)
    = val_main_cst_11 (F := F) :=
  (read_nullary (y := main_cst_11) (v := val_main_cst_11 (F := F)) ops_fresh 105 (hp := by rw [ops_length]; omega) (hop := rfl)).trans rfl
theorem at_main_v45 : after (ops (F := F)) (launchContents m c) (Proc.devRef .tc main_v45)
    = val_main_v45 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_v44) (b := main_cst_11) (y := main_v45)
    (f := ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)))
    ops_fresh 106 (hp := by rw [ops_length]; omega) (hop := rfl)).trans (by first | (rw [at_main_v44 m c, at_main_cst_11 m c]; rfl) | rw [at_main_v44 m c, at_main_cst_11 m c])
theorem at_main_cst_12 : after (ops (F := F)) (launchContents m c) (Proc.devRef .tc main_cst_12)
    = val_main_cst_12 (F := F) :=
  (read_nullary (y := main_cst_12) (v := val_main_cst_12 (F := F)) ops_fresh 107 (hp := by rw [ops_length]; omega) (hop := rfl)).trans rfl
theorem at_main_v46 : after (ops (F := F)) (launchContents m c) (Proc.devRef .tc main_v46)
    = val_main_v46 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_v45) (b := main_cst_12) (y := main_v46)
    (f := (Host.divf : (⟨S_, .f32⟩ : BufTy).Contents (Elt F) → (⟨S_, .f32⟩ : BufTy).Contents (Elt F) → (⟨S_, .f32⟩ : BufTy).Contents (Elt F)))
    ops_fresh 108 (hp := by rw [ops_length]; omega) (hop := rfl)).trans (by first | (rw [at_main_v45 m c, at_main_cst_12 m c]; rfl) | rw [at_main_v45 m c, at_main_cst_12 m c])
theorem at_main_cst_13 : after (ops (F := F)) (launchContents m c) (Proc.devRef .tc main_cst_13)
    = val_main_cst_13 (F := F) :=
  (read_nullary (y := main_cst_13) (v := val_main_cst_13 (F := F)) ops_fresh 109 (hp := by rw [ops_length]; omega) (hop := rfl)).trans rfl
theorem at_main_v47 : after (ops (F := F)) (launchContents m c) (Proc.devRef .tc main_v47)
    = val_main_v47 (F := F) (m ((c.tc : Thread nD τ).loc main_arg0)) (m ((c.tc : Thread nD τ).loc main_arg2)) (m ((c.tc : Thread nD τ).loc main_arg3)) (m ((c.tc : Thread nD τ).loc main_arg4)) :=
  (read_binary (a := main_cst_13) (b := main_v24) (y := main_v47)
    (f := (mulf : (⟨S_, .f32⟩ : BufTy).Contents (Elt F) → (⟨S_, .f32⟩ : BufTy).Contents (Elt F) → (⟨S_, .f32⟩ : BufTy).Contents (Elt F)))
    ops_fresh 110 (hp := by rw [ops_length]; omega) (hop := rfl)).trans (by first | (rw [at_main_cst_13 m c, at_main_v24 m c]; rfl) | rw [at_main_cst_13 m c, at_main_v24 m c])
theorem at_main_cst_14 : after (ops (F := F)) (launchContents m c) (Proc.devRef .tc main_cst_14)
    = val_main_cst_14 (F := F) :=
  (read_nullary (y := main_cst_14) (v := val_main_cst_14 (F := F)) ops_fresh 111 (hp := by rw [ops_length]; omega) (hop := rfl)).trans rfl
theorem at_main_v48 : after (ops (F := F)) (launchContents m c) (Proc.devRef .tc main_v48)
    = val_main_v48 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (read_binary (a := main_cst_14) (b := main_v46) (y := main_v48)
    (f := (mulf : (⟨S_, .f32⟩ : BufTy).Contents (Elt F) → (⟨S_, .f32⟩ : BufTy).Contents (Elt F) → (⟨S_, .f32⟩ : BufTy).Contents (Elt F)))
    ops_fresh 112 (hp := by rw [ops_length]; omega) (hop := rfl)).trans (by first | (rw [at_main_cst_14 m c, at_main_v46 m c]; rfl) | rw [at_main_cst_14 m c, at_main_v46 m c])
theorem at_main_v49 : after (ops (F := F)) (launchContents m c) (Proc.devRef .tc main_v49)
    = val_main_v49 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (read_binary (a := main_v47) (b := main_v48) (y := main_v49)
    (f := (addf : (⟨S_, .f32⟩ : BufTy).Contents (Elt F) → (⟨S_, .f32⟩ : BufTy).Contents (Elt F) → (⟨S_, .f32⟩ : BufTy).Contents (Elt F)))
    ops_fresh 113 (hp := by rw [ops_length]; omega) (hop := rfl)).trans (by first | (rw [at_main_v47 m c, at_main_v48 m c]; rfl) | rw [at_main_v47 m c, at_main_v48 m c])

end Cert.Distill.Ref

end
-- ==== Proof.RefRunVal.lean ====
/-
  The reference program's run, with its result at the one-operation-deep value of its last buffer.

  The reference program is a straight line of host operations.  It runs to a state in which every buffer holds what
  the line leaves in it.  The stage lemmas read each buffer after the whole line; the last of them is the result, and
  the seven argument buffers are written by no operation.
-/
import proofs.«424027_j51376398794762_3_alg».proof.Proof.RefStages

noncomputable section

namespace Cert.Distill.Ref

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

set_option maxRecDepth 8192 in
set_option maxHeartbeats 4000000 in
/-- THE RUN: from any memory with zero counters the reference program terminates with its result buffer at the value
    of its last operation, as a function of the launched arguments, and its arguments unchanged. -/
theorem run_val (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49)
        = val_main_v49 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v49).trans (at_main_v49 m c),
      (h c main_arg0).trans (at_main_arg0 m c),
      (h c main_arg1).trans (at_main_arg1 m c),
      (h c main_arg2).trans (at_main_arg2 m c),
      (h c main_arg3).trans (at_main_arg3 m c),
      (h c main_arg4).trans (at_main_arg4 m c),
      (h c main_arg5).trans (at_main_arg5 m c),
      (h c main_arg6).trans (at_main_arg6 m c)⟩)
    (run_seq scopedRefs_eq scopedSems_eq defs main (fun _ => ops) main_eq (fun _ => ops_sub) m ρ)

end Cert.Distill.Ref

end
-- ==== Proof.Spec.lean ====
/-
  The distillation loss, row by row, on the extended reals.

  A row of the batch has a student logit vector σ and a teacher logit vector θ over the
  vocabulary, and a label τ.  Its hard term is the negative log-likelihood
  log (∑ exp σ) - σ τ, its soft term one minus the cosine of σ and θ.  The loss is half the
  mean of the hard terms over the valid rows plus half the mean of the soft terms over all rows.

  Two programs compute it.  One streams the vocabulary in tiles and keeps six running
  statistics per row (a running maximum m, the sum of exp (σ - m), the picked logit, and the
  three sums σ·σ, θ·θ, σ·θ); from these `nllOf` and `cosOf` give the two terms.  The other
  normalises first: `refNll` shifts by the row maximum, `refCos` divides each vector by its
  norm before the dot product.  This file only writes the formulas down.
-/
import Idealize.ShloMosaic.PureOps.Ideal
import Idealize.ShloMosaic.Lib.ValueIdx
import Mathlib.Algebra.BigOperators.Group.Finset.Basic
import Mathlib.Data.Finset.Fold

open Idealize.ShloMosaic
open scoped BigOperators

noncomputable section

namespace Cert.Distill

/-! ### The float words the two programs carry, read as extended reals -/

/-- 0.0 -/
def zero : EReal := Ideal.ofBits .f32 0x00000000#32
/-- 1.0 -/
def one : EReal := Ideal.ofBits .f32 0x3F800000#32
/-- 0.5 -/
def half : EReal := Ideal.ofBits .f32 0x3F000000#32
/-- the norm floor, the float nearest 1e-12 -/
def eps : EReal := Ideal.ofBits .f32 0x2B8CBCCC#32
/-- 2048.0, the number of rows -/
def rows : EReal := Ideal.ofBits .f32 0x45000000#32
/-- the large finite negative number the running maximum starts from -/
def negBig : EReal := Ideal.ofBits .f32 0xFF333332#32
/-- minus infinity -/
def negInf : EReal := Ideal.ofBits .f32 0xFF800000#32

/-! ### Logits -/

/-- The logit of row `r` at vocabulary entry `v`: the row of `x` against row `v` of `w`, plus the bias. -/
def logit {H : Nat} (x : (⟨2, ![2048, H]⟩ : Shape).Idx → EReal) (w : (⟨2, ![32000, H]⟩ : Shape).Idx → EReal)
    (b : (⟨1, ![32000]⟩ : Shape).Idx → EReal) (r : Fin 2048) (v : Fin 32000) : EReal :=
  (∑ k : Fin H, x (ValueIdx.ix2 r k) * w (ValueIdx.ix2 v k)) + b (ValueIdx.ix1 v)

/-! ### Labels -/

/-- The word -100 that marks a row to be ignored. -/
def ignoreWord : BitVec 32 := 4294967196#32

/-- A row is valid when its label is not the ignore word (as a one-bit word). -/
def validBit (lab : (⟨1, ![2048]⟩ : Shape).Idx → BitVec 32) (r : Fin 2048) : BitVec 1 :=
  IntOp.cmpi .ne (lab (ValueIdx.ix1 r)) ignoreWord

/-- The weight of a row in the hard term: 1 for a valid row, 0 for an ignored one. -/
def weight (lab : (⟨1, ![2048]⟩ : Shape).Idx → BitVec 32) (r : Fin 2048) : EReal :=
  if validBit lab r = 1#1 then 1 else 0

/-- The vocabulary entry a row's label picks: entry 0 for an ignored row, else the label
    (read modulo the vocabulary size, which changes nothing for a label in range). -/
def pick (lab : (⟨1, ![2048]⟩ : Shape).Idx → BitVec 32) (r : Fin 2048) : Fin 32000 :=
  if lab (ValueIdx.ix1 r) = ignoreWord then ⟨0, by decide⟩
  else ⟨(lab (ValueIdx.ix1 r)).toNat % 32000, Nat.mod_lt _ (by decide)⟩

/-- Every label is the ignore word or a vocabulary entry. -/
def LabelsInRange (lab : (⟨1, ![2048]⟩ : Shape).Idx → BitVec 32) : Prop :=
  ∀ r : Fin 2048, lab (ValueIdx.ix1 r) = ignoreWord ∨ (lab (ValueIdx.ix1 r)).toNat < 32000

/-! ### One row, from the streamed statistics -/

/-- The hard term from the running maximum `m`, the sum `l` of exp (σ - m) and the picked logit `g`. -/
def nllOf (m l g : EReal) : EReal := (m + Ideal.log l) - g

/-- The cosine from the sums `a` = σ·σ, `b` = θ·θ, `c` = σ·θ, each norm floored at `eps`. -/
def cosOf (a b c : EReal) : EReal := Ideal.div c (max (Ideal.sqrt a) eps * max (Ideal.sqrt b) eps)

/-! ### One row, normalising first -/

/-- The row maximum as a fold of `max` from minus infinity. -/
def rowMax (σ : Fin 32000 → EReal) : EReal := (Finset.univ : Finset (Fin 32000)).fold max negInf σ

/-- The hard term by log-softmax: minus ((σ τ - M) - log (∑ exp (σ - M))), M the row maximum. -/
def refNll (σ : Fin 32000 → EReal) (τ : Fin 32000) : EReal :=
  -((σ τ - max negInf (rowMax σ)) - Ideal.log (zero + ∑ v, Ideal.exp (σ v - max negInf (rowMax σ))))

/-- A vector entry divided by the temperature 1 and then by the floored norm of the vector. -/
def unitEntry (σ : Fin 32000 → EReal) (v : Fin 32000) : EReal :=
  Ideal.div (Ideal.div (σ v) one)
    (max (Ideal.sqrt (zero + ∑ u, Ideal.div (σ u) one * Ideal.div (σ u) one)) eps)

/-- The cosine as the dot product of the two normalised vectors. -/
def refCos (σ θ : Fin 32000 → EReal) : EReal := zero + ∑ v, unitEntry σ v * unitEntry θ v

/-! ### The loss from the per-row terms -/

/-- The soft half: half the mean over all rows of 1 · (1 - cosine). -/
def softHalf (cos : Fin 2048 → EReal) : EReal :=
  half * Ideal.div (zero + ∑ r, one * (one - cos r)) rows

/-- The loss with the hard terms weighted by 0 / 1 weights and divided by max (∑ weights, 1). -/
def lossWeighted (nll cos w : Fin 2048 → EReal) : EReal :=
  half * Ideal.div (zero + ∑ r, nll r * w r) (max (zero + ∑ r, w r) one) + softHalf cos

/-- The loss with the hard terms selected by the validity bit and divided by a given count. -/
def lossSelected (nll cos : Fin 2048 → EReal) (valid : Fin 2048 → BitVec 1) (cnt : EReal) : EReal :=
  half * Ideal.div (zero + ∑ r, Scalar.select (valid r) (nll r) zero) cnt + softHalf cos

end Cert.Distill

end
-- ==== Proof.RefLogit.lean ====
/-
  The two logit matrices of the reference.

  Each is a matrix product with a transposed weight plus a bias broadcast down the rows.  Read at
  row `r` and vocabulary entry `v`, the product is the sum over the hidden axis of the row of the
  input against row `v` of the weight, and the bias is read at `v`: that is `logit`.
-/
import proofs.«424027_j51376398794762_3_alg».proof.Proof.Spec
import proofs.«424027_j51376398794762_3_alg».proof.Proof.RefRead

noncomputable section

open Cert.ReferenceIdeal Cert.ReferenceIdeal.Gen Cert.ReferenceIdeal.Read Idealize.ShloMosaic Idealize.ShloMosaic.ValueIdx
open scoped BigOperators

namespace Cert.Distill.Ref

/-! ### Indices

The generated stages read their operands at indices computed from the result's index; at an index
built from coordinates each is again an index built from coordinates. -/

/-- Row `r` of the left factor, at contraction position `k`. -/
theorem lidx_v1 (r : Fin 2048) (v : Fin 32000) (k : Fin 1024) : lidx_main_v1 (ix2 r v) k = ix2 r k :=
  funext fun a => Fin.ext (by match a with | ⟨0, _⟩ => rfl | ⟨1, _⟩ => rfl)

/-- The transposed weight at `(k, v)` is the weight at `(v, k)`. -/
theorem ridx_v1 (r : Fin 2048) (v : Fin 32000) (k : Fin 1024) : idx_main_v0 (ridx_main_v1 (ix2 r v) k) = ix2 v k :=
  funext fun a => Fin.ext (by match a with | ⟨0, _⟩ => rfl | ⟨1, _⟩ => rfl)

/-- The bias broadcast down the rows is read at the column. -/
theorem bidx_v3 (r : Fin 2048) (v : Fin 32000) : idx_main_v2 (idx_main_v3 (ix2 r v)) = ix1 v :=
  funext fun a => Fin.ext (by match a with | ⟨0, _⟩ => rfl)

theorem lidx_v6 (r : Fin 2048) (v : Fin 32000) (k : Fin 2048) : lidx_main_v6 (ix2 r v) k = ix2 r k :=
  funext fun a => Fin.ext (by match a with | ⟨0, _⟩ => rfl | ⟨1, _⟩ => rfl)

theorem ridx_v6 (r : Fin 2048) (v : Fin 32000) (k : Fin 2048) : idx_main_v5 (ridx_main_v6 (ix2 r v) k) = ix2 v k :=
  funext fun a => Fin.ext (by match a with | ⟨0, _⟩ => rfl | ⟨1, _⟩ => rfl)

theorem bidx_v8 (r : Fin 2048) (v : Fin 32000) : idx_main_v7 (idx_main_v8 (ix2 r v)) = ix1 v :=
  funext fun a => Fin.ext (by match a with | ⟨0, _⟩ => rfl)

/-! ### The two logit matrices -/

/-- The student logits: the product with the transposed weight plus the broadcast bias is `logit`. -/
theorem v4_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) (v : Fin 32000) :
    val_main_v4 (F := Ideal) x0 x3 x4 (ix2 r v) = logit x0 x3 x4 r v := by
  rw [val_main_v4_apply, val_main_v1_apply, val_main_v3_apply, val_main_v2_apply]
  unfold logit
  refine congrArg₂ (· + ·) (Finset.sum_congr rfl fun k _ => ?_) (congrArg x4 (bidx_v3 r v))
  rw [val_main_v0_apply]
  exact congrArg₂ (· * ·) (congrArg x0 (lidx_v1 r v k)) (congrArg x3 (ridx_v1 r v k))

/-- The teacher logits likewise. -/
theorem v9_at (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) (v : Fin 32000) :
    val_main_v9 (F := Ideal) x1 x5 x6 (ix2 r v) = logit x1 x5 x6 r v := by
  rw [val_main_v9_apply, val_main_v6_apply, val_main_v8_apply, val_main_v7_apply]
  unfold logit
  refine congrArg₂ (· + ·) (Finset.sum_congr rfl fun k _ => ?_) (congrArg x6 (bidx_v8 r v))
  rw [val_main_v5_apply]
  exact congrArg₂ (· * ·) (congrArg x1 (lidx_v6 r v k)) (congrArg x5 (ridx_v6 r v k))

end Cert.Distill.Ref

end
-- ==== Proof.RefLib.lean ====
/-
  Three host operations read at an index, over plain shapes.

  * A take along the second axis of a matrix, row by row: the gather whose first operand axis is a
    batching axis paired with the first axis of the start indices, whose second operand axis is
    collapsed and start-indexed.  Row `r` of the result is the operand's row `r` at the start word of
    row `r`, read signed and clamped into the row.
  * The maximum over the second axis of a matrix: at row `r` the fold of `max` over the row.
  * The conjunction over a unit axis: the one element there, and-ed with the initial value.

  A sum over the indices of a vector as the sum over its coordinate range.
  Then the words these reads meet: a one-bit word and-ed with 1, and the signed comparisons of a
  32-bit word below 32000 with 0 and with 31999.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueIdxRank1
import Idealize.ShloMosaic.Lib.StableHlo.Predicate
import Mathlib.Data.Finset.Fold

open Idealize.ShloMosaic Idealize.ShloMosaic.ValueIdx
open scoped BigOperators

noncomputable section

namespace Cert.Distill.Ref

/-! ### The row-wise take -/

/-- The dimension numbers of the row-wise take for an operand `[R, N]`, start indices `[R, 1, 1]` and a
    result `[R, 1]`. -/
abbrev rowTakeDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The row-wise take at `(r, c)`: the operand at row `r`, at the column the start word `idx[r, c, 0]` names,
    read signed and clamped into `[0, N - 1]`.  On the batching axis the operand index is the result's row;
    on the collapsed axis it is the clamped start. -/
theorem gather_rowTake_apply {α : Type} {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (c : Fin 1) :
    Host.gather (rowTakeDims R N wf) x idx (ix2 r c)
      = x (ix2 r ⟨min (idx (ix3 r c (0 : Fin 1))).toInt.toNat (N - 1), by omega⟩) := by
  unfold Host.gather
  congr 1
  funext a
  refine Fin.ext ?_
  match a with
  | ⟨0, _⟩ =>
    show (rowTakeDims R N wf).start (ix2 r c) idx 0 + (rowTakeDims R N wf).batchCoord (ix2 r c) 0
        + (rowTakeDims R N wf).offCoord (ix2 r c) 0 = r.val
    rw [GatherDims.start_batching _ _ _ _ (List.mem_singleton.mpr rfl),
      GatherDims.offCoord_eq_zero _ _ _
        (fun h => ((GatherDims.mem_sKept _ _).mp h).2 (List.mem_singleton.mpr rfl))]
    simp only [Nat.zero_add, Nat.add_zero]
    rfl
  | ⟨1, _⟩ =>
    show (rowTakeDims R N wf).start (ix2 r c) idx 1 + (rowTakeDims R N wf).batchCoord (ix2 r c) 1
        + (rowTakeDims R N wf).offCoord (ix2 r c) 1 = min (idx (ix3 r c (0 : Fin 1))).toInt.toNat (N - 1)
    rw [GatherDims.batchCoord_eq_zero _ _ _ (show (1 : Fin 2) ∉ ([0] : List (Fin 2)) by decide),
      GatherDims.offCoord_eq_zero _ _ _
        (fun h => ((GatherDims.mem_sKept _ _).mp h).1 (List.mem_singleton.mpr rfl))]
    simp only [Nat.add_zero]
    unfold GatherDims.start
    rw [dif_pos (show (1 : Fin 2) ∈ (rowTakeDims R N wf).startIndexMap from List.mem_singleton.mpr rfl)]
    have hsi : (rowTakeDims R N wf).siIdx (ix2 r c) ⟨List.idxOf (1 : Fin 2) (rowTakeDims R N wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

/-! ### The maximum over the rows of a matrix -/

/-- The host's maximum over the second axis of a matrix, at row `r`: the fold of `max`, from the initial
    value, over the entries of row `r`. -/
theorem reduce_max_row_apply {R N : Nat} {u : Shape} (x : (⟨2, ![R, N]⟩ : Shape).Idx → EReal) (init : u.Idx → EReal)
    (h' : (⟨2, ![R, N]⟩ : Shape).ReducesTo [1] ⟨1, ![R]⟩) (h : (⟨2, ![R, N]⟩ : Shape).Reduces [1] ⟨1, ![R]⟩)
    (hu : 0 < u.numel) (r : Fin R) :
    Host.reduce (FloatOps.maximumf (F := Ideal) (φ := .f32)) x init h' hu (ix1 r)
      = (Finset.univ : Finset (Fin N)).fold max (init (Shape.Idx.first hu)) (fun v => x (ix2 r v)) := by
  refine (Host.reduce_eq_fold_single (FloatOps.maximumf (F := Ideal) (φ := .f32)) x init h' h hu (ix1 r)).trans ?_
  have hl : (x ∘ h.lift (ix1 r)) = fun v : Fin N => x (ix2 r v) :=
    funext fun v => congrArg x (funext fun a => Fin.ext (by match a with | ⟨0, _⟩ => rfl | ⟨1, _⟩ => rfl))
  exact congrArg (fun g : Fin N → EReal => (Finset.univ : Finset (Fin N)).fold max (init (Shape.Idx.first hu)) g) hl

/-! ### The conjunction over a unit axis -/

/-- The host's and-reduction over the last, unit, axis of an `[R, 1, 1]` mask, at `(r, c)`: the one bit there,
    and-ed with the initial value. -/
theorem reduce_and_unit_apply {R : Nat} {u : Shape} (x : IVec ⟨3, ![R, 1, 1]⟩ 1) (init : u.Idx → BitVec 1)
    (h' : (⟨3, ![R, 1, 1]⟩ : Shape).ReducesTo [2] ⟨2, ![R, 1]⟩) (h : (⟨3, ![R, 1, 1]⟩ : Shape).Reduces [2] ⟨2, ![R, 1]⟩)
    (hu : 0 < u.numel) (r : Fin R) (c : Fin 1) :
    Host.reduce IntOp.andi x init h' hu (ix2 r c)
      = IntOp.andi (x (ix3 r c (0 : Fin 1))) (init (Shape.Idx.first hu)) := by
  refine (Host.reduce_eq_fold_single IntOp.andi x init h' h hu (ix2 r c)).trans ?_
  have hl : (x ∘ h.lift (ix2 r c)) = fun k : Fin 1 => x (ix3 r c k) :=
    funext fun k => congrArg x (funext fun a => Fin.ext (by
      match a with
      | ⟨0, _⟩ => rfl
      | ⟨1, _⟩ => rfl
      | ⟨2, _⟩ => rfl))
  refine (congrArg (fun g : Fin 1 → BitVec 1 =>
    (Finset.univ : Finset (Fin 1)).fold IntOp.andi (init (Shape.Idx.first hu)) g) hl).trans ?_
  rw [Finset.univ_unique, Finset.fold_singleton]
  rfl

/-! ### A sum over a rank-1 index set -/

/-- A sum over the indices of a vector is the sum over its coordinate range. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### Words -/

/-- A one-bit word and-ed with 1 is itself. -/
theorem andi_one (b : BitVec 1) : IntOp.andi b 1#1 = b := by
  rcases BitVec.eq_zero_or_eq_one b with rfl | rfl <;> rfl

/-- A word below 32000 is not negative as a signed word. -/
theorem slt_zero_of_small {a : BitVec 32} (ha : a.toNat < 32000) : IntOp.cmpi .slt a 0#32 = 0#1 := by
  refine eq_zero_of_ne_one fun h => ?_
  have := (StableHlo.Predicate.slt_iff_toNat (a := a) (b := 0#32) (by omega) (by decide)).mp h
  simp at this

/-- … so it is at least 0 … -/
theorem sge_zero_of_small {a : BitVec 32} (ha : a.toNat < 32000) : IntOp.cmpi .sge a 0#32 = 1#1 :=
  (StableHlo.Predicate.sge_iff_toNat (a := a) (b := 0#32) (by omega) (by decide)).mpr (by simp)

/-- … and at most 31999. -/
theorem sle_last_of_small {a : BitVec 32} (ha : a.toNat < 32000) : IntOp.cmpi .sle a 31999#32 = 1#1 :=
  (StableHlo.Predicate.sle_iff_toNat (a := a) (b := 31999#32) (by omega) (by decide)).mpr (by
    show a.toNat ≤ 31999; omega)

/-- The signed reading of a word below 32000 is its value, and the clamp into `[0, 31999]` keeps it. -/
theorem clamp_of_small {a : BitVec 32} (ha : a.toNat < 32000) : min a.toInt.toNat (32000 - 1) = a.toNat := by
  rw [StableHlo.Predicate.toInt_eq_toNat_of_lt (a := a) (by omega), Int.toNat_natCast]
  omega

end Cert.Distill.Ref

end
-- ==== Proof.RefCos.lean ====
/-
  The soft half of the reference: cosine similarity row by row.

  The logits are divided by the temperature 1, each row by its norm floored at `eps`, and the
  two normalised rows are multiplied entry by entry and summed: `refCos`.  One minus that, times
  one, summed over the rows, divided by the number of rows and halved, is `softHalf`.
-/
import proofs.«424027_j51376398794762_3_alg».proof.Proof.RefLogit
import proofs.«424027_j51376398794762_3_alg».proof.Proof.RefLib

noncomputable section

open Cert.ReferenceIdeal Cert.ReferenceIdeal.Gen Cert.ReferenceIdeal.Read Idealize.ShloMosaic Idealize.ShloMosaic.ValueIdx
open scoped BigOperators

namespace Cert.Distill.Ref

/-! ### Indices of the cosine stages -/

theorem idx_call4_v1 (r : Fin 2048) (k : Fin 32000) : idx_main_call4_v1 (ix1 r) k = ix2 r k :=
  funext fun a => Fin.ext (by match a with | ⟨0, _⟩ => rfl | ⟨1, _⟩ => rfl)

theorem idx_call4_v2 (r : Fin 2048) : idx_main_call4_v2 (ix2 r (0 : Fin 1)) = ix1 r :=
  funext fun a => Fin.ext (by match a with | ⟨0, _⟩ => rfl)

theorem idx_v32 (r : Fin 2048) (v : Fin 32000) : idx_main_v32 (ix2 r v) = ix2 r (0 : Fin 1) :=
  funext fun a => Fin.ext (by match a with | ⟨0, _⟩ => rfl | ⟨1, _⟩ => rfl)

theorem idx_call5_v1 (r : Fin 2048) (k : Fin 32000) : idx_main_call5_v1 (ix1 r) k = ix2 r k :=
  funext fun a => Fin.ext (by match a with | ⟨0, _⟩ => rfl | ⟨1, _⟩ => rfl)

theorem idx_call5_v2 (r : Fin 2048) : idx_main_call5_v2 (ix2 r (0 : Fin 1)) = ix1 r :=
  funext fun a => Fin.ext (by match a with | ⟨0, _⟩ => rfl)

theorem idx_v37 (r : Fin 2048) (v : Fin 32000) : idx_main_v37 (ix2 r v) = ix2 r (0 : Fin 1) :=
  funext fun a => Fin.ext (by match a with | ⟨0, _⟩ => rfl | ⟨1, _⟩ => rfl)

theorem idx_v40 (r : Fin 2048) (k : Fin 32000) : idx_main_v40 (ix1 r) k = ix2 r k :=
  funext fun a => Fin.ext (by match a with | ⟨0, _⟩ => rfl | ⟨1, _⟩ => rfl)

/-! ### The student vector divided by its floored norm -/

/-- The logits over the temperature 1. -/
theorem v26_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) (v : Fin 32000) :
    val_main_v26 (F := Ideal) x0 x3 x4 (ix2 r v) = Ideal.div (logit x0 x3 x4 r v) one := by
  rw [val_main_v26_apply, v4_at, val_main_v25_apply, val_main_cst_4_apply]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

/-- The sum of squares of a row. -/
theorem call4_v1_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) :
    val_main_call4_v1 (F := Ideal) x0 x3 x4 (ix1 r)
      = zero + ∑ u, Ideal.div (logit x0 x3 x4 r u) one * Ideal.div (logit x0 x3 x4 r u) one := by
  rw [val_main_call4_v1_apply, val_main_call4_cst_apply]
  refine congrArg₂ (· + ·) rfl (Finset.sum_congr rfl fun k _ => ?_)
  rw [idx_call4_v1, val_main_call4_v0_apply, v26_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

/-- The floored norm of a row. -/
theorem v31_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) :
    val_main_v31 (F := Ideal) x0 x3 x4 (ix2 r (0 : Fin 1))
      = max (Ideal.sqrt (zero + ∑ u, Ideal.div (logit x0 x3 x4 r u) one * Ideal.div (logit x0 x3 x4 r u) one)) eps := by
  rw [val_main_v31_apply, val_main_v29_apply, val_main_call4_v2_apply, idx_call4_v2, call4_v1_at, val_main_v30_apply,
    val_main_cst_6_apply]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

/-- The normalised student entry. -/
theorem v33_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) (v : Fin 32000) :
    val_main_v33 (F := Ideal) x0 x3 x4 (ix2 r v) = unitEntry (logit x0 x3 x4 r) v := by
  rw [val_main_v33_apply, v26_at, val_main_v32_apply, idx_v32, v31_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

/-! ### The teacher vector likewise -/

theorem v28_at (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) (v : Fin 32000) :
    val_main_v28 (F := Ideal) x1 x5 x6 (ix2 r v) = Ideal.div (logit x1 x5 x6 r v) one := by
  rw [val_main_v28_apply, v9_at, val_main_v27_apply, val_main_cst_5_apply]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

theorem call5_v1_at (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) :
    val_main_call5_v1 (F := Ideal) x1 x5 x6 (ix1 r)
      = zero + ∑ u, Ideal.div (logit x1 x5 x6 r u) one * Ideal.div (logit x1 x5 x6 r u) one := by
  rw [val_main_call5_v1_apply, val_main_call5_cst_apply]
  refine congrArg₂ (· + ·) rfl (Finset.sum_congr rfl fun k _ => ?_)
  rw [idx_call5_v1, val_main_call5_v0_apply, v28_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

theorem v36_at (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) :
    val_main_v36 (F := Ideal) x1 x5 x6 (ix2 r (0 : Fin 1))
      = max (Ideal.sqrt (zero + ∑ u, Ideal.div (logit x1 x5 x6 r u) one * Ideal.div (logit x1 x5 x6 r u) one)) eps := by
  rw [val_main_v36_apply, val_main_v34_apply, val_main_call5_v2_apply, idx_call5_v2, call5_v1_at, val_main_v35_apply,
    val_main_cst_7_apply]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

theorem v38_at (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) (v : Fin 32000) :
    val_main_v38 (F := Ideal) x1 x5 x6 (ix2 r v) = unitEntry (logit x1 x5 x6 r) v := by
  rw [val_main_v38_apply, v28_at, val_main_v37_apply, idx_v37, v36_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

/-! ### The cosine of a row, and the soft half -/

/-- The dot product of the two normalised rows is `refCos`. -/
theorem v40_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) :
    val_main_v40 (F := Ideal) x0 x1 x3 x4 x5 x6 (ix1 r) = refCos (logit x0 x3 x4 r) (logit x1 x5 x6 r) := by
  rw [val_main_v40_apply, val_main_cst_8_apply]
  unfold refCos
  refine congrArg₂ (· + ·) rfl (Finset.sum_congr rfl fun k _ => ?_)
  rw [idx_v40, val_main_v39_apply, v33_at, v38_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

/-- One times one minus the cosine. -/
theorem v44_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x1 : (⟨S2048x2048, .f32⟩ : BufTy).Contents (Elt Ideal)) (x5 : (⟨S32000x2048, .f32⟩ : BufTy).Contents (Elt Ideal)) (x6 : (⟨S32000, .f32⟩ : BufTy).Contents (Elt Ideal)) (r : Fin 2048) :
    val_main_v44 (F := Ideal) x0 x1 x3 x4 x5 x6 (ix1 r)
      = one * (one - refCos (logit x0 x3 x4 r) (logit x1 x5 x6 r)) := by
  rw [val_main_v44_apply, val_main_v43_apply, val_main_cst_10_apply, val_main_v42_apply, val_main_v41_apply,
    val_main_cst_9_apply, v40_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

/-- The soft half of the loss: half the mean over the rows. -/
theorem v48_eq (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x1 : (⟨S2048x2048, .f32⟩ : BufTy).Contents (Elt Ideal)) (x5 : (⟨S32000x2048, .f32⟩ : BufTy).Contents (Elt Ideal)) (x6 : (⟨S32000, .f32⟩ : BufTy).Contents (Elt Ideal)) :
    val_main_v48 (F := Ideal) x0 x1 x3 x4 x5 x6 ix0
      = softHalf (fun r => refCos (logit x0 x3 x4 r) (logit x1 x5 x6 r)) := by
  rw [val_main_v48_apply, val_main_cst_14_apply, val_main_v46_apply, val_main_cst_12_apply, val_main_v45_apply,
    val_main_cst_11_apply, sum_idx1]
  unfold softHalf
  refine congrArg (fun s => half * Ideal.div (zero + s) rows) (Finset.sum_congr rfl fun r _ => ?_)
  exact v44_at x0 x3 x4 x1 x5 x6 r

end Cert.Distill.Ref

end
-- ==== Proof.RefSoftmax.lean ====
/-
  The log-softmax of the student logits, row by row.

  The row maximum is a fold of `max` from minus infinity; the shift is the maximum of minus
  infinity and that; an entry of the log-softmax is the shifted logit minus the logarithm of the
  sum of the exponentials of the shifted row.
-/
import proofs.«424027_j51376398794762_3_alg».proof.Proof.RefLogit
import proofs.«424027_j51376398794762_3_alg».proof.Proof.RefLib

noncomputable section

open Cert.ReferenceIdeal Cert.ReferenceIdeal.Gen Cert.ReferenceIdeal.Read Idealize.ShloMosaic Idealize.ShloMosaic.ValueIdx
open scoped BigOperators

namespace Cert.Distill.Ref

/-! ### Indices of the log-softmax stages -/

theorem idx_call1_v3v4 (r : Fin 2048) (v : Fin 32000) : idx_main_call1_v3 (idx_main_call1_v4 (ix2 r v)) = ix1 r :=
  funext fun a => Fin.ext (by match a with | ⟨0, _⟩ => rfl)

theorem idx_call1_v7 (r : Fin 2048) (k : Fin 32000) : idx_main_call1_v7 (ix1 r) k = ix2 r k :=
  funext fun a => Fin.ext (by match a with | ⟨0, _⟩ => rfl | ⟨1, _⟩ => rfl)

theorem idx_call1_v8v10 (r : Fin 2048) (v : Fin 32000) : idx_main_call1_v8 (idx_main_call1_v10 (ix2 r v)) = ix1 r :=
  funext fun a => Fin.ext (by match a with | ⟨0, _⟩ => rfl)

/-! ### The log-softmax of a row -/

/-- The maximum over a row, folded from minus infinity, is `rowMax`. -/
theorem call1_v0_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) :
    val_main_call1_v0 (F := Ideal) x0 x3 x4 (ix1 r) = rowMax (logit x0 x3 x4 r) := by
  unfold val_main_call1_v0
  refine (reduce_max_row_apply (val_main_v4 (F := Ideal) x0 x3 x4) (val_main_call1_cst (F := Ideal))
    reducesTo_S2048x32000_S2048_d1 (by decide) h_S_ r).trans ?_
  have hf : (fun v : Fin 32000 => val_main_v4 (F := Ideal) x0 x3 x4 (ix2 r v)) = logit x0 x3 x4 r :=
    funext fun v => v4_at x0 x3 x4 r v
  rw [hf]
  rfl

/-- The shift: the maximum of minus infinity and the row maximum. -/
theorem call1_v2_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) :
    val_main_call1_v2 (F := Ideal) x0 x3 x4 (ix1 r) = max negInf (rowMax (logit x0 x3 x4 r)) := by
  rw [val_main_call1_v2_apply, val_main_call1_v1_apply, val_main_call1_cst_0_apply, call1_v0_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]
  rfl

/-- The shifted logit. -/
theorem call1_v5_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) (v : Fin 32000) :
    val_main_call1_v5 (F := Ideal) x0 x3 x4 (ix2 r v)
      = logit x0 x3 x4 r v - max negInf (rowMax (logit x0 x3 x4 r)) := by
  rw [val_main_call1_v5_apply, v4_at, val_main_call1_v4_apply, val_main_call1_v3_apply, idx_call1_v3v4, call1_v2_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

/-- The sum of the exponentials of the shifted row. -/
theorem call1_v7_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) :
    val_main_call1_v7 (F := Ideal) x0 x3 x4 (ix1 r)
      = zero + ∑ u, Ideal.exp (logit x0 x3 x4 r u - max negInf (rowMax (logit x0 x3 x4 r))) := by
  rw [val_main_call1_v7_apply, val_main_call1_cst_1_apply]
  refine congrArg₂ (· + ·) rfl (Finset.sum_congr rfl fun k _ => ?_)
  rw [idx_call1_v7, val_main_call1_v6_apply, call1_v5_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

/-- The log-softmax entry: the shifted logit minus the log of that sum. -/
theorem v13_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (r : Fin 2048) (v : Fin 32000) :
    val_main_v13 (F := Ideal) x0 x3 x4 (ix2 r v)
      = (logit x0 x3 x4 r v - max negInf (rowMax (logit x0 x3 x4 r)))
        - Ideal.log (zero + ∑ u, Ideal.exp (logit x0 x3 x4 r u - max negInf (rowMax (logit x0 x3 x4 r)))) := by
  rw [val_main_v13_apply, call1_v5_at, val_main_call1_v10_apply, val_main_call1_v9_apply, val_main_call1_v8_apply,
    idx_call1_v8v10, call1_v7_at]
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

end Cert.Distill.Ref

end
-- ==== Proof.RefTake.lean ====
/-
  The hard half of the reference: the take along the vocabulary axis.

  An ignored row's label is replaced by 0.  Under `LabelsInRange` the resulting word is a
  vocabulary entry: it is not negative, so the wrap-around of negative indices leaves it alone;
  it is at most 31999, so the clamp of the take is the identity and the in-range mask is set.
  The take therefore reads the log-softmax of row `r` at `pick`, its negation is `refNll`, and
  the terms selected by the validity bit, summed and divided by the count, halved, are the hard half.
-/
import proofs.«424027_j51376398794762_3_alg».proof.Proof.RefSoftmax
import proofs.«424027_j51376398794762_3_alg».proof.Proof.RefLib

noncomputable section

open Cert.ReferenceIdeal Cert.ReferenceIdeal.Gen Cert.ReferenceIdeal.Read Idealize.ShloMosaic Idealize.ShloMosaic.ValueIdx
open scoped BigOperators

namespace Cert.Distill.Ref

/-! ### The label word that the take reads

An ignored row's label is replaced by 0 before the take; under `LabelsInRange` the word is then a
vocabulary entry, the one `pick` names. -/

/-- The label with the ignore word replaced by 0. -/
def safeWord (lab : (⟨1, ![2048]⟩ : Shape).Idx → BitVec 32) (r : Fin 2048) : BitVec 32 :=
  Scalar.select (validBit lab r) (lab (ix1 r)) 0#32

/-- Its value is the entry `pick` names. -/
theorem safeWord_toNat (lab : (⟨1, ![2048]⟩ : Shape).Idx → BitVec 32) (hlab : LabelsInRange lab) (r : Fin 2048) :
    (safeWord lab r).toNat = (pick lab r).val := by
  unfold safeWord pick validBit
  by_cases h : lab (ix1 r) = ignoreWord
  · rw [if_pos h, h]
    rfl
  · rw [if_neg h]
    have hv : IntOp.cmpi .ne (lab (ix1 r)) ignoreWord = 1#1 := by
      show BitVec.ofBool (lab (ix1 r) != ignoreWord) = 1#1
      rw [bne_iff_ne.mpr h]
      rfl
    rw [hv, select_one]
    exact (Nat.mod_eq_of_lt ((hlab r).resolve_left h)).symm

/-- So it is below the vocabulary size. -/
theorem safeWord_lt (lab : (⟨1, ![2048]⟩ : Shape).Idx → BitVec 32) (hlab : LabelsInRange lab) (r : Fin 2048) :
    (safeWord lab r).toNat < 32000 := by
  rw [safeWord_toNat lab hlab r]
  exact (pick lab r).isLt

/-! ### Indices of the take's stages -/

theorem idx_v14 (r : Fin 2048) : idx_main_v14 (ix2 r (0 : Fin 1)) = ix1 r :=
  funext fun a => Fin.ext (by match a with | ⟨0, _⟩ => rfl)

theorem idx_call2_v5 (r : Fin 2048) : idx_main_call2_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)

theorem idx_v16 (r : Fin 2048) : idx_main_v16 (ix1 r) = ix2 r (0 : Fin 1) :=
  funext fun a => Fin.ext (by
    match a with
    | ⟨0, _⟩ => show r.val / 1 = r.val; omega
    | ⟨1, _⟩ => rfl)

/-! ### The start word of a row -/

/-- The safe label of a row. -/
theorem v12_at (x2 : (⟨S2048, .i32⟩ : BufTy).Contents (Elt Ideal)) (r : Fin 2048) : val_main_v12 (F := Ideal) x2 (ix1 r) = safeWord x2 r := by
  rw [val_main_v12_apply, val_main_v11_apply, val_main_v10_apply, val_main_c_apply, val_main_call0_v1_apply,
    val_main_call0_v0_apply, val_main_c_0_apply]
  rfl

theorem v14_at (x2 : (⟨S2048, .i32⟩ : BufTy).Contents (Elt Ideal)) (r : Fin 2048) : val_main_v14 (F := Ideal) x2 (ix2 r (0 : Fin 1)) = safeWord x2 r := by
  rw [val_main_v14_apply, idx_v14, v12_at]

/-- The word is not negative, so the wrap-around of a negative index leaves it alone. -/
theorem call2_v4_at (x2 : (⟨S2048, .i32⟩ : BufTy).Contents (Elt Ideal)) (hlab : LabelsInRange x2) (r : Fin 2048) :
    val_main_call2_v4 (F := Ideal) x2 (ix2 r (0 : Fin 1)) = safeWord x2 r := by
  rw [val_main_call2_v4_apply, val_main_call2_v1_apply, val_main_call2_v0_apply, val_main_call2_c_apply, v14_at,
    slt_zero_of_small (safeWord_lt x2 hlab r), select_zero]

theorem call2_v5_at (x2 : (⟨S2048, .i32⟩ : BufTy).Contents (Elt Ideal)) (hlab : LabelsInRange x2) (r : Fin 2048) :
    val_main_call2_v5 (F := Ideal) x2 (ix3 r (0 : Fin 1) (0 : Fin 1)) = safeWord x2 r := by
  rw [val_main_call2_v5_apply, idx_call2_v5, call2_v4_at x2 hlab]

/-- The word is inside the row, so the in-range mask is set. -/
theorem call2_v12_at (x2 : (⟨S2048, .i32⟩ : BufTy).Contents (Elt Ideal)) (hlab : LabelsInRange x2) (r : Fin 2048) :
    val_main_call2_v12 (F := Ideal) x2 (ix2 r (0 : Fin 1)) = 1#1 := by
  unfold val_main_call2_v12
  refine (reduce_and_unit_apply (val_main_call2_v11 (F := Ideal) x2) (val_main_call2_c_3 (F := Ideal))
    reducesTo_S2048x1x1_S2048x1_d2 (by decide) h_S_ r (0 : Fin 1)).trans ?_
  rw [val_main_call2_v11_apply, val_main_call2_v7_apply, val_main_call2_v10_apply, call2_v5_at x2 hlab,
    val_main_call2_v6_apply, val_main_call2_c_2_apply, val_main_call2_v9_apply, val_main_call2_v8_apply,
    val_main_call2_c_1_apply, val_main_call2_c_3_apply, sge_zero_of_small (safeWord_lt x2 hlab r),
    sle_last_of_small (safeWord_lt x2 hlab r)]
  rfl

end Cert.Distill.Ref

namespace Cert.Distill.Ref

/-! ### The take, the hard term of a row, and the hard half -/

/-- The take reads the log-softmax of row `r` at the entry `pick` names: the start word is the safe label,
    its signed reading is its value, and the clamp into the row keeps it. -/
theorem call2_v13_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x2 : (⟨S2048, .i32⟩ : BufTy).Contents (Elt Ideal)) (hlab : LabelsInRange x2) (r : Fin 2048) :
    val_main_call2_v13 (F := Ideal) x0 x2 x3 x4 (ix2 r (0 : Fin 1))
      = val_main_v13 (F := Ideal) x0 x3 x4 (ix2 r (pick x2 r)) := by
  unfold val_main_call2_v13
  have hd : gather_S2048x32000_S2048x1x1_S2048x1_n_1_0_0_1_2_11
      = rowTakeDims 2048 32000 gather_S2048x32000_S2048x1x1_S2048x1_n_1_0_0_1_2_11_wf := rfl
  rw [hd]
  refine (gather_rowTake_apply (by decide) gather_S2048x32000_S2048x1x1_S2048x1_n_1_0_0_1_2_11_wf
    (val_main_v13 (F := Ideal) x0 x3 x4) (val_main_call2_v5 (F := Ideal) x2) r (0 : Fin 1)).trans ?_
  refine congrArg (val_main_v13 (F := Ideal) x0 x3 x4) (congrArg (ix2 r) (Fin.ext ?_))
  show min (val_main_call2_v5 (F := Ideal) x2 (ix3 r (0 : Fin 1) (0 : Fin 1))).toInt.toNat (32000 - 1) = (pick x2 r).val
  rw [call2_v5_at x2 hlab, clamp_of_small (safeWord_lt x2 hlab r), safeWord_toNat x2 hlab r]

/-- The negated pick of the log-softmax is `refNll`. -/
theorem v17_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x2 : (⟨S2048, .i32⟩ : BufTy).Contents (Elt Ideal)) (hlab : LabelsInRange x2) (r : Fin 2048) :
    val_main_v17 (F := Ideal) x0 x2 x3 x4 (ix1 r) = refNll (logit x0 x3 x4 r) (pick x2 r) := by
  rw [val_main_v17_apply, val_main_v16_apply, idx_v16, val_main_v15_apply, call2_v12_at x2 hlab, select_one,
    call2_v13_at x0 x3 x4 x2 hlab, v13_at]
  unfold refNll
  simp only [Ideal.addf_def, Ideal.subf_def, Ideal.mulf_def, Ideal.hostDivf_def, Ideal.maximumf_def,
    Ideal.hostUnary_sqrt_def, Ideal.hostUnary_exp_def, Ideal.hostUnary_log_def, Ideal.hostNegf_def, Ideal.negf_def,
    Ideal.ofBits_def]

/-- The hard term of a row, selected by the validity bit. -/
theorem v21_at (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x2 : (⟨S2048, .i32⟩ : BufTy).Contents (Elt Ideal)) (hlab : LabelsInRange x2) (r : Fin 2048) :
    val_main_v21 (F := Ideal) x0 x2 x3 x4 (ix1 r)
      = Scalar.select (validBit x2 r) (refNll (logit x0 x3 x4 r) (pick x2 r)) zero := by
  rw [val_main_v21_apply, val_main_v11_apply, val_main_v10_apply, val_main_c_apply, v17_at x0 x3 x4 x2 hlab,
    val_main_call3_v1_apply, val_main_call3_v0_apply, val_main_cst_apply]
  rfl

/-- The hard half of the loss: half the sum of the selected terms over the count. -/
theorem v47_eq (x0 : (⟨S2048x1024, .f32⟩ : BufTy).Contents (Elt Ideal)) (x3 : (⟨S32000x1024, .f32⟩ : BufTy).Contents (Elt Ideal)) (x4 : (⟨S32000, .f32⟩ : BufTy).Contents (Elt Ideal)) (x2 : (⟨S2048, .i32⟩ : BufTy).Contents (Elt Ideal)) (hlab : LabelsInRange x2) :
    val_main_v47 (F := Ideal) x0 x2 x3 x4 ix0
      = half * Ideal.div (zero + ∑ r, Scalar.select (validBit x2 r) (refNll (logit x0 x3 x4 r) (pick x2 r)) zero)
          (val_main_v23 (F := Ideal) x2 ix0) := by
  rw [val_main_v47_apply, val_main_cst_13_apply, val_main_v24_apply, val_main_v22_apply, val_main_cst_3_apply, sum_idx1]
  refine congrArg (fun s => half * Ideal.div (zero + s) (val_main_v23 (F := Ideal) x2 ix0))
    (Finset.sum_congr rfl fun r _ => ?_)
  exact v21_at x0 x3 x4 x2 hlab r

end Cert.Distill.Ref

end
-- ==== Proof.RefValue.lean ====
/-
  The reference computes the distillation loss: half the selected hard terms over the count
  plus half the mean of one minus the cosine.
-/
import proofs.«424027_j51376398794762_3_alg».proof.Proof.RefCos
import proofs.«424027_j51376398794762_3_alg».proof.Proof.RefTake

noncomputable section

open Cert.ReferenceIdeal Cert.ReferenceIdeal.Gen Cert.ReferenceIdeal.Read Idealize.ShloMosaic Idealize.ShloMosaic.ValueIdx
open scoped BigOperators

namespace Cert.Distill.Ref

/-- The reference's result is the loss with the hard terms selected by the validity bit and divided by
    the count, plus the soft half. -/
theorem ref_value (x0 : (⟨Cert.ReferenceIdeal.S2048x1024, .f32⟩ : BufTy).Contents (Elt Ideal))
    (x1 : (⟨Cert.ReferenceIdeal.S2048x2048, .f32⟩ : BufTy).Contents (Elt Ideal))
    (x2 : (⟨Cert.ReferenceIdeal.S2048, .i32⟩ : BufTy).Contents (Elt Ideal))
    (x3 : (⟨Cert.ReferenceIdeal.S32000x1024, .f32⟩ : BufTy).Contents (Elt Ideal))
    (x4 : (⟨Cert.ReferenceIdeal.S32000, .f32⟩ : BufTy).Contents (Elt Ideal))
    (x5 : (⟨Cert.ReferenceIdeal.S32000x2048, .f32⟩ : BufTy).Contents (Elt Ideal))
    (x6 : (⟨Cert.ReferenceIdeal.S32000, .f32⟩ : BufTy).Contents (Elt Ideal))
    (hlab : Cert.Distill.LabelsInRange x2) :
    Cert.ReferenceIdeal.Read.val_main_v49 (F := Ideal) x0 x1 x2 x3 x4 x5 x6
      = fun _ => Cert.Distill.lossSelected
          (fun r => Cert.Distill.refNll (Cert.Distill.logit x0 x3 x4 r) (Cert.Distill.pick x2 r))
          (fun r => Cert.Distill.refCos (Cert.Distill.logit x0 x3 x4 r) (Cert.Distill.logit x1 x5 x6 r))
          (Cert.Distill.validBit x2) (Cert.ReferenceIdeal.Read.val_main_v23 (F := Ideal) x2 ValueIdx.ix0) := by
  funext i
  obtain rfl := eq_ix0 i
  rw [val_main_v49_apply, v47_eq x0 x3 x4 x2 hlab, v48_eq x0 x3 x4 x1 x5 x6]
  rfl

end Cert.Distill.Ref

end
-- ==== Proof.PreFacts.lean ====
/-
  What the printed precondition says of the seven inputs.

  The precondition is a conjunction of one-bit words: for each of the six float inputs the word
  "every entry x has |x| < +∞", and for the labels the word "every label is -100, or is at least
  0 and below 32000" (signed comparisons of 32-bit words).  When the conjunction is 1, every float
  entry is a real number, and every label is the ignore word or a vocabulary entry.
-/
import proofs.«424027_j51376398794762_3_alg».proof.Proof.Spec
import proofs.«424027_j51376398794762_3_alg».proof.Pre_finite_inputs
import Idealize.ShloMosaic.Lib.ReduceAll
import Idealize.ShloMosaic.Lib.StableHlo.Predicate
import Idealize.ShloMosaic.PureOps.Ideal.Laws

open Idealize.ShloMosaic

namespace Cert.Distill.Pre

open Cert.Pre_finite_inputs

/-- The scalar shape has one index. -/
instance subsingleton_scalarIdx : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- "Every entry has absolute value below +∞", as the printed reduction by `and` states it,
    makes every entry a real number. -/
theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ValueIdx.ix0 = 1#1) :
    ∀ i, ∃ r : ℝ, x i = (r : EReal) := fun i =>
  real_of_abs_lt_top (x i) (Host.reduce_andi_all _ _ hr h0 _ e i)

/-- One label: the word "is -100, or is at least 0 and below 32000" being 1 puts the label in range. -/
theorem label_in_range (a : BitVec 32)
    (h : IntOp.ori (IntOp.cmpi .eq a 4294967196#32)
        (IntOp.andi (IntOp.cmpi .sge a 0#32) (IntOp.cmpi .slt a 32000#32)) = 1#1) :
    a = Cert.Distill.ignoreWord ∨ a.toNat < 32000 := by
  rcases IntOp.ori_eq_one.1 h with h | h
  · exact Or.inl (StableHlo.Predicate.cmpi_eq_iff.1 h)
  · obtain ⟨hge, hlt⟩ := IntOp.andi_eq_one.1 h
    refine Or.inr ?_
    simp only [IntOp.cmpi, StableHlo.Predicate.ofBool_eq_one_iff, BitVec.sle, BitVec.slt, decide_eq_true_eq] at hge hlt
    have h0 : (0#32 : BitVec 32).toInt = 0 := by decide
    have h1 : (32000#32 : BitVec 32).toInt = 32000 := by decide
    rw [h0] at hge
    rw [h1] at hlt
    rw [BitVec.toInt_eq_toNat_cond] at hge hlt
    have := a.isLt
    split at hge <;> omega

theorem pre_facts [Cert.Pre_finite_inputs.Facts]
    (x0 : FVec Ideal Cert.Pre_finite_inputs.S2048x1024 .f32) (x1 : FVec Ideal Cert.Pre_finite_inputs.S2048x2048 .f32)
    (x2 : IVec Cert.Pre_finite_inputs.S2048 32) (x3 : FVec Ideal Cert.Pre_finite_inputs.S32000x1024 .f32)
    (x4 : FVec Ideal Cert.Pre_finite_inputs.S32000 .f32) (x5 : FVec Ideal Cert.Pre_finite_inputs.S32000x2048 .f32)
    (x6 : FVec Ideal Cert.Pre_finite_inputs.S32000 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x3 i = (r : EReal)) ∧
      (∀ i, ∃ r : ℝ, x4 i = (r : EReal)) ∧ (∀ i, ∃ r : ℝ, x5 i = (r : EReal)) ∧ (∀ i, ∃ r : ℝ, x6 i = (r : EReal)) ∧
      Cert.Distill.LabelsInRange x2 := by
  have e := congrFun h ValueIdx.ix0
  dsimp only [fn, fn_part1, fn_part2, andi] at e
  obtain ⟨e, e2⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  refine ⟨real_of_all x0 _ _ _ e0, real_of_all x1 _ _ _ e1, real_of_all x3 _ _ _ e3, real_of_all x4 _ _ _ e4,
    real_of_all x5 _ _ _ e5, real_of_all x6 _ _ _ e6, fun r => ?_⟩
  exact label_in_range _ (Host.reduce_andi_all _ _ _ _ _ e2 (ValueIdx.ix1 r))

end Cert.Distill.Pre
-- ==== Proof.CountFacts.lean ====
/-
  The count the hard term is divided by.

  The reference counts the valid rows with 32-bit words: it widens each row's validity bit to a
  word, adds the 2048 words, takes the signed maximum of the sum and 1, and converts the result to a
  float.  The sum of 2048 words that are 0 or 1 cannot wrap, and both the sum and 1 are small and
  non-negative, so the signed maximum is the maximum of the numbers.  Read as an extended real the
  count is therefore max (number of valid rows) 1, which is the divisor max (0 + ∑ weights) 1 of
  the weighted form of the loss.  A validity bit converted to a float is the row's 0 / 1 weight.
-/
import proofs.«424027_j51376398794762_3_alg».proof.Proof.Spec
import proofs.«424027_j51376398794762_3_alg».proof.Proof.RefRead
import Idealize.ShloMosaic.Lib.StableHlo.Predicate
import Idealize.ShloMosaic.Lib.ValueIdxRank1
import Idealize.ShloMosaic.Lib.IdealHost

open Idealize.ShloMosaic
open scoped BigOperators

noncomputable section

namespace Cert.Distill.Pre

/-- The number of valid rows. -/
def validCount (x2 : (⟨1, ![2048]⟩ : Shape).Idx → BitVec 32) : ℕ :=
  ∑ r : Fin 2048, if Cert.Distill.validBit x2 r = 1#1 then 1 else 0

theorem validCount_le (x2 : (⟨1, ![2048]⟩ : Shape).Idx → BitVec 32) : validCount x2 ≤ 2048 := by
  unfold validCount
  calc (∑ r : Fin 2048, if Cert.Distill.validBit x2 r = 1#1 then 1 else 0)
      ≤ ∑ _r : Fin 2048, 1 := Finset.sum_le_sum (fun r _ => by split <;> omega)
    _ = 2048 := by simp

/-- The sum of the 0 / 1 weights is the number of valid rows. -/
theorem sum_weight (x2 : (⟨1, ![2048]⟩ : Shape).Idx → BitVec 32) :
    ∑ r : Fin 2048, Cert.Distill.weight x2 r = ((validCount x2 : ℕ) : EReal) := by
  unfold validCount Cert.Distill.weight
  rw [Nat.cast_sum]
  refine Finset.sum_congr rfl (fun r _ => ?_)
  split <;> simp

/-- The scalar shape has one index. -/
instance subsingleton_scalarIdx' : Subsingleton (⟨0, ![]⟩ : Shape).Idx := ⟨fun a b => funext fun d => d.elim0⟩

/-- The word sum of the widened validity bits does not wrap: its value is the number of valid rows. -/
theorem toNat_count (x2 : (⟨1, ![2048]⟩ : Shape).Idx → BitVec 32)
    (hb : (⟨0, ![]⟩ : Shape).BroadcastsInDim ⟨1, ![2048]⟩ (![] : Fin 0 → Fin 1))
    (hr : (⟨1, ![2048]⟩ : Shape).ReducesTo [0] ⟨0, ![]⟩) (h0 : 0 < (⟨0, ![]⟩ : Shape).numel) (hw : 1 < 32) :
    (Host.reduce IntOp.addi
        (extui 32 (cmpi .ne x2 (broadcastInDim ⟨1, ![2048]⟩ ![] hb (constantI ⟨0, ![]⟩ 32 4294967196#32))) hw)
        (constantI ⟨0, ![]⟩ 32 0#32) hr h0 ValueIdx.ix0).toNat = validCount x2 := by
  classical
  rw [Host.reduce_eq_fold]
  have hall : (Finset.univ.filter fun i : (⟨1, ![2048]⟩ : Shape).Idx => hr.drop i = ValueIdx.ix0) = Finset.univ :=
    Finset.filter_true_of_mem (fun i _ => Subsingleton.elim _ _)
  rw [hall]
  have hval : ∀ r : Fin 2048,
      (extui 32 (cmpi .ne x2 (broadcastInDim ⟨1, ![2048]⟩ ![] hb (constantI ⟨0, ![]⟩ 32 4294967196#32))) hw
          (ValueIdx.ix1 r)).toNat
        = if Cert.Distill.validBit x2 r = 1#1 then 1 else 0 :=
    fun r => StableHlo.Predicate.toNat_setWidth_bit _
  have hsum : ∑ i : (⟨1, ![2048]⟩ : Shape).Idx,
      (extui 32 (cmpi .ne x2 (broadcastInDim ⟨1, ![2048]⟩ ![] hb (constantI ⟨0, ![]⟩ 32 4294967196#32))) hw i).toNat
        = validCount x2 := by
    unfold validCount
    exact (Fintype.sum_equiv ValueIdx.idxEquiv1.symm _ _ (fun r => (hval r).symm)).symm
  show (Finset.fold IntOp.addi 0#32 _ Finset.univ).toNat = _
  rw [StableHlo.Predicate.toNat_fold_addi _ _ (by rw [hsum]; have := validCount_le x2; omega), hsum]

/-- The signed maximum of a small count and 1 is their maximum as numbers. -/
theorem toInt_maxsi_one (c : BitVec 32) (hc : c.toNat ≤ 2048) :
    (IntOp.maxsi c 1#32).toInt = ((max c.toNat 1 : ℕ) : ℤ) := by
  have hci : c.toInt = c.toNat := StableHlo.Predicate.toInt_eq_toNat_of_lt (by omega)
  have h1 : (1#32 : BitVec 32).toInt = 1 := by decide
  unfold IntOp.maxsi
  split <;> rename_i hlt <;> simp only [BitVec.slt, hci, h1, decide_eq_true_eq] at hlt
  · rw [hci]; omega
  · rw [h1]; omega

/-- The larger of a natural number and 1, read as an extended real. -/
theorem cast_max_one (N : ℕ) : ((((max N 1 : ℕ) : ℤ) : ℝ) : EReal) = max (0 + ((N : ℕ) : EReal)) 1 := by
  have hmono : Monotone (fun n : ℕ => (n : EReal)) := fun a b hab => EReal.natCast_le_iff.2 hab
  have hmax : ((max N 1 : ℕ) : EReal) = max ((N : ℕ) : EReal) ((1 : ℕ) : EReal) := hmono.map_max
  rw [Nat.cast_one] at hmax
  rw [zero_add, Int.cast_natCast]
  exact hmax

/-- The count the reference divides by, read as an extended real: the larger of the number of valid rows and 1. -/
theorem count_core (x2 : (⟨1, ![2048]⟩ : Shape).Idx → BitVec 32)
    (hb : (⟨0, ![]⟩ : Shape).BroadcastsInDim ⟨1, ![2048]⟩ (![] : Fin 0 → Fin 1))
    (hr : (⟨1, ![2048]⟩ : Shape).ReducesTo [0] ⟨0, ![]⟩) (h0 : 0 < (⟨0, ![]⟩ : Shape).numel) (hw : 1 < 32) :
    FloatOps.sitofp (F := Ideal) .f32 (IntOp.maxsi (Host.reduce IntOp.addi
        (extui 32 (cmpi .ne x2 (broadcastInDim ⟨1, ![2048]⟩ ![] hb (constantI ⟨0, ![]⟩ 32 4294967196#32))) hw)
        (constantI ⟨0, ![]⟩ 32 0#32) hr h0 ValueIdx.ix0) 1#32)
      = max (Cert.Distill.zero + ∑ r : Fin 2048, Cert.Distill.weight x2 r) Cert.Distill.one := by
  have hn := toNat_count x2 hb hr h0 hw
  have hle := validCount_le x2
  show (((IntOp.maxsi _ 1#32).toInt : ℝ) : EReal) = _
  rw [toInt_maxsi_one _ (by rw [hn]; exact hle), hn, sum_weight]
  unfold Cert.Distill.zero Cert.Distill.one
  rw [Ideal.ofBits_zero_f32, Ideal.ofBits_one_f32]
  exact cast_max_one _

/-- A validity bit converted to a float is the row's weight. -/
theorem uitofp_valid (x2 : (⟨1, ![2048]⟩ : Shape).Idx → BitVec 32) (r : Fin 2048) :
    FloatOps.uitofp (F := Ideal) .f32 (Cert.Distill.validBit x2 r) = Cert.Distill.weight x2 r := by
  show (((Cert.Distill.validBit x2 r).toNat : ℝ) : EReal) = _
  unfold Cert.Distill.weight
  rcases BitVec.eq_zero_or_eq_one (Cert.Distill.validBit x2 r) with h | h <;> rw [h] <;> simp

/-- The divisor of the reference's hard term, the count of valid rows converted to a float,
    is the larger of the sum of the weights and 1. -/
theorem count_eq (x2 : (⟨Cert.ReferenceIdeal.S2048, .i32⟩ : BufTy).Contents (Elt Ideal)) :
    Cert.ReferenceIdeal.Read.val_main_v23 (F := Ideal) x2 ValueIdx.ix0
      = max (Cert.Distill.zero + ∑ r : Fin 2048, Cert.Distill.weight x2 r) Cert.Distill.one :=
  count_core x2 Cert.ReferenceIdeal.Gen.bcast_S_S2048 Cert.ReferenceIdeal.Gen.reducesTo_S2048_S_d0
    Cert.ReferenceIdeal.Gen.h_S_ Cert.ReferenceIdeal.Gen.natLt_1_32

end Cert.Distill.Pre

end
-- ==== Proof.KernelHost.lean ====
/-
  The host operations of the streamed program, before and after its one region.

  Before the region the program prepares what the region reads: the two activation arrays narrowed to bf16, the
  validity bits, the labels with the ignored ones replaced by 0 and clipped to the vocabulary, and the labels and
  biases reshaped.  After it, the program turns the array of per-row statistics into the loss.  This file reads
  each prepared array in terms of the launched arrays, and the final scalar as `lossWeighted` of the per-row
  hard terms `nllOf` and cosines `cosOf` of the statistics, weighted by the validity bits.
-/
import proofs.«424027_j51376398794762_3_alg».proof.Proof.Spec
import proofs.«424027_j51376398794762_3_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Predicate

set_option maxRecDepth 16384

noncomputable section

namespace Cert.Distill.Host

open Idealize.ShloMosaic Idealize.ShloMosaic.TcCoe
open Cert.KernelIdeal Cert.KernelIdeal.Gen
open scoped BigOperators

variable (m : (ℓ : Loc nD τ sig) → Buf (Elt Ideal) ℓ)

/-! ### The host operations before the region

Before the region the program narrows the two activation arrays to bf16 (no change of value on the extended reals),
compares the labels with the ignore word, replaces an ignored label by 0, clips to the vocabulary, and gives the labels
and the two bias vectors a unit axis.  Each lemma reads one of the arrays the region is entered with. -/

section Prefix
open Idealize.ShloMosaic.StableHlo

/-- The student activations enter the region as launched: narrowing to bf16 changes no extended real. -/
theorem entry_x (c : Dev nD) : (V m c main_v0 : S2048x1024.Idx → EReal) = m ((c : Thread nD τ).loc main_arg0) := by
  have e : (V m c main_v0 : S2048x1024.Idx → EReal)
      = truncf (F := Ideal) .bf16 (m ((c : Thread nD τ).loc main_arg0) : S2048x1024.Idx → EReal) bitsLt_bf16_f32 := by
    dsimp only [V, V0]
    simp only [hostOps0, hostOps0_1, hostOps0_2, hostOps0_3, hostOps0_4, List.flatten_cons, List.flatten_nil, List.append_nil, List.cons_append, List.nil_append]
    after_results_simp
  rw [e]; rfl

/-- The teacher activations likewise. -/
theorem entry_t (c : Dev nD) : (V m c main_v1 : S2048x2048.Idx → EReal) = m ((c : Thread nD τ).loc main_arg1) := by
  have e : (V m c main_v1 : S2048x2048.Idx → EReal)
      = truncf (F := Ideal) .bf16 (m ((c : Thread nD τ).loc main_arg1) : S2048x2048.Idx → EReal) bitsLt_bf16_f32 := by
    dsimp only [V, V0]
    simp only [hostOps0, hostOps0_1, hostOps0_2, hostOps0_3, hostOps0_4, List.flatten_cons, List.flatten_nil, List.append_nil, List.cons_append, List.nil_append]
    after_results_simp
  rw [e]; rfl

/-- The student bias with a leading unit axis. -/
theorem entry_bias_s (c : Dev nD) (v : Fin 32000) :
    (V m c main_v7 : S1x32000.Idx → EReal) (ValueIdx.ix2 0 v) = m ((c : Thread nD τ).loc main_arg4) (ValueIdx.ix1 v) := by
  have e : (V m c main_v7 : S1x32000.Idx → EReal)
      = shapeCast S1x32000 (m ((c : Thread nD τ).loc main_arg4) : S32000.Idx → EReal) shapeCasts_S32000_S1x32000 := by
    dsimp only [V, V0]
    simp only [hostOps0, hostOps0_1, hostOps0_2, hostOps0_3, hostOps0_4, List.flatten_cons, List.flatten_nil, List.append_nil, List.cons_append, List.nil_append]
    after_results_simp
    rfl
  rw [e]
  exact ValueIdx.shapeCast_a_1a_apply _ _ 0 v

/-- The teacher bias with a leading unit axis. -/
theorem entry_bias_t (c : Dev nD) (v : Fin 32000) :
    (V m c main_v8 : S1x32000.Idx → EReal) (ValueIdx.ix2 0 v) = m ((c : Thread nD τ).loc main_arg6) (ValueIdx.ix1 v) := by
  have e : (V m c main_v8 : S1x32000.Idx → EReal)
      = shapeCast S1x32000 (m ((c : Thread nD τ).loc main_arg6) : S32000.Idx → EReal) shapeCasts_S32000_S1x32000 := by
    dsimp only [V, V0]
    simp only [hostOps0, hostOps0_1, hostOps0_2, hostOps0_3, hostOps0_4, List.flatten_cons, List.flatten_nil, List.append_nil, List.cons_append, List.nil_append]
    after_results_simp
    rfl
  rw [e]
  exact ValueIdx.shapeCast_a_1a_apply _ _ 0 v

/-- The validity bits: each label compared with the ignore word. -/
theorem entry_valid (c : Dev nD) (r : Fin 2048) :
    (V m c main_v3 : S2048.Idx → BitVec 1) (ValueIdx.ix1 r) = validBit (m ((c : Thread nD τ).loc main_arg2)) r := by
  have e : (V m c main_v3 : S2048.Idx → BitVec 1)
      = cmpi .ne (m ((c : Thread nD τ).loc main_arg2) : S2048.Idx → BitVec 32)
          (broadcastInDim S2048 ![] bcast_S_S2048 (constantI S_ 32 4294967196#32)) := by
    dsimp only [V, V0]
    simp only [hostOps0, hostOps0_1, hostOps0_2, hostOps0_3, hostOps0_4, List.flatten_cons, List.flatten_nil, List.append_nil, List.cons_append, List.nil_append]
    after_results_simp
  rw [e]; rfl

/-- A label that is the ignore word is replaced by 0, which the clip to [0, 31999] keeps. -/
theorem clip_ignored : IntOp.minsi 31999#32 (IntOp.maxsi 0#32 (Scalar.select (IntOp.cmpi .ne ignoreWord ignoreWord) ignoreWord 0#32)) = 0#32 := by
  decide

/-- A label in the vocabulary passes the replacement and the clip unchanged. -/
theorem clip_inRange (w : BitVec 32) (hne : w ≠ ignoreWord) (hw : w.toNat < 32000) :
    IntOp.minsi 31999#32 (IntOp.maxsi 0#32 (Scalar.select (IntOp.cmpi .ne w ignoreWord) w 0#32)) = w := by
  have hsel : IntOp.cmpi .ne w ignoreWord = 1#1 := by
    simp only [IntOp.cmpi, Predicate.ofBool_eq_one_iff, bne_iff_ne, ne_eq]; exact hne
  have hti : w.toInt = w.toNat := Predicate.toInt_eq_toNat_of_lt (by omega)
  have h0 : (0#32 : BitVec 32).toInt = 0 := by decide
  have hhi : (31999#32 : BitVec 32).toInt = 31999 := by decide
  rw [hsel, ValueIdx.select_one]
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, hhi, decide_eq_true_eq]; omega

/-- The labels enter the region, under the range hypothesis, as the picked vocabulary entries. -/
theorem entry_label (c : Dev nD) (hlab : LabelsInRange (m ((c : Thread nD τ).loc main_arg2))) (r : Fin 2048) :
    (V m c main_v6 : S2048x1.Idx → BitVec 32) (ValueIdx.ix2 r 0)
      = BitVec.ofNat 32 (pick (m ((c : Thread nD τ).loc main_arg2)) r).val := by
  have e : (V m c main_v6 : S2048x1.Idx → BitVec 32)
      = shapeCast S2048x1
          (minsi (broadcastInDim S2048 ![] bcast_S_S2048 (constantI S_ 32 31999#32))
            (maxsi (broadcastInDim S2048 ![] bcast_S_S2048 (constantI S_ 32 0#32))
              (select
                (cmpi .ne (m ((c : Thread nD τ).loc main_arg2) : S2048.Idx → BitVec 32)
                  (broadcastInDim S2048 ![] bcast_S_S2048 (constantI S_ 32 4294967196#32)))
                (m ((c : Thread nD τ).loc main_arg2) : S2048.Idx → BitVec 32)
                (broadcastInDim S2048 ![] bcast_S_S2048 (constantI S_ 32 0#32)))))
          shapeCasts_S2048_S2048x1 := by
    dsimp only [V, V0]
    simp only [hostOps0, hostOps0_1, hostOps0_2, hostOps0_3, hostOps0_4, List.flatten_cons, List.flatten_nil, List.append_nil, List.cons_append, List.nil_append]
    after_results_simp
    rfl
  rw [e, shapeCast_apply _ _ (ValueIdx.ix2 r 0) (ValueIdx.ix1 r)
    (by rw [Shape.rowMajor_val_two, Shape.rowMajor_val_one]; show r.val = r.val * 1 + 0; omega)]
  show IntOp.minsi 31999#32 (IntOp.maxsi 0#32 (Scalar.select
      (IntOp.cmpi .ne (m ((c : Thread nD τ).loc main_arg2) (ValueIdx.ix1 r)) ignoreWord)
      (m ((c : Thread nD τ).loc main_arg2) (ValueIdx.ix1 r)) 0#32)) = _
  unfold pick
  by_cases h : m ((c : Thread nD τ).loc main_arg2) (ValueIdx.ix1 r) = ignoreWord
  · rw [if_pos h, h, clip_ignored]
  · have hw : (m ((c : Thread nD τ).loc main_arg2) (ValueIdx.ix1 r)).toNat < 32000 := (hlab r).resolve_left h
    rw [if_neg h, clip_inRange _ h hw]
    show _ = BitVec.ofNat 32 ((m ((c : Thread nD τ).loc main_arg2) (ValueIdx.ix1 r)).toNat % 32000)
    rw [Nat.mod_eq_of_lt hw, BitVec.ofNat_toNat, BitVec.setWidth_eq]

end Prefix
/-! ### The host operations after the region

After the region the program holds, for each batch row, a row of eight words: the running maximum, the sum of
exponentials, the picked logit, the two squared norms and the dot product, then two unused words.  The operations
that follow cut the six columns out, form each row's hard term and cosine, and reduce them to the loss.  Here they
are written once as a function of that array and of the validity bits, and then read as `lossWeighted`. -/

/-- Column `q` of the statistics array as a column vector. -/
abbrev col (A : S2048x8.Idx → EReal) (q : Nat) (h : S2048x8.Slices ![0, q] S2048x1) : S2048x1.Idx → EReal :=
  extractStridedSlice S2048x1 ![0, q] A h

/-- The norm floor and the number one spread over a column or over the rows. -/
abbrev epsCol : S2048x1.Idx → EReal :=
  broadcastInDim S2048x1 ![] bcast_S_S2048x1 (constant (F := Ideal) S_ .f32 0x2B8CBCCC#32)
abbrev oneRows : S2048.Idx → EReal :=
  broadcastInDim S2048 ![] bcast_S_S2048 (constant (F := Ideal) S_ .f32 0x3F800000#32)

/-- Each row's hard term `(m + log l) - g` from columns 0, 1, 2. -/
def nllVec (A : S2048x8.Idx → EReal) : S2048.Idx → EReal :=
  shapeCast S2048
    (subf (F := Ideal) (φ := .f32)
      (addf (F := Ideal) (φ := .f32) (col A 0 slices_S2048x8_S2048x1_0_0)
        (Host.log (F := Ideal) (φ := .f32) (col A 1 slices_S2048x8_S2048x1_0_1)))
      (col A 2 slices_S2048x8_S2048x1_0_2))
    shapeCasts_S2048x1_S2048

/-- Each row's cosine: column 5 over the product of the floored roots of columns 3 and 4. -/
def cosVec (A : S2048x8.Idx → EReal) : S2048.Idx → EReal :=
  shapeCast S2048
    (Host.divf (F := Ideal) (φ := .f32) (col A 5 slices_S2048x8_S2048x1_0_5)
      (mulf (F := Ideal) (φ := .f32)
        (maximumf (F := Ideal) (φ := .f32) (Host.sqrt (F := Ideal) (φ := .f32) (col A 3 slices_S2048x8_S2048x1_0_3)) epsCol)
        (maximumf (F := Ideal) (φ := .f32) (Host.sqrt (F := Ideal) (φ := .f32) (col A 4 slices_S2048x8_S2048x1_0_4)) epsCol)))
    shapeCasts_S2048x1_S2048

/-- The sum of a vector over the rows, from zero. -/
abbrev total (x : S2048.Idx → EReal) : S_.Idx → EReal :=
  Host.reduceAdd (F := Ideal) (φ := .f32) x (constant (F := Ideal) S_ .f32 0x00000000#32) reducesTo_S2048_S_d0 h_S_

/-- The operations after the region as one function of the statistics array `A` and the validity bits `vb`:
    half the weighted mean of the hard terms plus half the mean of one minus the cosines. -/
def tail (A : S2048x8.Idx → EReal) (vb : S2048.Idx → BitVec 1) : S_.Idx → EReal :=
  addf (F := Ideal) (φ := .f32)
    (mulf (F := Ideal) (φ := .f32) (constant (F := Ideal) S_ .f32 0x3F000000#32)
      (Host.divf (F := Ideal) (φ := .f32)
        (total (mulf (F := Ideal) (φ := .f32) (nllVec A) (uitofp (F := Ideal) .f32 vb)))
        (maximumf (F := Ideal) (φ := .f32) (total (uitofp (F := Ideal) .f32 vb)) (constant (F := Ideal) S_ .f32 0x3F800000#32))))
    (mulf (F := Ideal) (φ := .f32) (constant (F := Ideal) S_ .f32 0x3F000000#32)
      (Host.divf (F := Ideal) (φ := .f32)
        (total (mulf (F := Ideal) (φ := .f32) oneRows (subf (F := Ideal) (φ := .f32) oneRows (cosVec A))))
        (constant (F := Ideal) S_ .f32 0x45000000#32)))

/-- Column `q` read at row `r`. -/
theorem col_apply (A : S2048x8.Idx → EReal) (q : Nat) (hq : q < 8) (h : S2048x8.Slices ![0, q] S2048x1) (r : Fin 2048) :
    col A q h (ValueIdx.ix2 r 0) = A (ValueIdx.ix2 r ⟨q, hq⟩) :=
  extractStridedSlice_apply _ A h _ _ fun a =>
    match a with
    | ⟨0, _⟩ => by show r.val = 0 + r.val; omega
    | ⟨1, _⟩ => by show q = q + 0; omega

/-- A column vector read as a vector over the rows. -/
theorem rows_of_col (x : S2048x1.Idx → EReal) (r : Fin 2048) :
    shapeCast S2048 x shapeCasts_S2048x1_S2048 (ValueIdx.ix1 r) = x (ValueIdx.ix2 r 0) :=
  shapeCast_apply x _ _ _ (by rw [Shape.rowMajor_val_two, Shape.rowMajor_val_one]; show r.val * 1 + 0 = r.val; omega)

theorem nllVec_apply (A : S2048x8.Idx → EReal) (r : Fin 2048) :
    nllVec A (ValueIdx.ix1 r) = nllOf (A (ValueIdx.ix2 r 0)) (A (ValueIdx.ix2 r 1)) (A (ValueIdx.ix2 r 2)) := by
  unfold nllVec
  rw [rows_of_col]
  show (col A 0 _ (ValueIdx.ix2 r 0) + Ideal.log (col A 1 _ (ValueIdx.ix2 r 0))) - col A 2 _ (ValueIdx.ix2 r 0) = _
  rw [col_apply A 0 (by omega), col_apply A 1 (by omega), col_apply A 2 (by omega)]
  rfl

theorem cosVec_apply (A : S2048x8.Idx → EReal) (r : Fin 2048) :
    cosVec A (ValueIdx.ix1 r) = cosOf (A (ValueIdx.ix2 r 3)) (A (ValueIdx.ix2 r 4)) (A (ValueIdx.ix2 r 5)) := by
  unfold cosVec
  rw [rows_of_col]
  show Ideal.div (col A 5 _ (ValueIdx.ix2 r 0))
      (max (Ideal.sqrt (col A 3 _ (ValueIdx.ix2 r 0))) eps * max (Ideal.sqrt (col A 4 _ (ValueIdx.ix2 r 0))) eps) = _
  rw [col_apply A 5 (by omega), col_apply A 3 (by omega), col_apply A 4 (by omega)]
  rfl

/-- The sum over the rows, one term per row. -/
theorem total_apply (x : S2048.Idx → EReal) (i : S_.Idx) :
    total x i = zero + ∑ r : Fin 2048, x (ValueIdx.ix1 r) := by
  show Ideal.hostReduceAdd reducesTo_S2048_S_d0 x zero i = _
  rw [Ideal.hostReduceAdd_total _ (fun b => b.elim0)]
  congr 1
  exact (Equiv.sum_comp ValueIdx.idxEquiv1.symm x).symm

/-- The host's division at an index. -/
theorem hostDivf_apply {s : Shape} {φ : FTy} (a b : FVec Ideal s φ) (i : s.Idx) :
    Host.divf a b i = Ideal.div (a i) (b i) := rfl

theorem oneRows_apply (j : S2048.Idx) : oneRows j = one := rfl

/-- The operations after the region compute the weighted loss, the weights being the validity bits read as numbers. -/
theorem tail_eq (A : S2048x8.Idx → EReal) (vb : S2048.Idx → BitVec 1) (w : Fin 2048 → EReal)
    (hw : ∀ r, uitofp (F := Ideal) .f32 vb (ValueIdx.ix1 r) = w r) :
    tail A vb = fun _ => lossWeighted
      (fun r => nllOf (A (ValueIdx.ix2 r 0)) (A (ValueIdx.ix2 r 1)) (A (ValueIdx.ix2 r 2)))
      (fun r => cosOf (A (ValueIdx.ix2 r 3)) (A (ValueIdx.ix2 r 4)) (A (ValueIdx.ix2 r 5))) w := by
  funext i
  unfold tail
  rw [ValueIdx.addf_apply, ValueIdx.mulf_apply, ValueIdx.mulf_apply, hostDivf_apply, hostDivf_apply,
    ValueIdx.maximumf_apply, total_apply, total_apply, total_apply]
  simp only [ValueIdx.mulf_apply, ValueIdx.subf_apply, oneRows_apply, ValueIdx.constant_apply, nllVec_apply, cosVec_apply, hw]
  rfl

section Tail
open Idealize.ShloMosaic.StableHlo
set_option maxHeartbeats 4000000

/-- The array of per-row statistics the region leaves: its eighth window's array after the last grid point. -/
abbrev statsArr (c : Dev nD) : S2048x8.Idx → EReal := (dats m 0 c).arrAt 7 cfg0.N

/-- The program's result buffer after the last host operation is the tail of the statistics array and the
    validity bits: every operation's result read at its own buffer, the statistics array where the region left it,
    the validity bits where the operations before the region left them. -/
theorem tail_raw (c : Dev nD) :
    (Pipeline.afterTail₀ cfgs (dats m) 0 (V0 m) [hostOps1] c main_v43 : S_.Idx → EReal)
      = tail (statsArr m c) (V m c main_v3) := by
  have e9 : Pipeline.withArrays (cfgs 0).spec c (V0 m c) (fun w => (dats m 0 c).arrAt w (cfgs 0).N) (Proc.devRef .tc main_v9)
      = (dats m 0 c).arrAt 7 cfg0.N := Pipeline.withArrays_arr spec0 launch0.win.arr_inj c _ _ 7
  have e3 : Pipeline.withArrays (cfgs 0).spec c (V0 m c) (fun w => (dats m 0 c).arrAt w (cfgs 0).N) (Proc.devRef .tc main_v3)
      = V m c main_v3 := Pipeline.withArrays_of_ne _ c (V0 m c) _ main_v3 (by decide)
  unfold Pipeline.afterTail₀
  show StableHlo.after hostOps1 _ (Proc.devRef .tc main_v43) = _
  after_results_simp
  rw [e9, e3]
  rfl

/-- A one-bit word read as a number is 1 when set and 0 otherwise. -/
theorem uitofp_bit (b : BitVec 1) : (FloatOps.uitofp (F := Ideal) .f32 b : EReal) = if b = 1#1 then 1 else 0 := by
  by_cases h : b = 1#1
  · subst h; rw [if_pos rfl]; show ((((1#1 : BitVec 1).toNat : ℕ) : ℝ) : EReal) = 1; simp
  · rw [if_neg h, ValueIdx.eq_zero_of_ne_one h]; show ((((0#1 : BitVec 1).toNat : ℕ) : ℝ) : EReal) = 0; simp

/-- THE TAIL: the program's result is the weighted loss of the per-row hard terms and cosines of the statistics
    array, the weights those of the launched labels. -/
theorem tail_value (c : Dev nD) :
    (Pipeline.afterTail₀ cfgs (dats m) 0 (V0 m) [hostOps1] c main_v43 : S_.Idx → EReal)
      = fun _ => lossWeighted
          (fun r => nllOf (statsArr m c (ValueIdx.ix2 r 0)) (statsArr m c (ValueIdx.ix2 r 1)) (statsArr m c (ValueIdx.ix2 r 2)))
          (fun r => cosOf (statsArr m c (ValueIdx.ix2 r 3)) (statsArr m c (ValueIdx.ix2 r 4)) (statsArr m c (ValueIdx.ix2 r 5)))
          (weight (m ((c : Thread nD τ).loc main_arg2))) := by
  rw [tail_raw]
  refine tail_eq _ _ _ fun r => ?_
  show FloatOps.uitofp (F := Ideal) .f32 ((V m c main_v3 : S2048.Idx → BitVec 1) (ValueIdx.ix1 r)) = _
  rw [entry_valid, uitofp_bit]
  rfl

end Tail

end Cert.Distill.Host
end
-- ==== Proof.KernelRun.lean ====
/-
  The streamed program's run, with its result named.

  The program runs to a state in which every array of its region holds what the region's proof data compute and
  every other buffer what the operations after the region leave.  Read at the result buffer and at the seven
  argument buffers this says: the result is the tail of the host operations, and the arguments end as launched.
  With the tail read as the weighted loss of the per-row statistics, the result is that loss.
-/
import proofs.«424027_j51376398794762_3_alg».proof.Proof.KernelHost
import proofs.«424027_j51376398794762_3_alg».proof.Proof.Gen.KernelIdeal.Frame

set_option maxRecDepth 16384

noncomputable section

namespace Cert.Distill.Host

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- The result buffer is no array of the region, so after the run it holds what the operations after the region
    leave in it. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v43) = Pipeline.afterTail₀ cfgs (dats m) 0 (V0 m) [hostOps1] c main_v43 :=
  (h c).2 main_v43 (Pipeline.mem_restRefs_of main_v43 (by decide) (by decide))

/-- The seven argument buffers end as launched: the two weight matrices are input arrays of the region, which an
    input's proof data leave at their entry contents; the other five are buffers no operation writes, before the
    region or after it. -/
theorem post_args (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).1 3).trans (((dats m 0 c).arrAt_in 3 rfl _).trans ((A_eq m c 3).trans (V_main_arg3 m c))),
   ((h c).2 main_arg4 (Pipeline.mem_restRefs_of main_arg4 (by decide) (by decide))).trans (W_main_arg4 m (dats m) c),
   ((h c).1 5).trans (((dats m 0 c).arrAt_in 5 rfl _).trans ((A_eq m c 5).trans (V_main_arg5 m c))),
   ((h c).2 main_arg6 (Pipeline.mem_restRefs_of main_arg6 (by decide) (by decide))).trans (W_main_arg6 m (dats m) c)⟩

/-- THE RUN: from any memory with zero counters the program terminates with its result buffer at the tail of the host
    operations and its arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v43) = Pipeline.afterTail₀ cfgs (dats m) 0 (V0 m) [hostOps1] c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨post_result m r h c, post_args m r h c⟩) (run_main m ρ)

/-- THE VALUE: the result is the weighted loss of the per-row hard terms and cosines of the statistics array the
    region leaves, the weights those of the launched labels; the arguments are unchanged. -/
theorem kernel_value :
    θ_run (defs (F := Ideal)) (onTc (τ := τ) (main (F := Ideal))) ⟨m, fun _ => 0, ρ⟩ (fun r => ∀ c : Dev nD,
      r.2.mem ((c.tc : Thread nD τ).loc main_v43) = (fun _ => lossWeighted
          (fun r => nllOf (statsArr m c (ValueIdx.ix2 r 0)) (statsArr m c (ValueIdx.ix2 r 1)) (statsArr m c (ValueIdx.ix2 r 2)))
          (fun r => cosOf (statsArr m c (ValueIdx.ix2 r 3)) (statsArr m c (ValueIdx.ix2 r 4)) (statsArr m c (ValueIdx.ix2 r 5)))
          (weight (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (tail_value m c), (h c).2⟩) (kernel_run m ρ)

end Cert.Distill.Host

end
-- ==== Proof.Pieces.lean ====
/-
  What one grid point leaves in the statistics block.

  The body of the kernel reads seven input blocks (a tile of student rows, of teacher rows, the
  rows' labels, a tile of each weight matrix and of each bias) and the [512, 8] block of running
  statistics, and stores the updated statistics.  `upd` is that update as one pure function of the
  input blocks and the previous statistics.  At the first tile of a row block the previous
  statistics are the start values (stored and read back in the same run); at the last tile the
  updated statistics are also copied to the output block.  The four lemmas say so, case by case.
-/
import proofs.«424027_j51376398794762_3_alg».proof.Proof.Gen.KernelIdeal.Frame
import Idealize.ShloMosaic.Lib.Pipeline.Value

set_option maxRecDepth 16384

noncomputable section

namespace Cert.Distill.Kern

open Idealize.ShloMosaic Idealize.ShloMosaic.TcCoe Idealize.ShloMosaic.Tactic
open Idealize.SL Idealize.SL.Sem
open Cert.KernelIdeal Cert.KernelIdeal.Gen

variable {F : FTy → Type} [FloatOps F]

/-- The statistics block after a tile, from the tile's input blocks and the statistics before it. -/
def upd (i : grid0.Coords) (x0 : Vec F S512x1024 .bf16) (x1 : Vec F S512x2048 .bf16) (x2 : Vec F S512x1 .i32) (x3 : Vec F S640x1024 .f32) (x4 : Vec F S1x640 .f32) (x5 : Vec F S640x2048 .f32) (x6 : Vec F S1x640 .f32) (prev : Vec F S512x8 .f32) : Vec F S512x8 .f32 :=
  k0_pay1 (k0_pay3 x0 x3 x4) (k0_pay4 x1 x5 x6) (k0_pay5 (F := F) i x2) (k0_pay6 prev) (k0_pay7 prev) (k0_pay8 prev) (k0_pay9 prev) (k0_pay10 prev) (k0_pay11 prev)

/-- The zero offset of a rank-two block. -/
theorem hz2 : (![0, 0] : Fin 2 → ℕ) = fun _ => 0 := funext fun a => by fin_cases a <;> rfl

/-- A middle tile leaves the update of what the tile before left. -/
theorem sB (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1 .i32) (harg4 : arg4.IsWhole) (arg5 : Memref sig .tc .vmem S640x1024 .f32) (harg5 : arg5.IsWhole) (arg6 : Memref sig .tc .vmem S1x640 .f32) (harg6 : arg6.IsWhole) (arg7 : Memref sig .tc .vmem S640x2048 .f32) (harg7 : arg7.IsWhole) (arg8 : Memref sig .tc .vmem S1x640 .f32) (harg8 : arg8.IsWhole) (arg9 : Memref sig .tc .vmem S512x8 .f32) (harg9 : arg9.IsWhole) (arg10 : Memref sig .tc .vmem S512x8 .f32) (harg10 : arg10.IsWhole) (hc0 : ¬cond0_0 i) (hc1 : ¬cond0_1 i) (x0 : Vec F S512x1024 .bf16) (x1 : Vec F S512x2048 .bf16) (x2 : Vec F S512x1 .i32) (x3 : Vec F S640x1024 .f32) (x4 : Vec F S1x640 .f32) (x5 : Vec F S640x2048 .f32) (x6 : Vec F S1x640 .f32) (xs0 : Vec F S512x8 .f32) :
    sout0_B_0 c i arg2 harg2 arg3 harg3 arg4 harg4 arg5 harg5 arg6 harg6 arg7 harg7 arg8 harg8 arg9 harg9 arg10 harg10 hc0 hc1 x0 x1 x2 x3 x4 x5 x6 xs0 = upd i x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S512x8) hz2]
  simp only [View.readAt_eq_ld, harg2.read_unread, harg3.read_unread, harg4.read_unread, harg5.read_unread, harg6.read_unread, harg7.read_unread, harg8.read_unread, harg9.read_unread, harg10.read_unread,
    View.ld_unit_zero (S := S512x1024) hz2, View.ld_unit_zero (S := S512x2048) hz2, View.ld_unit_zero (S := S512x1) hz2, View.ld_unit_zero (S := S640x1024) hz2, View.ld_unit_zero (S := S1x640) hz2, View.ld_unit_zero (S := S640x2048) hz2, View.ld_unit_zero (S := S512x8) hz2]
  rfl

/-- The first tile leaves the update of the start values. -/
theorem sA (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1 .i32) (harg4 : arg4.IsWhole) (arg5 : Memref sig .tc .vmem S640x1024 .f32) (harg5 : arg5.IsWhole) (arg6 : Memref sig .tc .vmem S1x640 .f32) (harg6 : arg6.IsWhole) (arg7 : Memref sig .tc .vmem S640x2048 .f32) (harg7 : arg7.IsWhole) (arg8 : Memref sig .tc .vmem S1x640 .f32) (harg8 : arg8.IsWhole) (arg9 : Memref sig .tc .vmem S512x8 .f32) (harg9 : arg9.IsWhole) (arg10 : Memref sig .tc .vmem S512x8 .f32) (harg10 : arg10.IsWhole) (hc0 : cond0_0 i) (hc1 : ¬cond0_1 i) (x0 : Vec F S512x1024 .bf16) (x1 : Vec F S512x2048 .bf16) (x2 : Vec F S512x1 .i32) (x3 : Vec F S640x1024 .f32) (x4 : Vec F S1x640 .f32) (x5 : Vec F S640x2048 .f32) (x6 : Vec F S1x640 .f32) :
    sout0_A_0 c i arg2 harg2 arg3 harg3 arg4 harg4 arg5 harg5 arg6 harg6 arg7 harg7 arg8 harg8 arg9 harg9 arg10 harg10 hc0 hc1 x0 x1 x2 x3 x4 x5 x6 = upd i x0 x1 x2 x3 x4 x5 x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x8) hz2]
  simp only [View.readAt_eq_ld, harg2.read_unread, harg3.read_unread, harg4.read_unread, harg5.read_unread, harg6.read_unread, harg7.read_unread, harg8.read_unread, harg9.read_unread, harg10.read_unread,
    View.ld_unit_zero (S := S512x1024) hz2, View.ld_unit_zero (S := S512x2048) hz2, View.ld_unit_zero (S := S512x1) hz2, View.ld_unit_zero (S := S640x1024) hz2, View.ld_unit_zero (S := S1x640) hz2, View.ld_unit_zero (S := S640x2048) hz2, View.ld_unit_zero (S := S512x8) hz2, View.readCov_unit_zero (S := S512x8) _ hz2]
  rfl

/-- The last tile leaves the update of what the tile before left in the statistics block, -/
theorem sC (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1 .i32) (harg4 : arg4.IsWhole) (arg5 : Memref sig .tc .vmem S640x1024 .f32) (harg5 : arg5.IsWhole) (arg6 : Memref sig .tc .vmem S1x640 .f32) (harg6 : arg6.IsWhole) (arg7 : Memref sig .tc .vmem S640x2048 .f32) (harg7 : arg7.IsWhole) (arg8 : Memref sig .tc .vmem S1x640 .f32) (harg8 : arg8.IsWhole) (arg9 : Memref sig .tc .vmem S512x8 .f32) (harg9 : arg9.IsWhole) (arg10 : Memref sig .tc .vmem S512x8 .f32) (harg10 : arg10.IsWhole) (hc0 : ¬cond0_0 i) (hc1 : cond0_1 i) (x0 : Vec F S512x1024 .bf16) (x1 : Vec F S512x2048 .bf16) (x2 : Vec F S512x1 .i32) (x3 : Vec F S640x1024 .f32) (x4 : Vec F S1x640 .f32) (x5 : Vec F S640x2048 .f32) (x6 : Vec F S1x640 .f32) (xs0 : Vec F S512x8 .f32) :
    sout0_C_0 c i arg2 harg2 arg3 harg3 arg4 harg4 arg5 harg5 arg6 harg6 arg7 harg7 arg8 harg8 arg9 harg9 arg10 harg10 hc0 hc1 x0 x1 x2 x3 x4 x5 x6 xs0 = upd i x0 x1 x2 x3 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S512x8) hz2]
  simp only [View.readAt_eq_ld, harg2.read_unread, harg3.read_unread, harg4.read_unread, harg5.read_unread, harg6.read_unread, harg7.read_unread, harg8.read_unread, harg9.read_unread, harg10.read_unread,
    View.ld_unit_zero (S := S512x1024) hz2, View.ld_unit_zero (S := S512x2048) hz2, View.ld_unit_zero (S := S512x1) hz2, View.ld_unit_zero (S := S640x1024) hz2, View.ld_unit_zero (S := S1x640) hz2, View.ld_unit_zero (S := S640x2048) hz2, View.ld_unit_zero (S := S512x8) hz2]
  rfl

/-- and the same in the output block. -/
theorem oC (c : Dev nD) (i : grid0.Coords) (arg2 : Memref sig .tc .vmem S512x1024 .bf16) (harg2 : arg2.IsWhole) (arg3 : Memref sig .tc .vmem S512x2048 .bf16) (harg3 : arg3.IsWhole) (arg4 : Memref sig .tc .vmem S512x1 .i32) (harg4 : arg4.IsWhole) (arg5 : Memref sig .tc .vmem S640x1024 .f32) (harg5 : arg5.IsWhole) (arg6 : Memref sig .tc .vmem S1x640 .f32) (harg6 : arg6.IsWhole) (arg7 : Memref sig .tc .vmem S640x2048 .f32) (harg7 : arg7.IsWhole) (arg8 : Memref sig .tc .vmem S1x640 .f32) (harg8 : arg8.IsWhole) (arg9 : Memref sig .tc .vmem S512x8 .f32) (harg9 : arg9.IsWhole) (arg10 : Memref sig .tc .vmem S512x8 .f32) (harg10 : arg10.IsWhole) (hc0 : ¬cond0_0 i) (hc1 : cond0_1 i) (x0 : Vec F S512x1024 .bf16) (x1 : Vec F S512x2048 .bf16) (x2 : Vec F S512x1 .i32) (x3 : Vec F S640x1024 .f32) (x4 : Vec F S1x640 .f32) (x5 : Vec F S640x2048 .f32) (x6 : Vec F S1x640 .f32) (xs0 : Vec F S512x8 .f32) :
    out0_C_7 c i arg2 harg2 arg3 harg3 arg4 harg4 arg5 harg5 arg6 harg6 arg7 harg7 arg8 harg8 arg9 harg9 arg10 harg10 hc0 hc1 x0 x1 x2 x3 x4 x5 x6 xs0 = upd i x0 x1 x2 x3 x4 x5 x6 xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S512x8) hz2]
  simp only [View.readAt_eq_ld, harg2.read_unread, harg3.read_unread, harg4.read_unread, harg5.read_unread, harg6.read_unread, harg7.read_unread, harg8.read_unread, harg9.read_unread, harg10.read_unread,
    View.ld_unit_zero (S := S512x1024) hz2, View.ld_unit_zero (S := S512x2048) hz2, View.ld_unit_zero (S := S512x1) hz2, View.ld_unit_zero (S := S640x1024) hz2, View.ld_unit_zero (S := S1x640) hz2, View.ld_unit_zero (S := S640x2048) hz2, View.ld_unit_zero (S := S512x8) hz2, View.readCov_unit_zero (S := S512x8) _ hz2]
  rfl

end Cert.Distill.Kern
end
-- ==== Proof.Accum.lean ====
/-
  The statistics block along the grid.

  The grid runs 4 row blocks of 512 rows, and for each row block the 50 vocabulary tiles in order: point
  n = 50 i + k is tile k of row block i.  After a point the statistics block holds the update (`upd`) of what
  the point before left, except at a first tile (k = 0), where it holds the update of the start values.  At a
  last tile (k = 49) the output block holds the same.  These are the three equations an induction over the
  tiles of a row block needs.
-/
import proofs.«424027_j51376398794762_3_alg».proof.Proof.Pieces

set_option maxRecDepth 16384

noncomputable section

namespace Cert.Distill.Kern

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The update at grid point `t`, with the point's own input blocks, of the statistics `prev`. -/
def updAt (c : Dev nD) (t : Fin cfg0.N) (prev : Vec F S512x8 .f32) : Vec F S512x8 .f32 :=
  upd (grid0.coords t) (iblk m c 0 t) (iblk m c 1 t) (iblk m c 2 t) (iblk m c 3 t) (iblk m c 4 t) (iblk m c 5 t) (iblk m c 6 t) prev

/-- What the point before `t` left in the statistics block. -/
def before (c : Dev nD) (t : Fin cfg0.N) : Vec F S512x8 .f32 :=
  (outsAt0 m c (t.val - 1) (Nat.lt_of_le_of_lt (Nat.sub_le _ _) t.isLt)).2

/-- At a first tile the statistics block ends at the update of the start values. -/
theorem scr_first (c : Dev nD) (t : Fin cfg0.N) (h0 : t.val % 50 = 0) :
    (outsAt0 m c t.val t.isLt).2 = updAt m c t (k0_pay2 (F := F)) := by
  have h1 : ¬t.val % 50 = 49 := by omega
  rw [outsAt0_A m c t h0 h1]
  dsimp only
  exact sA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At any other tile it ends at the update of what the tile before left. -/
theorem scr_next (c : Dev nD) (t : Fin cfg0.N) (h0 : ¬t.val % 50 = 0) :
    (outsAt0 m c t.val t.isLt).2 = updAt m c t (before m c t) := by
  by_cases h1 : t.val % 50 = 49
  · rw [outsAt0_C m c t h0 h1]
    dsimp only
    exact sC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (before m c t)
  · rw [outsAt0_B m c t h0 h1]
    dsimp only
    exact sB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (before m c t)

/-- At a last tile the output block ends at the same update. -/
theorem out_last (c : Dev nD) (t : Fin cfg0.N) (h1 : t.val % 50 = 49) :
    (outsAt0 m c t.val t.isLt).1 = updAt m c t (before m c t) := by
  have h0 : ¬t.val % 50 = 0 := by omega
  rw [outsAt0_C m c t h0 h1]
  dsimp only
  exact oC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (before m c t)

end Cert.Distill.Kern

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowOps.lean ====
/-
  Row-wise reductions of a [512, 640] tile kept as a [512, 1] column, read at an index: the sum over a row's
  640 lanes, and the maximum of a row as a fold of max from the accumulator's value.  Also the small layout
  reads the update of the statistics needs: a column of the [512, 8] statistics block, and the eight-column
  block assembled from six columns and two columns of zeros.
-/
import Idealize.ShloMosaic.PureOps.Ideal.Laws
import Idealize.ShloMosaic.Lib.ValueIdx
import Idealize.ShloMosaic.Lib.Pipeline.Value
import proofs.«424027_j51376398794762_3_alg».proof.Proof.LibColumn

noncomputable section

open scoped BigOperators

namespace Cert.Distill.RowOps

open Idealize.ShloMosaic Idealize.ShloMosaic.ValueIdx

/-- Lane `j` of row `p` is where the row index with the lane inserted on axis 1 points. -/
theorem lift_row (h : (⟨2, ![512, 640]⟩ : Shape).Reduces [1] ⟨1, ![512]⟩) (p : Fin 512) (j : Fin 640) :
    h.lift (ix1 p) j = ix2 p j := by
  funext a; apply Fin.ext
  match a with
  | ⟨0, _⟩ => rfl
  | ⟨1, _⟩ => rfl

/-- The sum over the lanes of a row, kept as a column. -/
theorem rowSum_col (v : FVec Ideal ⟨2, ![512, 640]⟩ .f32) (h : (⟨2, ![512, 640]⟩ : Shape).Reduces [1] ⟨1, ![512]⟩)
    (hφ : FKind.Formats .f32) (hacc : (0x00000000#32 : BitVec 32) = FKind.add.neutral .f32 hφ)
    (hc : (⟨1, ![512]⟩ : Shape).ShapeCasts ⟨2, ![512, 1]⟩) (p : Fin 512) (u : Fin 1) :
    shapeCast ⟨2, ![512, 1]⟩ (multiReduction .add [1] ⟨1, ![512]⟩ v 0x00000000#32 h hφ hacc) hc (ix2 p u)
      = ∑ j : Fin 640, v (ix2 p j) := by
  rw [Cert.LibColumn.shapeCast_a_a1_apply, Ideal.multiReduction_add_single]
  show (∑ j : Fin 640, v (h.lift (ix1 p) j)) = _
  exact Finset.sum_congr rfl fun j _ => congrArg v (lift_row h p j)

/-- The maximum over the lanes of a row, kept as a column: a fold of max from minus infinity. -/
theorem rowMax_col (v : FVec Ideal ⟨2, ![512, 640]⟩ .f32) (h : (⟨2, ![512, 640]⟩ : Shape).Reduces [1] ⟨1, ![512]⟩)
    (hφ : FKind.Formats .f32) (hacc : (0xFF800000#32 : BitVec 32) = FKind.maximumf.neutral .f32 hφ)
    (hc : (⟨1, ![512]⟩ : Shape).ShapeCasts ⟨2, ![512, 1]⟩) (p : Fin 512) (u : Fin 1) :
    shapeCast ⟨2, ![512, 1]⟩ (multiReduction .maximumf [1] ⟨1, ![512]⟩ v 0xFF800000#32 h hφ hacc) hc (ix2 p u)
      = (Finset.univ : Finset (Fin 640)).fold max (Ideal.ofBits .f32 0xFF800000#32) (fun j => v (ix2 p j)) := by
  rw [Cert.LibColumn.shapeCast_a_a1_apply, Ideal.multiReduction_maximumf_single]
  show (Finset.univ : Finset (Fin 640)).fold max (Ideal.ofBits .f32 0xFF800000#32) (fun j : Fin 640 => v (h.lift (ix1 p) j)) = _
  exact congrArg (fun f => (Finset.univ : Finset (Fin 640)).fold max (Ideal.ofBits .f32 0xFF800000#32) f)
    (funext fun j => congrArg v (lift_row h p j))

/-- Column `q` of the statistics block, cut out as a [512, 1] column. -/
theorem statCol {α : Type} (q : Nat) (x : (⟨2, ![512, 8]⟩ : Shape).Idx → α)
    (h : (⟨2, ![512, 8]⟩ : Shape).Slices ![0, q] ⟨2, ![512, 1]⟩) (hq : q < 8) (p : Fin 512) (u : Fin 1) :
    extractStridedSlice ⟨2, ![512, 1]⟩ ![0, q] x h (ix2 p u) = x (ix2 p ⟨q, hq⟩) := by
  refine extractStridedSlice_apply ![0, q] x h (ix2 p u) (ix2 p ⟨q, hq⟩) fun a => ?_
  match a with
  | ⟨0, _⟩ => show p.val = 0 + p.val; omega
  | ⟨1, _⟩ => show q = q + u.val; omega

end Cert.Distill.RowOps

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.Stream.lean ====
/-
  The streamed pass over the vocabulary, one row at a time.

  The vocabulary of 32000 entries is cut into 50 tiles of 640.  A row keeps six statistics.
  From the start state (a large negative maximum, five zeros) each tile updates them:
  the maximum with the tile's maximum; the sum of exponentials rescaled by exp (old - new)
  plus the tile's exponentials at the new maximum; the picked logit, the two squared norms and
  the dot product by the tile's own sums.  `run σ θ τ k` is the state after the first k tiles.
-/
import proofs.«424027_j51376398794762_3_alg».proof.Proof.Spec

open Idealize.ShloMosaic
open scoped BigOperators

noncomputable section

namespace Cert.Distill

/-- The six running statistics of a row: maximum, sum of exponentials, picked logit, σ·σ, θ·θ, σ·θ. -/
structure Stats where
  m : EReal
  l : EReal
  g : EReal
  a : EReal
  b : EReal
  c : EReal

/-- Before the first tile. -/
def Stats.init : Stats := ⟨negBig, zero, zero, zero, zero, zero⟩

/-- One tile: `σ`, `θ` are the tile's 640 student and teacher logits, `hit j` says lane `j` is the row's picked entry. -/
def Stats.step (p : Stats) (σ θ : Fin 640 → EReal) (hit : Fin 640 → Prop) [DecidablePred hit] : Stats where
  m := max p.m ((Finset.univ : Finset (Fin 640)).fold max negInf σ)
  l := Ideal.exp (p.m - max p.m ((Finset.univ : Finset (Fin 640)).fold max negInf σ)) * p.l
        + ∑ j, Ideal.exp (σ j - max p.m ((Finset.univ : Finset (Fin 640)).fold max negInf σ))
  g := p.g + ∑ j, (if hit j then σ j else zero)
  a := p.a + ∑ j, σ j * σ j
  b := p.b + ∑ j, θ j * θ j
  c := p.c + ∑ j, σ j * θ j

/-- Lane `j` of tile `k` is vocabulary entry 640 k + j. -/
def tileIdx (k : Fin 50) (j : Fin 640) : Fin 32000 := ⟨640 * k.val + j.val, by omega⟩

/-- The statistics of a row with logits `σ`, `θ` and picked entry `τ` after its first `k` tiles. -/
def run (σ θ : Fin 32000 → EReal) (τ : Fin 32000) : ℕ → Stats
  | 0 => Stats.init
  | k + 1 =>
    if h : k < 50 then
      (run σ θ τ k).step (fun j => σ (tileIdx ⟨k, h⟩ j)) (fun j => θ (tileIdx ⟨k, h⟩ j)) (fun j => tileIdx ⟨k, h⟩ j = τ)
    else run σ θ τ k

/-- Column `q` of the row of eight words the statistics are kept in: the six statistics, then two zeros. -/
def Stats.col (p : Stats) (q : Fin 8) : EReal :=
  match q with
  | ⟨0, _⟩ => p.m | ⟨1, _⟩ => p.l | ⟨2, _⟩ => p.g | ⟨3, _⟩ => p.a | ⟨4, _⟩ => p.b | ⟨5, _⟩ => p.c
  | ⟨_ + 6, _⟩ => zero

end Cert.Distill

end
-- ==== Proof.UpdRow.lean ====
/-
  One tile's update of the statistics block, read at an index.

  Row p of the [512, 8] block holds the six running statistics of batch row p and two zeros.
  The update of the block by one tile is, at row p and column q, column q of the streamed
  step of that row: the tile's student logits are the row of the student block against the
  tile's rows of the student weights plus the bias, likewise the teacher's, and a lane is the
  picked one when its number is the row's label less the tile's first entry.
-/
import proofs.«424027_j51376398794762_3_alg».proof.Proof.Pieces
import proofs.«424027_j51376398794762_3_alg».proof.Proof.RowOps
import proofs.«424027_j51376398794762_3_alg».proof.Proof.LibColumn
import proofs.«424027_j51376398794762_3_alg».proof.Proof.LibDotLastAxis
import proofs.«424027_j51376398794762_3_alg».proof.Proof.Stream
import Idealize.ShloMosaic.Lib.ValueLayout
import Idealize.ShloMosaic.Lib.StableHlo.Predicate

set_option maxRecDepth 16384

noncomputable section

open scoped BigOperators

namespace Cert.Distill.Kern

open Cert.KernelIdeal Cert.KernelIdeal.Gen Idealize.ShloMosaic Idealize.ShloMosaic.ValueIdx

/-! ### The tile's logits and its picked-lane mask -/

/-- The student logits of the tile: row p of the student block against row j of the tile's weights, plus the bias. -/
theorem pay3_apply (x0 : Vec Ideal S512x1024 .bf16) (x3 : Vec Ideal S640x1024 .f32) (x4 : Vec Ideal S1x640 .f32)
    (p : Fin 512) (j : Fin 640) :
    k0_pay3 x0 x3 x4 (ix2 p j) = (∑ k : Fin 1024, x0 (ix2 p k) * x3 (ix2 j k)) + x4 (ix2 0 j) := by
  unfold k0_pay3
  rw [addf_apply, shapeCast_self, shapeCast_self, broadcastTo_1b_ab_apply]
  congr 1
  exact LibDotLastAxis.matmul_zero_apply _ none x0 (truncf .bf16 x3 _) p j

/-- The teacher logits of the tile. -/
theorem pay4_apply (x1 : Vec Ideal S512x2048 .bf16) (x5 : Vec Ideal S640x2048 .f32) (x6 : Vec Ideal S1x640 .f32)
    (p : Fin 512) (j : Fin 640) :
    k0_pay4 x1 x5 x6 (ix2 p j) = (∑ k : Fin 2048, x1 (ix2 p k) * x5 (ix2 j k)) + x6 (ix2 0 j) := by
  unfold k0_pay4
  rw [addf_apply, shapeCast_self, shapeCast_self, broadcastTo_1b_ab_apply]
  congr 1
  exact LibDotLastAxis.matmul_zero_apply _ none x1 (truncf .bf16 x5 _) p j

/-- The mask: lane j against the row's label less the tile's first entry. -/
theorem pay5_apply (i : grid0.Coords) (x2 : Vec Ideal S512x1 .i32) (p : Fin 512) (j : Fin 640) :
    k0_pay5 (F := Ideal) i x2 (ix2 p j)
      = IntOp.cmpi .eq (BitVec.ofNat 32 j.val) (x2 (ix2 p 0) - BitVec.ofNat 32 (i 1).val * 640#32) := by
  unfold k0_pay5
  dsimp only
  show IntOp.cmpi .eq (iota .tc S512x640 32 [1] _ (ix2 p j)) (broadcastTo S512x640 _ _ (ix2 p j)) = _
  rw [iota_single_apply, Cert.LibColumn.broadcastTo_a1_ab_apply, shapeCast_self]
  rfl

/-! ### The eight-column block assembled from six columns and two columns of zeros -/

/-- Off the concatenation axis a column's index (p, 0) and the block's index (p, q) agree. -/
theorem col_coords {n : Nat} (p : Fin 512) (u : Fin n) (q : Fin 8) (hr : (⟨2, ![512, n]⟩ : Shape).rank = S512x8.rank)
    (b : Fin (⟨2, ![512, n]⟩ : Shape).rank) (hb : b.cast hr ≠ (1 : Fin S512x8.rank)) :
    ((ix2 p u : (⟨2, ![512, n]⟩ : Shape).Idx) b).val = ((ix2 p q : S512x8.Idx) (b.cast hr)).val :=
  match b, hb with
  | ⟨0, _⟩, _ => rfl
  | ⟨1, _⟩, hb => absurd rfl hb

theorem cat7_apply {α : Type} (c0 c1 c2 c3 c4 c5 : S512x1.Idx → α) (z : S512x2.Idx → α)
    (h : Shape.Concatenates [S512x1, S512x1, S512x1, S512x1, S512x1, S512x1, S512x2] S512x8 1) (p : Fin 512) (q : Fin 8) :
    concatenate S512x8 1 [⟨S512x1, c0⟩, ⟨S512x1, c1⟩, ⟨S512x1, c2⟩, ⟨S512x1, c3⟩, ⟨S512x1, c4⟩, ⟨S512x1, c5⟩, ⟨S512x2, z⟩] h (ix2 p q)
      = match q with
        | ⟨0, _⟩ => c0 (ix2 p 0) | ⟨1, _⟩ => c1 (ix2 p 0) | ⟨2, _⟩ => c2 (ix2 p 0) | ⟨3, _⟩ => c3 (ix2 p 0)
        | ⟨4, _⟩ => c4 (ix2 p 0) | ⟨5, _⟩ => c5 (ix2 p 0) | ⟨n + 6, hn⟩ => z (ix2 p ⟨n, by omega⟩) := by
  have key := fun (j : S512x8.Idx) => concatenate_apply_piece (t := S512x8) 1
    [⟨S512x1, c0⟩, ⟨S512x1, c1⟩, ⟨S512x1, c2⟩, ⟨S512x1, c3⟩, ⟨S512x1, c4⟩, ⟨S512x1, c5⟩, ⟨S512x2, z⟩] h j
  match q with
  | ⟨0, hq⟩ => exact key _ 0 (by show (0 : Nat) < 7; decide) S512x1 c0 rfl rfl 0 rfl (ix2 p 0) (col_coords (n := 1) p 0 _ rfl) rfl
  | ⟨1, hq⟩ => exact key _ 1 (by show (1 : Nat) < 7; decide) S512x1 c1 rfl rfl 1 rfl (ix2 p 0) (col_coords (n := 1) p 0 _ rfl) rfl
  | ⟨2, hq⟩ => exact key _ 2 (by show (2 : Nat) < 7; decide) S512x1 c2 rfl rfl 2 rfl (ix2 p 0) (col_coords (n := 1) p 0 _ rfl) rfl
  | ⟨3, hq⟩ => exact key _ 3 (by show (3 : Nat) < 7; decide) S512x1 c3 rfl rfl 3 rfl (ix2 p 0) (col_coords (n := 1) p 0 _ rfl) rfl
  | ⟨4, hq⟩ => exact key _ 4 (by show (4 : Nat) < 7; decide) S512x1 c4 rfl rfl 4 rfl (ix2 p 0) (col_coords (n := 1) p 0 _ rfl) rfl
  | ⟨5, hq⟩ => exact key _ 5 (by show (5 : Nat) < 7; decide) S512x1 c5 rfl rfl 5 rfl (ix2 p 0) (col_coords (n := 1) p 0 _ rfl) rfl
  | ⟨n + 6, hn⟩ =>
    exact key _ 6 (by show (6 : Nat) < 7; decide) S512x2 z rfl rfl 6 rfl (ix2 p ⟨n, by omega⟩) (col_coords (n := 2) p _ _ rfl)
      (by show 6 + n = n + 6; omega)

/-! ### The update of one row -/

theorem exp_apply {s : Shape} {φ : FTy} (a : FVec Ideal s φ) (i : s.Idx) : exp a i = Ideal.exp (a i) := rfl

/-- The step changes only through which lanes are hit, not through how that is decided. -/
theorem step_congr_hit (P : Stats) (σ θ : Fin 640 → EReal) (hit hit' : Fin 640 → Prop) [DecidablePred hit]
    [DecidablePred hit'] (h : ∀ j, hit j ↔ hit' j) : P.step σ θ hit = P.step σ θ hit' := by
  have hg : ∀ j, (if hit j then σ j else zero) = (if hit' j then σ j else zero) := fun j => if_congr (h j) rfl rfl
  unfold Stats.step
  simp only [hg]

/-- The row sum of the exponentials of a tile less a column broadcast along its rows. -/
theorem sumExp_col (v : FVec Ideal S512x640 .f32) (W : FVec Ideal S512x1 .f32) (hb : S512x1.Broadcasts S512x640)
    (h : S512x640.Reduces [1] S512) (hφ : FKind.Formats .f32) (hacc : (0x00000000#32 : BitVec 32) = FKind.add.neutral .f32 hφ)
    (hc : S512.ShapeCasts S512x1) (p : Fin 512) :
    shapeCast S512x1 (multiReduction .add [1] S512 (exp (subf v (broadcastTo S512x640 W hb))) 0x00000000#32 h hφ hacc) hc (ix2 p 0)
      = ∑ j : Fin 640, Ideal.exp (v (ix2 p j) - W (ix2 p 0)) :=
  (RowOps.rowSum_col _ h hφ hacc hc p 0).trans (Finset.sum_congr rfl fun j _ => by
    show Ideal.exp (v (ix2 p j) - broadcastTo S512x640 W hb (ix2 p j)) = _
    rw [Cert.LibColumn.broadcastTo_a1_ab_apply])

/-- The statistics block the body stores, at row p and column q: column q of the streamed step of the row whose
    statistics are the six columns read, on the row's lanes of the two logit tiles and of the mask. -/
theorem pay1_apply (v15 v20 : FVec Ideal S512x640 .f32) (v28 : IVec S512x640 1) (c0 c1 c2 c3 c4 c5 : FVec Ideal S512x1 .f32)
    (p : Fin 512) (q : Fin 8) :
    k0_pay1 v15 v20 v28 c0 c1 c2 c3 c4 c5 (ix2 p q)
      = (Stats.step ⟨c0 (ix2 p 0), c1 (ix2 p 0), c2 (ix2 p 0), c3 (ix2 p 0), c4 (ix2 p 0), c5 (ix2 p 0)⟩
          (fun j => v15 (ix2 p j)) (fun j => v20 (ix2 p j)) (fun j => v28 (ix2 p j) = 1#1)).col q := by
  unfold k0_pay1
  rw [shapeCast_self, cat7_apply]
  match q with
  | ⟨0, hq⟩ =>
    show maximumf c0 _ (ix2 p 0) = _
    rw [maximumf_apply]
    exact congrArg (max (c0 (ix2 p 0))) (RowOps.rowMax_col v15 _ _ _ _ p 0)
  | ⟨1, hq⟩ =>
    show addf (mulf (exp (subf c0 (maximumf c0 _))) c1) _ (ix2 p 0) = _
    rw [addf_apply, mulf_apply, exp_apply, subf_apply]
    refine (congrArg (_ + ·) (sumExp_col v15 _ _ _ _ _ _ p)).trans ?_
    rw [maximumf_apply]
    exact congrArg (fun m => Ideal.exp (c0 (ix2 p 0) - max (c0 (ix2 p 0)) m) * c1 (ix2 p 0)
        + ∑ j : Fin 640, Ideal.exp (v15 (ix2 p j) - max (c0 (ix2 p 0)) m)) (RowOps.rowMax_col v15 _ _ _ _ p 0)
  | ⟨2, hq⟩ =>
    show addf c2 _ (ix2 p 0) = _
    rw [addf_apply]
    exact congrArg (c2 (ix2 p 0) + ·) (RowOps.rowSum_col _ _ _ _ _ p 0)
  | ⟨3, hq⟩ =>
    show addf c3 _ (ix2 p 0) = _
    rw [addf_apply]
    exact congrArg (c3 (ix2 p 0) + ·) (RowOps.rowSum_col _ _ _ _ _ p 0)
  | ⟨4, hq⟩ =>
    show addf c4 _ (ix2 p 0) = _
    rw [addf_apply]
    exact congrArg (c4 (ix2 p 0) + ·) (RowOps.rowSum_col _ _ _ _ _ p 0)
  | ⟨5, hq⟩ =>
    show addf c5 _ (ix2 p 0) = _
    rw [addf_apply]
    exact congrArg (c5 (ix2 p 0) + ·) (RowOps.rowSum_col _ _ _ _ _ p 0)
  | ⟨n + 6, hn⟩ => rfl

/-! ### The start values -/

theorem init_apply (p : Fin 512) (q : Fin 8) : k0_pay2 (F := Ideal) (ix2 p q) = Cert.Distill.Stats.init.col q := by
  unfold k0_pay2
  rw [shapeCast_self]
  match q with
  | ⟨0, hq⟩ =>
    refine (concatenate_pair_apply_left (t := S512x8) (s₁ := S512x1) (s₂ := S512x7) 1 _ _ _ (ix2 p ⟨0, hq⟩) rfl (ix2 p 0)
      fun b => match b with
        | ⟨0, _⟩ => rfl
        | ⟨1, _⟩ => rfl).trans ?_
    rfl
  | ⟨n + 1, hn⟩ =>
    refine (concatenate_pair_apply_right (t := S512x8) (s₁ := S512x1) (s₂ := S512x7) 1 _ _ _ (ix2 p ⟨n + 1, hn⟩) rfl rfl (ix2 p ⟨n, by omega⟩)
      (col_coords (n := 7) p _ _ rfl) rfl).trans ?_
    match n, hn with
    | 0, _ => rfl
    | 1, _ => rfl
    | 2, _ => rfl
    | 3, _ => rfl
    | 4, _ => rfl
    | n + 5, _ => rfl

/-! ### One tile's update, row by row -/

/-- The six statistics of batch row p in the block. -/
def rowOf (prev : Vec Ideal S512x8 .f32) (p : Fin 512) : Cert.Distill.Stats :=
  ⟨prev (ix2 p 0), prev (ix2 p 1), prev (ix2 p 2), prev (ix2 p 3), prev (ix2 p 4), prev (ix2 p 5)⟩

theorem upd_apply (i : grid0.Coords) (x0 : Vec Ideal S512x1024 .bf16) (x1 : Vec Ideal S512x2048 .bf16) (x2 : Vec Ideal S512x1 .i32) (x3 : Vec Ideal S640x1024 .f32) (x4 : Vec Ideal S1x640 .f32) (x5 : Vec Ideal S640x2048 .f32) (x6 : Vec Ideal S1x640 .f32) (prev : Vec Ideal S512x8 .f32) (p : Fin 512) (q : Fin 8) :
    upd (F := Ideal) i x0 x1 x2 x3 x4 x5 x6 prev (ix2 p q)
      = ((rowOf prev p).step (fun j : Fin 640 => (∑ k : Fin 1024, x0 (ix2 p k) * x3 (ix2 j k)) + x4 (ix2 0 j)) (fun j : Fin 640 => (∑ k : Fin 2048, x1 (ix2 p k) * x5 (ix2 j k)) + x6 (ix2 0 j)) (fun j : Fin 640 => BitVec.ofNat 32 j.val = x2 (ix2 p 0) - BitVec.ofNat 32 (i 1).val * 640#32)).col q := by
  unfold upd
  rw [pay1_apply]
  have e3 : (fun j : Fin 640 => k0_pay3 x0 x3 x4 (ix2 p j))
      = fun j : Fin 640 => (∑ k : Fin 1024, x0 (ix2 p k) * x3 (ix2 j k)) + x4 (ix2 0 j) := funext fun j => pay3_apply x0 x3 x4 p j
  have e4 : (fun j : Fin 640 => k0_pay4 x1 x5 x6 (ix2 p j))
      = fun j : Fin 640 => (∑ k : Fin 2048, x1 (ix2 p k) * x5 (ix2 j k)) + x6 (ix2 0 j) := funext fun j => pay4_apply x1 x5 x6 p j
  have e6 : k0_pay6 prev (ix2 p 0) = prev (ix2 p 0) := by
    unfold k0_pay6; exact RowOps.statCol 0 prev _ (by decide) p 0
  have e7 : k0_pay7 prev (ix2 p 0) = prev (ix2 p 1) := by
    unfold k0_pay7; exact RowOps.statCol 1 prev _ (by decide) p 0
  have e8 : k0_pay8 prev (ix2 p 0) = prev (ix2 p 2) := by
    unfold k0_pay8; exact RowOps.statCol 2 prev _ (by decide) p 0
  have e9 : k0_pay9 prev (ix2 p 0) = prev (ix2 p 3) := by
    unfold k0_pay9; exact RowOps.statCol 3 prev _ (by decide) p 0
  have e10 : k0_pay10 prev (ix2 p 0) = prev (ix2 p 4) := by
    unfold k0_pay10; exact RowOps.statCol 4 prev _ (by decide) p 0
  have e11 : k0_pay11 prev (ix2 p 0) = prev (ix2 p 5) := by
    unfold k0_pay11; exact RowOps.statCol 5 prev _ (by decide) p 0
  rw [e3, e4, e6, e7, e8, e9, e10, e11,
    step_congr_hit _ _ _ (fun j : Fin 640 => k0_pay5 (F := Ideal) i x2 (ix2 p j) = 1#1)
      (fun j : Fin 640 => BitVec.ofNat 32 j.val = x2 (ix2 p 0) - BitVec.ofNat 32 (i 1).val * 640#32)
      (fun j => by rw [pay5_apply]; exact Idealize.ShloMosaic.StableHlo.Predicate.cmpi_eq_iff)]
  rfl

end Cert.Distill.Kern

end
-- ==== Proof.BlockIdx.lean ====
/-
  The blocks the kernel's windows read and write, index by index.

  The grid has 200 points; point t is row block t / 50 and vocabulary tile t % 50.  The row
  windows (the two activations, the labels and the statistics) sit at block t / 50 of their first
  axis: row p of the block is row 512 (t / 50) + p of the array.  The two weight windows sit at block
  t % 50 of their first axis and the two bias windows at block t % 50 of their second axis: entry j
  of the block is vocabulary entry 640 (t % 50) + j.  The statistics are written back at the last
  tile of each row block, and those four blocks cover the statistics array.
-/
import proofs.«424027_j51376398794762_3_alg».proof.Proof.Gen.KernelIdeal.Frame
import Idealize.ShloMosaic.Lib.Pipeline.Value
import Idealize.ShloMosaic.Lib.ValueIdx

noncomputable section

namespace Cert.Distill.Kern

open Cert.KernelIdeal Cert.KernelIdeal.Gen Idealize.ShloMosaic Idealize.ShloMosaic.ValueIdx

variable {F : FTy → Type} [FloatOps F]
variable (m : (ℓ : Loc nD τ sig) → Buf (Elt F) ℓ)

/-- The index maps over the grid: the row windows move with t / 50, the vocabulary windows with t % 50. -/
theorem idx_facts : ∀ t : Fin cfg0.N,
    win0_0.index t (0 : Fin 2) = t.val / 50 ∧ win0_0.index t (1 : Fin 2) = 0
    ∧ win0_1.index t (0 : Fin 2) = t.val / 50 ∧ win0_1.index t (1 : Fin 2) = 0
    ∧ win0_2.index t (0 : Fin 2) = t.val / 50 ∧ win0_2.index t (1 : Fin 2) = 0
    ∧ win0_7.index t (0 : Fin 2) = t.val / 50 ∧ win0_7.index t (1 : Fin 2) = 0
    ∧ win0_3.index t (0 : Fin 2) = t.val % 50 ∧ win0_3.index t (1 : Fin 2) = 0
    ∧ win0_5.index t (0 : Fin 2) = t.val % 50 ∧ win0_5.index t (1 : Fin 2) = 0
    ∧ win0_4.index t (0 : Fin 2) = 0 ∧ win0_4.index t (1 : Fin 2) = t.val % 50
    ∧ win0_6.index t (0 : Fin 2) = 0 ∧ win0_6.index t (1 : Fin 2) = t.val % 50 :=
  (by decide +kernel : ∀ t : Fin grid0.N, _)

/-- A point's second grid coordinate is its vocabulary tile. -/
theorem coord_tile : ∀ t : Fin cfg0.N, ((grid0.coords t) (1 : Fin 2)).val = t.val % 50 :=
  (by decide +kernel : ∀ t : Fin grid0.N, _)

/-- A point's first grid coordinate is its row block. -/
theorem coord_block : ∀ t : Fin cfg0.N, ((grid0.coords t) (0 : Fin 2)).val = t.val / 50 :=
  (by decide +kernel : ∀ t : Fin grid0.N, _)

/-- Row `p` of the row block of point `t`, as a row of the batch. -/
abbrev batchRow (t : Fin cfg0.N) (p : Fin 512) : Fin 2048 :=
  ⟨512 * (t.val / 50) + p.val, by have := t.isLt; have : cfg0.N = 200 := N_0; omega⟩

/-- Entry `j` of the vocabulary tile of point `t`, as a vocabulary entry. -/
abbrev vocOf (t : Fin cfg0.N) (j : Fin 640) : Fin 32000 :=
  ⟨640 * (t.val % 50) + j.val, by omega⟩

/-- Window 0: row `p` of the student activations' block is row 512 (t / 50) + p of the array. -/
theorem blk0_apply (c : Dev nD) (t : Fin cfg0.N) (p : Fin 512) (k : Fin 1024) :
    (iblk m c 0 t : S512x1024.Idx → Elt F .bf16) (ix2 p k)
      = (V m c main_v0 : S2048x1024.Idx → Elt F .bf16) (ix2 (batchRow t p) k) := by
  obtain ⟨e0, e1, e2, e3, e4, e5, e6, e7, e8, e9, e10, e11, e12, e13, e14, e15⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = 512 * (t.val / 50) + p.val; rw [e0]; omega
  | ⟨1, _⟩ => show win0_0.index t (1 : Fin 2) * 1024 + 1 * k.val = k.val; rw [e1]; omega

/-- Window 1: row `p` of the teacher activations' block is row 512 (t / 50) + p of the array. -/
theorem blk1_apply (c : Dev nD) (t : Fin cfg0.N) (p : Fin 512) (k : Fin 2048) :
    (iblk m c 1 t : S512x2048.Idx → Elt F .bf16) (ix2 p k)
      = (V m c main_v1 : S2048x2048.Idx → Elt F .bf16) (ix2 (batchRow t p) k) := by
  obtain ⟨e0, e1, e2, e3, e4, e5, e6, e7, e8, e9, e10, e11, e12, e13, e14, e15⟩ := idx_facts t
  unfold iblk
  rw [View.read_apply]
  show V m c main_v1 _ = V m c main_v1 _
  congr 1
  funext a
  apply Fin.ext
  match a with
  | ⟨0, _⟩ => show win0_1.index t (0 : Fin 2) * 512 + 1 * p.val = 512 * (t.val / 50) + p.val; rw [e2]; omega
  | ⟨1, _⟩ => show win0_1.index t (1 : Fin 2) * 2048 + 1 * k.val = k.val; rw [e3]; omega

/-- Window 2: label `p` of the block is label 512 (t / 50) + p of the column of labels. -/
theorem blk2_apply (c : Dev nD) (t : Fin cfg0.N) (p : Fin 512) (u : Fin 1) :
    (iblk m c 2 t : S512x1.Idx → Elt F .i32) (ix2 p u)
      = (V m c main_v6 : S2048x1.Idx → Elt F .i32) (ix2 (batchRow t p) u) := by
  obtain ⟨e0, e1, e2, e3, e4, e5, e6, e7, e8, e9, e10, e11, e12, e13, e14, e15⟩ := idx_facts t
  unfold iblk
  rw [View.read_apply]
  show V m c main_v6 _ = V m c main_v6 _
  congr 1
  funext a
  apply Fin.ext
  match a with
  | ⟨0, _⟩ => show win0_2.index t (0 : Fin 2) * 512 + 1 * p.val = 512 * (t.val / 50) + p.val; rw [e4]; omega
  | ⟨1, _⟩ => show win0_2.index t (1 : Fin 2) * 1 + 1 * u.val = u.val; rw [e5]; omega

/-- Window 3: row `j` of the student weights' block is vocabulary entry 640 (t % 50) + j. -/
theorem blk3_apply (c : Dev nD) (t : Fin cfg0.N) (j : Fin 640) (k : Fin 1024) :
    (iblk m c 3 t : S640x1024.Idx → Elt F .f32) (ix2 j k)
      = (V m c main_arg3 : S32000x1024.Idx → Elt F .f32) (ix2 (vocOf t j) k) := by
  obtain ⟨e0, e1, e2, e3, e4, e5, e6, e7, e8, e9, e10, e11, e12, e13, e14, e15⟩ := idx_facts t
  unfold iblk
  rw [View.read_apply]
  show V m c main_arg3 _ = V m c main_arg3 _
  congr 1
  funext a
  apply Fin.ext
  match a with
  | ⟨0, _⟩ => show win0_3.index t (0 : Fin 2) * 640 + 1 * j.val = 640 * (t.val % 50) + j.val; rw [e8]; omega
  | ⟨1, _⟩ => show win0_3.index t (1 : Fin 2) * 1024 + 1 * k.val = k.val; rw [e9]; omega

/-- Window 4: entry `j` of the student bias block is vocabulary entry 640 (t % 50) + j. -/
theorem blk4_apply (c : Dev nD) (t : Fin cfg0.N) (u : Fin 1) (j : Fin 640) :
    (iblk m c 4 t : S1x640.Idx → Elt F .f32) (ix2 u j)
      = (V m c main_v7 : S1x32000.Idx → Elt F .f32) (ix2 u (vocOf t j)) := by
  obtain ⟨e0, e1, e2, e3, e4, e5, e6, e7, e8, e9, e10, e11, e12, e13, e14, e15⟩ := idx_facts t
  unfold iblk
  rw [View.read_apply]
  show V m c main_v7 _ = V m c main_v7 _
  congr 1
  funext a
  apply Fin.ext
  match a with
  | ⟨0, _⟩ => show win0_4.index t (0 : Fin 2) * 1 + 1 * u.val = u.val; rw [e12]; omega
  | ⟨1, _⟩ => show win0_4.index t (1 : Fin 2) * 640 + 1 * j.val = 640 * (t.val % 50) + j.val; rw [e13]; omega

/-- Window 5: row `j` of the teacher weights' block is vocabulary entry 640 (t % 50) + j. -/
theorem blk5_apply (c : Dev nD) (t : Fin cfg0.N) (j : Fin 640) (k : Fin 2048) :
    (iblk m c 5 t : S640x2048.Idx → Elt F .f32) (ix2 j k)
      = (V m c main_arg5 : S32000x2048.Idx → Elt F .f32) (ix2 (vocOf t j) k) := by
  obtain ⟨e0, e1, e2, e3, e4, e5, e6, e7, e8, e9, e10, e11, e12, e13, e14, e15⟩ := idx_facts t
  unfold iblk
  rw [View.read_apply]
  show V m c main_arg5 _ = V m c main_arg5 _
  congr 1
  funext a
  apply Fin.ext
  match a with
  | ⟨0, _⟩ => show win0_5.index t (0 : Fin 2) * 640 + 1 * j.val = 640 * (t.val % 50) + j.val; rw [e10]; omega
  | ⟨1, _⟩ => show win0_5.index t (1 : Fin 2) * 2048 + 1 * k.val = k.val; rw [e11]; omega

/-- Window 6: entry `j` of the teacher bias block is vocabulary entry 640 (t % 50) + j. -/
theorem blk6_apply (c : Dev nD) (t : Fin cfg0.N) (u : Fin 1) (j : Fin 640) :
    (iblk m c 6 t : S1x640.Idx → Elt F .f32) (ix2 u j)
      = (V m c main_v8 : S1x32000.Idx → Elt F .f32) (ix2 u (vocOf t j)) := by
  obtain ⟨e0, e1, e2, e3, e4, e5, e6, e7, e8, e9, e10, e11, e12, e13, e14, e15⟩ := idx_facts t
  unfold iblk
  rw [View.read_apply]
  show V m c main_v8 _ = V m c main_v8 _
  congr 1
  funext a
  apply Fin.ext
  match a with
  | ⟨0, _⟩ => show win0_6.index t (0 : Fin 2) * 1 + 1 * u.val = u.val; rw [e14]; omega
  | ⟨1, _⟩ => show win0_6.index t (1 : Fin 2) * 640 + 1 * j.val = 640 * (t.val % 50) + j.val; rw [e15]; omega

/-- Window 7: row `p` of the statistics block of point `t` is row 512 (t / 50) + p of the statistics array. -/
theorem emb7 (t : Fin cfg0.N) (p : Fin 512) (q : Fin 8) :
    ((cfg0.win 7).blk t).view.emb (ix2 p q : S512x8.Idx) = (ix2 (batchRow t p) q : S2048x8.Idx) := by
  obtain ⟨-, -, -, -, -, -, e6, e7, -⟩ := idx_facts t
  funext a
  apply Fin.ext
  match a with
  | ⟨0, _⟩ => show win0_7.index t (0 : Fin 2) * 512 + 1 * p.val = 512 * (t.val / 50) + p.val; rw [e6]; omega
  | ⟨1, _⟩ => show win0_7.index t (1 : Fin 2) * 8 + 1 * q.val = q.val; rw [e7]; omega

/-- An index of the statistics array is in point `t`'s block iff each coordinate is in the block's range on its axis. -/
theorem mem_blk7 (t : Fin cfg0.N) (i : S2048x8.Idx) :
    i ∈ ((cfg0.win 7).blk t).view.set ↔ ∀ a : Fin 2, win0_7.index t a * S512x8.size a ≤ (i a).val
      ∧ (i a).val < win0_7.index t a * S512x8.size a + S512x8.size a := by
  show i ∈ ((View.whole main_v9).slice (win0_7.rect t)).set ↔ _
  rw [View.set_slice_whole, Rect.mem_set_unit]
  exact Iff.rfl

/-- Every index of the statistics array is in the block written back at the last tile of its row block. -/
theorem cover7 : ∀ i : S2048x8.Idx, ∃ t : Fin cfg0.N, (cfg0.win 7).flush t = true ∧ i ∈ ((cfg0.win 7).blk t).view.set := by
  intro i
  have hi0 : (i 0).val < 2048 := (i 0).isLt
  have hi1 : (i 1).val < 8 := (i 1).isLt
  have hN : cfg0.N = 200 := N_0
  obtain ⟨t, ht⟩ : ∃ t : Fin cfg0.N, t.val = 50 * ((i 0).val / 512) + 49 := ⟨⟨50 * ((i 0).val / 512) + 49, by omega⟩, rfl⟩
  obtain ⟨-, -, -, -, -, -, e6, e7, -⟩ := idx_facts t
  refine ⟨t, (flush0_7 t).2 (by omega), ?_⟩
  rw [mem_blk7]
  intro a
  match a with
  | ⟨0, _⟩ =>
    show win0_7.index t (0 : Fin 2) * 512 ≤ (i 0).val ∧ (i 0).val < win0_7.index t (0 : Fin 2) * 512 + 512
    rw [e6]; omega
  | ⟨1, _⟩ =>
    show win0_7.index t (1 : Fin 2) * 8 ≤ (i 1).val ∧ (i 1).val < win0_7.index t (1 : Fin 2) * 8 + 8
    rw [e7]; omega

end Cert.Distill.Kern

end
-- ==== Proof.Law.lean ====
/-
  The mathematics of the distillation loss, apart from any program.

  Groundwork: the float words of the specification as extended reals; coercions of real sums
  and maxima; the fold of max over a real family is real; the partial sums of a function on
  the vocabulary over its first k tiles, and that fifty tiles are the whole vocabulary; the
  streamed statistics in closed form.

  The laws: a logit of real inputs is real; the streamed hard term equals the log-softmax one
  (both are log (∑ exp σ) - σ τ, whatever finite shift is used); the streamed cosine equals the
  normalise-first one (both are (∑ σ θ) / (‖σ‖ ‖θ‖) with the floored norms); weighting a hard
  term by a 0 / 1 weight is selecting it by the validity bit; the two spare columns are zero.
-/
import proofs.«424027_j51376398794762_3_alg».proof.Proof.Stream
import Mathlib.Data.EReal.Operations
import Mathlib.Data.Fintype.BigOperators
import Mathlib.Algebra.BigOperators.Group.Finset.Basic
import Mathlib.Algebra.BigOperators.Ring.Finset
import Mathlib.Data.Finset.Fold
import Mathlib.Analysis.SpecialFunctions.Exp
import Mathlib.Analysis.SpecialFunctions.Log.Basic
import Mathlib.Analysis.SpecialFunctions.Sqrt
import Idealize.ShloMosaic.Lib.ValueIdx

open Idealize.ShloMosaic
open scoped BigOperators

noncomputable section

namespace Cert.Distill

/-! ### The float words -/

theorem zero_eq : zero = 0 := by
  simp [zero, Ideal.ofBits, Ideal.ieee]

theorem one_eq : one = 1 := by
  simp [one, Ideal.ofBits, Ideal.ieee, -EReal.coe_mul]; norm_num

theorem negInf_eq : negInf = ⊥ := by
  simp [negInf, Ideal.ofBits, Ideal.ieee]

/-- The norm floor is a positive real. -/
theorem eps_pos : ∃ e : ℝ, 0 < e ∧ eps = (e : EReal) := by
  refine ⟨(2 ^ 23 + 834764 : ℕ) * (2 : ℝ) ^ ((87 : ℤ) - 127 - 23), by positivity, ?_⟩
  simp [eps, Ideal.ofBits, Ideal.ieee, -EReal.coe_mul]

/-- The start value of the running maximum is a real. -/
theorem negBig_real : ∃ r : ℝ, negBig = (r : EReal) := by
  refine ⟨-1 * (2 ^ 23 + 3355442 : ℕ) * (2 : ℝ) ^ ((254 : ℤ) - 127 - 23), ?_⟩
  simp [negBig, Ideal.ofBits, Ideal.ieee, -EReal.coe_mul]

/-! ### Real families inside the extended reals -/

/-- A finite sum of reals, read in the extended reals, is the real sum. -/
theorem coe_sum {ι : Type*} (S : Finset ι) (f : ι → ℝ) :
    (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The maximum of two reals, read in the extended reals. -/
theorem coe_max (a b : ℝ) : max (a : EReal) (b : EReal) = ((max a b : ℝ) : EReal) :=
  (EReal.coe_strictMono.monotone.map_max).symm

/-- The fold of max from minus infinity over a nonempty family of reals is a real:
    it lies strictly between the two infinities. -/
theorem fold_max_real {ι : Type*} (S : Finset ι) (hS : S.Nonempty) (f : ι → ℝ) :
    ∃ r : ℝ, S.fold max ⊥ (fun i => (f i : EReal)) = (r : EReal) := by
  refine ⟨(S.fold max ⊥ (fun i => (f i : EReal))).toReal, (EReal.coe_toReal ?_ ?_).symm⟩
  · exact ne_of_lt ((Finset.fold_max_lt _).mpr ⟨bot_lt_top, fun i _ => EReal.coe_lt_top _⟩)
  · obtain ⟨i, hi⟩ := hS
    exact ne_of_gt ((Finset.lt_fold_max _).mpr (Or.inr ⟨i, hi, EReal.bot_lt_coe _⟩))

/-! ### Partial sums over the first k tiles -/

section Part
variable {M : Type*} [AddCommMonoid M]

/-- A function on the vocabulary continued by zero to every natural number. -/
def ext0 (f : Fin 32000 → M) (i : ℕ) : M := if h : i < 32000 then f ⟨i, h⟩ else 0

/-- The sum of `f` over the first `k` tiles, that is over the entries below `640 k`. -/
def part (f : Fin 32000 → M) (k : ℕ) : M := ∑ i ∈ Finset.range (640 * k), ext0 f i

theorem part_zero (f : Fin 32000 → M) : part f 0 = 0 := by simp [part]

/-- Tile `k` is the entries `640 k + j`, `j < 640`: one more tile adds its own sum. -/
theorem part_succ (f : Fin 32000 → M) (k : ℕ) (h : k < 50) :
    part f (k + 1) = part f k + ∑ j : Fin 640, f (tileIdx ⟨k, h⟩ j) := by
  unfold part
  rw [show 640 * (k + 1) = 640 * k + 640 by ring, Finset.sum_range_add,
    ← Fin.sum_univ_eq_sum_range (fun i => ext0 f (640 * k + i)) 640]
  congr 1
  refine Finset.sum_congr rfl fun j _ => ?_
  have hj : 640 * k + j.val < 32000 := by have := j.isLt; omega
  simp only [ext0, dif_pos hj]
  rfl

/-- Fifty tiles are the whole vocabulary. -/
theorem part_full (f : Fin 32000 → M) : part f 50 = ∑ v, f v := by
  unfold part
  rw [show 640 * 50 = 32000 by norm_num, ← Fin.sum_univ_eq_sum_range (ext0 f) 32000]
  refine Finset.sum_congr rfl fun v _ => ?_
  simp only [ext0, dif_pos v.isLt]

end Part

/-- Moving the shift of the exponentials from `a` to `b` multiplies every term by exp (a - b). -/
theorem part_exp_shift (s : Fin 32000 → ℝ) (a b : ℝ) (k : ℕ) :
    Real.exp (a - b) * part (fun v => Real.exp (s v - a)) k = part (fun v => Real.exp (s v - b)) k := by
  unfold part
  rw [Finset.mul_sum]
  refine Finset.sum_congr rfl fun i _ => ?_
  unfold ext0
  split_ifs with hi
  · rw [← Real.exp_add]; congr 1; ring
  · exact mul_zero _

/-! ### The streamed statistics in closed form -/

theorem run_succ (σ θ : Fin 32000 → EReal) (τ : Fin 32000) (k : ℕ) (h : k < 50) :
    run σ θ τ (k + 1)
      = (run σ θ τ k).step (fun j => σ (tileIdx ⟨k, h⟩ j)) (fun j => θ (tileIdx ⟨k, h⟩ j))
          (fun j => tileIdx ⟨k, h⟩ j = τ) := by
  rw [run, dif_pos h]

/-- The picked logit after `k` tiles: the sum, over the entries seen, of the logit at the picked entry. -/
theorem run_g (σ θ : Fin 32000 → EReal) (τ : Fin 32000) (k : ℕ) (hk : k ≤ 50) :
    (run σ θ τ k).g = part (fun v => if v = τ then σ v else 0) k := by
  induction k with
  | zero => rw [part_zero]; exact zero_eq
  | succ k ih =>
    have h : k < 50 := hk
    rw [run_succ σ θ τ k h, part_succ _ k h, ← ih (Nat.le_of_lt h)]
    simp only [Stats.step, zero_eq]

theorem run_a (σ θ : Fin 32000 → EReal) (τ : Fin 32000) (k : ℕ) (hk : k ≤ 50) :
    (run σ θ τ k).a = part (fun v => σ v * σ v) k := by
  induction k with
  | zero => rw [part_zero]; exact zero_eq
  | succ k ih =>
    have h : k < 50 := hk
    rw [run_succ σ θ τ k h, part_succ _ k h, ← ih (Nat.le_of_lt h)]
    simp only [Stats.step]

theorem run_b (σ θ : Fin 32000 → EReal) (τ : Fin 32000) (k : ℕ) (hk : k ≤ 50) :
    (run σ θ τ k).b = part (fun v => θ v * θ v) k := by
  induction k with
  | zero => rw [part_zero]; exact zero_eq
  | succ k ih =>
    have h : k < 50 := hk
    rw [run_succ σ θ τ k h, part_succ _ k h, ← ih (Nat.le_of_lt h)]
    simp only [Stats.step]

theorem run_c (σ θ : Fin 32000 → EReal) (τ : Fin 32000) (k : ℕ) (hk : k ≤ 50) :
    (run σ θ τ k).c = part (fun v => σ v * θ v) k := by
  induction k with
  | zero => rw [part_zero]; exact zero_eq
  | succ k ih =>
    have h : k < 50 := hk
    rw [run_succ σ θ τ k h, part_succ _ k h, ← ih (Nat.le_of_lt h)]
    simp only [Stats.step]

/-- With real logits the running maximum after `k` tiles is a real `m`, and the running sum is
    the sum of exp (σ v - m) over the entries seen: rescaling the old sum by exp (old - new)
    moves every old term to the new maximum. -/
theorem run_ml (s t : Fin 32000 → ℝ) (τ : Fin 32000) (k : ℕ) (hk : k ≤ 50) :
    ∃ m : ℝ, (run (fun v => (s v : EReal)) (fun v => (t v : EReal)) τ k).m = (m : EReal) ∧
      (run (fun v => (s v : EReal)) (fun v => (t v : EReal)) τ k).l
        = ((part (fun v => Real.exp (s v - m)) k : ℝ) : EReal) := by
  induction k with
  | zero =>
    obtain ⟨r, hr⟩ := negBig_real
    exact ⟨r, hr, by rw [part_zero]; exact zero_eq.trans EReal.coe_zero.symm⟩
  | succ k ih =>
    have h : k < 50 := hk
    obtain ⟨m, hm, hl⟩ := ih (Nat.le_of_lt h)
    obtain ⟨u, hu⟩ : ∃ u : ℝ, (Finset.univ : Finset (Fin 640)).fold max ⊥
        (fun j => ((s (tileIdx ⟨k, h⟩ j) : ℝ) : EReal)) = (u : EReal) :=
      fold_max_real _ Finset.univ_nonempty _
    refine ⟨max m u, ?_, ?_⟩
    · rw [run_succ _ _ τ k h]
      simp only [Stats.step, negInf_eq, hm, hu, coe_max]
    · rw [run_succ _ _ τ k h, part_succ _ k h, ← part_exp_shift s m (max m u) k]
      simp only [Stats.step, negInf_eq, hm, hl, hu, coe_max]
      simp only [← EReal.coe_sub, Ideal.exp_coe, ← EReal.coe_mul, coe_sum, ← EReal.coe_add]

/-! ### Logits are real -/

theorem logit_real {H : Nat} (x : (⟨2, ![2048, H]⟩ : Shape).Idx → EReal) (w : (⟨2, ![32000, H]⟩ : Shape).Idx → EReal)
    (b : (⟨1, ![32000]⟩ : Shape).Idx → EReal) (hx : ∀ i, ∃ r : ℝ, x i = (r : EReal))
    (hw : ∀ i, ∃ r : ℝ, w i = (r : EReal)) (hb : ∀ i, ∃ r : ℝ, b i = (r : EReal))
    (r : Fin 2048) (v : Fin 32000) : ∃ s : ℝ, logit x w b r v = (s : EReal) := by
  choose fx hfx using hx
  choose fw hfw using hw
  choose fb hfb using hb
  refine ⟨(∑ k : Fin H, fx (ValueIdx.ix2 r k) * fw (ValueIdx.ix2 v k)) + fb (ValueIdx.ix1 v), ?_⟩
  simp only [logit, hfx, hfw, hfb, ← EReal.coe_mul, coe_sum, ← EReal.coe_add]

/-! ### The hard term -/

/-- Shifting every exponent by `a` lowers the logarithm of the sum by `a`. -/
theorem log_sum_exp_shift (s : Fin 32000 → ℝ) (a : ℝ) :
    Real.log (∑ v, Real.exp (s v - a)) = Real.log (∑ v, Real.exp (s v)) - a := by
  have hpos : 0 < ∑ v, Real.exp (s v) :=
    Finset.sum_pos (fun v _ => Real.exp_pos _) ⟨⟨0, by norm_num⟩, Finset.mem_univ _⟩
  simp only [Real.exp_sub]
  rw [← Finset.sum_div, Real.log_div hpos.ne' (Real.exp_ne_zero a), Real.log_exp]

theorem sum_exp_pos (s : Fin 32000 → ℝ) (a : ℝ) : 0 < ∑ v, Real.exp (s v - a) :=
  Finset.sum_pos (fun v _ => Real.exp_pos _) ⟨⟨0, by norm_num⟩, Finset.mem_univ _⟩

/-- Both forms of the hard term are log (∑ exp σ) - σ τ: the streamed one shifts by its running
    maximum, the other by the row maximum, and a shift cancels against the logarithm. -/
theorem row_nll (σ θ : Fin 32000 → EReal) (τ : Fin 32000) (hσ : ∀ v, ∃ r : ℝ, σ v = (r : EReal))
    (hθ : ∀ v, ∃ r : ℝ, θ v = (r : EReal)) :
    nllOf (run σ θ τ 50).m (run σ θ τ 50).l (run σ θ τ 50).g = refNll σ τ := by
  choose s hs using hσ
  choose t ht using hθ
  obtain rfl : σ = fun v => (s v : EReal) := funext hs
  obtain rfl : θ = fun v => (t v : EReal) := funext ht
  obtain ⟨m, hm, hl⟩ := run_ml s t τ 50 le_rfl
  have hg := run_g (fun v => (s v : EReal)) (fun v => (t v : EReal)) τ 50 le_rfl
  rw [part_full] at hl hg
  rw [Finset.sum_ite_eq', if_pos (Finset.mem_univ τ)] at hg
  obtain ⟨R, hR⟩ : ∃ R : ℝ, (Finset.univ : Finset (Fin 32000)).fold max ⊥ (fun v => ((s v : ℝ) : EReal)) = (R : EReal) :=
    fold_max_real _ ⟨⟨0, by norm_num⟩, Finset.mem_univ _⟩ _
  rw [hm, hl, hg]
  simp only [nllOf, refNll, rowMax, negInf_eq, zero_eq, zero_add, hR, max_eq_right bot_le,
    ← EReal.coe_sub, Ideal.exp_coe, coe_sum, Ideal.log_coe, if_neg (not_le.mpr (sum_exp_pos s _)),
    log_sum_exp_shift, ← EReal.coe_add, ← EReal.coe_neg]
  exact congrArg Real.toEReal (by ring)

/-! ### The soft term -/

/-- Dividing by one changes nothing. -/
theorem div_one_eq (x : EReal) : Ideal.div x 1 = x := by
  rw [← EReal.coe_one, Ideal.div_coe one_ne_zero, div_one, EReal.coe_one, mul_one]

/-- The floored norm of a real vector is a positive real. -/
theorem norm_floor (s : Fin 32000 → ℝ) :
    ∃ n : ℝ, 0 < n ∧ max (Ideal.sqrt ((∑ v, s v * s v : ℝ) : EReal)) eps = (n : EReal) := by
  obtain ⟨e, he, hE⟩ := eps_pos
  refine ⟨max (Real.sqrt (∑ v, s v * s v)) e, lt_max_of_lt_right he, ?_⟩
  rw [Ideal.sqrt_coe, if_neg (not_lt.mpr (Finset.sum_nonneg fun v _ => mul_self_nonneg _)), hE, coe_max]

/-- Both forms of the cosine are (∑ σ θ) / (‖σ‖ ‖θ‖) with the floored norms: the positive real
    norms leave the sum as common factors. -/
theorem row_cos (σ θ : Fin 32000 → EReal) (τ : Fin 32000) (hσ : ∀ v, ∃ r : ℝ, σ v = (r : EReal))
    (hθ : ∀ v, ∃ r : ℝ, θ v = (r : EReal)) :
    cosOf (run σ θ τ 50).a (run σ θ τ 50).b (run σ θ τ 50).c = refCos σ θ := by
  choose s hs using hσ
  choose t ht using hθ
  obtain rfl : σ = fun v => (s v : EReal) := funext hs
  obtain rfl : θ = fun v => (t v : EReal) := funext ht
  have ha := run_a (fun v => (s v : EReal)) (fun v => (t v : EReal)) τ 50 le_rfl
  have hb := run_b (fun v => (s v : EReal)) (fun v => (t v : EReal)) τ 50 le_rfl
  have hc := run_c (fun v => (s v : EReal)) (fun v => (t v : EReal)) τ 50 le_rfl
  rw [part_full] at ha hb hc
  obtain ⟨ns, hns, hNs⟩ := norm_floor s
  obtain ⟨nt, hnt, hNt⟩ := norm_floor t
  rw [ha, hb, hc]
  simp only [cosOf, refCos, unitEntry, one_eq, div_one_eq, zero_eq, zero_add, ← EReal.coe_mul, coe_sum,
    hNs, hNt]
  rw [Ideal.div_coe (mul_pos hns hnt).ne']
  simp only [Ideal.div_coe hns.ne', Ideal.div_coe hnt.ne', ← EReal.coe_mul, coe_sum]
  refine congrArg Real.toEReal ?_
  rw [Finset.sum_mul]
  refine Finset.sum_congr rfl fun v _ => ?_
  field_simp

/-! ### The two forms of the loss -/

/-- A hard term times its 0 / 1 weight is the term selected by the validity bit. -/
theorem loss_forms (nll cos : Fin 2048 → EReal) (lab : (⟨1, ![2048]⟩ : Shape).Idx → BitVec 32) :
    lossWeighted nll cos (weight lab)
      = lossSelected nll cos (validBit lab) (max (zero + ∑ r, weight lab r) one) := by
  have h : ∀ r, nll r * weight lab r = Scalar.select (validBit lab r) (nll r) zero := by
    intro r
    unfold weight
    by_cases hv : validBit lab r = 1#1
    · rw [if_pos hv, hv, ValueIdx.select_one, mul_one]
    · rw [if_neg hv, ValueIdx.eq_zero_of_ne_one hv, ValueIdx.select_zero, mul_zero, zero_eq]
  simp only [lossWeighted, lossSelected, h]

/-! ### The two spare columns -/

theorem run_cols (σ θ : Fin 32000 → EReal) (τ : Fin 32000) (k : ℕ) (q : Fin 8) (hq : 6 ≤ q.val) :
    (run σ θ τ k).col q = zero := by
  obtain ⟨n, hn⟩ := q
  obtain ⟨d, rfl⟩ : ∃ d, n = d + 6 := ⟨n - 6, by simp at hq; omega⟩
  rfl

end Cert.Distill

end
-- ==== Proof.Final.lean ====
/-
  The statistics block after every grid point, and the output array after the run.

  Row r of the batch lies in row block r / 512; its student logit at vocabulary entry v is the dot product of
  row r of the (converted) student input with row v of the student weights plus the bias at v, all read from the
  arrays as the region finds them; likewise the teacher logit.  After tile k of its row block the row's eight
  words in the statistics block are the streamed statistics `run` of its two logit vectors and its label after
  k + 1 tiles: by induction over the tiles, the first tile starting from the start values.  The output block is
  written at the last tile only, so the output array ends, at row r, at the statistics after all 50 tiles.
-/
import proofs.«424027_j51376398794762_3_alg».proof.Proof.Accum
import proofs.«424027_j51376398794762_3_alg».proof.Proof.UpdRow
import proofs.«424027_j51376398794762_3_alg».proof.Proof.BlockIdx
import proofs.«424027_j51376398794762_3_alg».proof.Proof.Law

set_option maxRecDepth 16384

noncomputable section

open scoped BigOperators

namespace Cert.Distill.Kern

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The seven arrays the region reads, as it finds them, over their literal shapes. -/
abbrev aX (c : Dev nD) : S2048x1024.Idx → EReal := V m c main_v0
abbrev aY (c : Dev nD) : S2048x2048.Idx → EReal := V m c main_v1
abbrev aL (c : Dev nD) : S2048x1.Idx → BitVec 32 := V m c main_v6
abbrev aWs (c : Dev nD) : S32000x1024.Idx → EReal := V m c main_arg3
abbrev aBs (c : Dev nD) : S1x32000.Idx → EReal := V m c main_v7
abbrev aWt (c : Dev nD) : S32000x2048.Idx → EReal := V m c main_arg5
abbrev aBt (c : Dev nD) : S1x32000.Idx → EReal := V m c main_v8

/-- Their blocks at a grid point, over the literal block shapes. -/
abbrev bX (c : Dev nD) (t : Fin cfg0.N) : S512x1024.Idx → EReal := iblk m c 0 t
abbrev bY (c : Dev nD) (t : Fin cfg0.N) : S512x2048.Idx → EReal := iblk m c 1 t
abbrev bL (c : Dev nD) (t : Fin cfg0.N) : S512x1.Idx → BitVec 32 := iblk m c 2 t
abbrev bWs (c : Dev nD) (t : Fin cfg0.N) : S640x1024.Idx → EReal := iblk m c 3 t
abbrev bBs (c : Dev nD) (t : Fin cfg0.N) : S1x640.Idx → EReal := iblk m c 4 t
abbrev bWt (c : Dev nD) (t : Fin cfg0.N) : S640x2048.Idx → EReal := iblk m c 5 t
abbrev bBt (c : Dev nD) (t : Fin cfg0.N) : S1x640.Idx → EReal := iblk m c 6 t

/-- A block entry is the array entry at the block's offset: rows of the batch move with the row block, vocabulary
    entries with the tile. -/
theorem bX_apply (c : Dev nD) (t : Fin cfg0.N) (p : Fin 512) (k : Fin 1024) : bX m c t (ix2 p k) = aX m c (ix2 (batchRow t p) k) := blk0_apply m c t p k
theorem bY_apply (c : Dev nD) (t : Fin cfg0.N) (p : Fin 512) (k : Fin 2048) : bY m c t (ix2 p k) = aY m c (ix2 (batchRow t p) k) := blk1_apply m c t p k
theorem bL_apply (c : Dev nD) (t : Fin cfg0.N) (p : Fin 512) (u : Fin 1) : bL m c t (ix2 p u) = aL m c (ix2 (batchRow t p) u) := blk2_apply m c t p u
theorem bWs_apply (c : Dev nD) (t : Fin cfg0.N) (j : Fin 640) (k : Fin 1024) : bWs m c t (ix2 j k) = aWs m c (ix2 (vocOf t j) k) := blk3_apply m c t j k
theorem bBs_apply (c : Dev nD) (t : Fin cfg0.N) (u : Fin 1) (j : Fin 640) : bBs m c t (ix2 u j) = aBs m c (ix2 u (vocOf t j)) := blk4_apply m c t u j
theorem bWt_apply (c : Dev nD) (t : Fin cfg0.N) (j : Fin 640) (k : Fin 2048) : bWt m c t (ix2 j k) = aWt m c (ix2 (vocOf t j) k) := blk5_apply m c t j k
theorem bBt_apply (c : Dev nD) (t : Fin cfg0.N) (u : Fin 1) (j : Fin 640) : bBt m c t (ix2 u j) = aBt m c (ix2 u (vocOf t j)) := blk6_apply m c t u j

/-- The student logit of row `r` at entry `v`, from the arrays as the region finds them. -/
def sK (c : Dev nD) (r : Fin 2048) (v : Fin 32000) : EReal :=
  (∑ k : Fin 1024, aX m c (ix2 r k) * aWs m c (ix2 v k)) + aBs m c (ix2 0 v)

/-- The teacher logit of row `r` at entry `v`. -/
def tK (c : Dev nD) (r : Fin 2048) (v : Fin 32000) : EReal :=
  (∑ k : Fin 2048, aY m c (ix2 r k) * aWt m c (ix2 v k)) + aBt m c (ix2 0 v)

/-- Row `p` of the block of grid point `n` is row 512 (n / 50) + p of the batch. -/
def rowAt (n : ℕ) (hn : n < cfg0.N) (p : Fin 512) : Fin 2048 :=
  ⟨512 * (n / 50) + p.val, by have : cfg0.N = 200 := N_0; have := p.isLt; omega⟩

/-- A lane is the picked entry of its tile exactly when the lane word equals the label word minus the tile's base. -/
theorem hit_iff (j : Fin 640) (k : ℕ) (hk : k < 50) (τ : Fin 32000) :
    (BitVec.ofNat 32 j.val = BitVec.ofNat 32 τ.val - BitVec.ofNat 32 k * 640#32) ↔ tileIdx ⟨k, hk⟩ j = τ := by
  have hj := j.isLt
  have hτ := τ.isLt
  constructor
  · intro h
    apply Fin.ext
    show 640 * k + j.val = τ.val
    have h' := congrArg BitVec.toNat h
    simp only [BitVec.toNat_sub, BitVec.toNat_mul, BitVec.toNat_ofNat] at h'
    omega
  · intro h
    have h' : 640 * k + j.val = τ.val := congrArg Fin.val h
    apply BitVec.eq_of_toNat_eq
    simp only [BitVec.toNat_sub, BitVec.toNat_mul, BitVec.toNat_ofNat]
    omega

/-- The update does not depend on how the picked lane is spelt. -/
theorem step_congr (s : Stats) (σ θ : Fin 640 → EReal) (hit hit' : Fin 640 → Prop) [DecidablePred hit] [DecidablePred hit']
    (h : ∀ j, hit j ↔ hit' j) : s.step σ θ hit = s.step σ θ hit' := by
  unfold Stats.step
  congr 2
  exact Finset.sum_congr rfl fun j _ => if_congr (h j) rfl rfl

/-- The statistics of a row of a block are given by its eight words. -/
theorem rowOf_eq (prev : Vec Ideal S512x8 .f32) (p : Fin 512) (s : Stats) (h : ∀ q : Fin 8, prev (ix2 p q) = s.col q) :
    rowOf prev p = s := by
  obtain ⟨a, b, c, d, e, f⟩ := s
  unfold rowOf
  have h0 : prev (ix2 p 0) = a := h 0
  have h1 : prev (ix2 p 1) = b := h 1
  have h2 : prev (ix2 p 2) = c := h 2
  have h3 : prev (ix2 p 3) = d := h 3
  have h4 : prev (ix2 p 4) = e := h 4
  have h5 : prev (ix2 p 5) = f := h 5
  rw [h0, h1, h2, h3, h4, h5]

variable (τ : Fin 2048 → Fin 32000)

/-- One grid point: the update at point `t` of a block `prev`, read at row `p`, is one step of the row's stream. -/
theorem updAt_apply (c : Dev nD) (hτ : ∀ r : Fin 2048, aL m c (ix2 r 0) = BitVec.ofNat 32 (τ r).val)
    (t : Fin cfg0.N) (prev : Vec Ideal S512x8 .f32) (p : Fin 512) (q : Fin 8) (hk : t.val % 50 < 50) :
    updAt m c t prev (ix2 p q)
      = ((rowOf prev p).step (fun j => sK m c (rowAt t.val t.isLt p) (tileIdx ⟨t.val % 50, hk⟩ j))
          (fun j => tK m c (rowAt t.val t.isLt p) (tileIdx ⟨t.val % 50, hk⟩ j))
          (fun j => tileIdx ⟨t.val % 50, hk⟩ j = τ (rowAt t.val t.isLt p))).col q := by
  unfold updAt
  refine (upd_apply (grid0.coords t) (bX m c t) (bY m c t) (bL m c t) (bWs m c t) (bBs m c t) (bWt m c t) (bBt m c t) prev p q).trans ?_
  have hσ : (fun j : Fin 640 => (∑ k : Fin 1024, bX m c t (ix2 p k) * bWs m c t (ix2 j k)) + bBs m c t (ix2 0 j))
      = fun j => sK m c (rowAt t.val t.isLt p) (tileIdx ⟨t.val % 50, hk⟩ j) := by
    funext j
    unfold sK
    simp only [bX_apply, bWs_apply, bBs_apply]
    rfl
  have hθ : (fun j : Fin 640 => (∑ k : Fin 2048, bY m c t (ix2 p k) * bWt m c t (ix2 j k)) + bBt m c t (ix2 0 j))
      = fun j => tK m c (rowAt t.val t.isLt p) (tileIdx ⟨t.val % 50, hk⟩ j) := by
    funext j
    unfold tK
    simp only [bY_apply, bWt_apply, bBt_apply]
    rfl
  have hh : ∀ j : Fin 640, (BitVec.ofNat 32 j.val = bL m c t (ix2 p 0) - BitVec.ofNat 32 ((grid0.coords t) 1).val * 640#32)
      ↔ tileIdx ⟨t.val % 50, hk⟩ j = τ (rowAt t.val t.isLt p) := by
    intro j
    rw [bL_apply m c t p 0, coord_tile t]
    have e : aL m c (ix2 (batchRow t p) 0) = BitVec.ofNat 32 (τ (rowAt t.val t.isLt p)).val := hτ (rowAt t.val t.isLt p)
    rw [e]
    exact hit_iff j (t.val % 50) hk _
  rw [step_congr _ _ _ _ _ hh, hσ, hθ]

/-- The statistics block after grid point `n`, at row `p`: the row's stream after (n mod 50) + 1 tiles. -/
theorem scr_inv (c : Dev nD) (hτ : ∀ r : Fin 2048, aL m c (ix2 r 0) = BitVec.ofNat 32 (τ r).val) :
    ∀ (n : ℕ) (hn : n < cfg0.N) (p : Fin 512) (q : Fin 8),
      (outsAt0 m c n hn).2 (ix2 p q)
        = (run (sK m c (rowAt n hn p)) (tK m c (rowAt n hn p)) (τ (rowAt n hn p)) (n % 50 + 1)).col q := by
  intro n
  induction n using Nat.strong_induction_on with
  | _ n ih =>
    intro hn p q
    have hk : n % 50 < 50 := Nat.mod_lt _ (by decide)
    rw [run_succ _ _ _ (n % 50) hk]
    by_cases h0 : n % 50 = 0
    · refine (congrFun (scr_first m c ⟨n, hn⟩ h0) (ix2 p q)).trans ?_
      refine (updAt_apply m τ c hτ ⟨n, hn⟩ _ p q hk).trans ?_
      rw [rowOf_eq _ p Stats.init (fun q' => init_apply p q')]
      have e : run (sK m c (rowAt n hn p)) (tK m c (rowAt n hn p)) (τ (rowAt n hn p)) (n % 50) = Stats.init := by
        rw [h0]; rfl
      rw [e]
    · refine (congrFun (scr_next m c ⟨n, hn⟩ h0) (ix2 p q)).trans ?_
      refine (updAt_apply m τ c hτ ⟨n, hn⟩ _ p q hk).trans ?_
      have hpos : 0 < n := Nat.pos_of_ne_zero (fun h => h0 (by rw [h]))
      have hrow : rowAt (n - 1) (Nat.lt_of_le_of_lt (Nat.sub_le _ _) hn) p = rowAt n hn p := by
        apply Fin.ext
        show 512 * ((n - 1) / 50) + p.val = 512 * (n / 50) + p.val
        have : (n - 1) / 50 = n / 50 := by omega
        rw [this]
      have hmod : (n - 1) % 50 + 1 = n % 50 := by omega
      have hprev : ∀ q' : Fin 8, before m c ⟨n, hn⟩ (ix2 p q')
          = (run (sK m c (rowAt n hn p)) (tK m c (rowAt n hn p)) (τ (rowAt n hn p)) (n % 50)).col q' := by
        intro q'
        have := ih (n - 1) (by omega) (Nat.lt_of_le_of_lt (Nat.sub_le _ _) hn) p q'
        rw [hrow, hmod] at this
        exact this
      rw [rowOf_eq _ p _ hprev]

/-- The output block after a last tile, at row `p`: the row's stream after all 50 tiles. -/
theorem out_inv (c : Dev nD) (hτ : ∀ r : Fin 2048, aL m c (ix2 r 0) = BitVec.ofNat 32 (τ r).val)
    (t : Fin cfg0.N) (h1 : t.val % 50 = 49) (p : Fin 512) (q : Fin 8) :
    (outsAt0 m c t.val t.isLt).1 (ix2 p q)
      = (run (sK m c (rowAt t.val t.isLt p)) (tK m c (rowAt t.val t.isLt p)) (τ (rowAt t.val t.isLt p)) 50).col q := by
  have hk : t.val % 50 < 50 := Nat.mod_lt _ (by decide)
  have h0 : ¬t.val % 50 = 0 := by omega
  have e := scr_inv m τ c hτ t.val t.isLt p q
  rw [congrFun (scr_next m c t h0) (ix2 p q)] at e
  rw [congrFun (out_last m c t h1) (ix2 p q), e, h1]

/-- THE OUTPUT ARRAY after the run: row `r` holds the streamed statistics of the row after all 50 tiles. -/
theorem final_stats (c : Dev nD) (hτ : ∀ r : Fin 2048, aL m c (ix2 r 0) = BitVec.ofNat 32 (τ r).val) :
    ((dats m 0 c).arrAt 7 cfg0.N : S2048x8.Idx → EReal)
      = fun i => (run (sK m c (i 0)) (tK m c (i 0)) (τ (i 0)) 50).col (i 1) := by
  refine (dats m 0 c).arrAt_eq_of_cover 7 _ (fun t hf => ?_) cover7
  have h1 : t.val % 50 = 49 := (flush0_7 t).mp hf
  show (cfg0.win 7).cut (grid0.coords t) ((dats m 0 c).after 7 t) = _
  rw [after0_7]
  funext y
  obtain ⟨p, q, rfl⟩ : ∃ (p : Fin 512) (q : Fin 8), y = ix2 p q := ⟨y 0, y 1, eq_ix2 y⟩
  show (outsAt0 m c t.val t.isLt).1 (ix2 p q) = (fun i : S2048x8.Idx => (run (sK m c (i 0)) (tK m c (i 0)) (τ (i 0)) 50).col (i 1)) (((cfg0.win 7).blk t).view.emb (ix2 p q))
  rw [emb7 t p q, out_inv m τ c hτ t h1 p q]
  rfl

end Cert.Distill.Kern

end
-- ==== Proof.Bridge.lean ====
/-
  The two programs' results are one number.

  The streaming program ends with, per row, the streamed statistics of the row's two logit vectors after all
  50 tiles; its closing host operations turn them into the weighted form of the loss.  Under the precondition
  every input entry is a real and every label is the ignore word or a vocabulary entry, so the logits are real:
  the hard term from the statistics is the log-softmax hard term, the cosine from the three sums is the dot
  product of the normalised vectors, and the weighted form of the loss is the selected form with the count of
  valid rows (floored at one) as divisor.
-/
import proofs.«424027_j51376398794762_3_alg».proof.Proof.Final
import proofs.«424027_j51376398794762_3_alg».proof.Proof.KernelHost
import proofs.«424027_j51376398794762_3_alg».proof.Proof.Law

noncomputable section

open scoped BigOperators

namespace Cert.Distill

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The student logits read from the region-entry arrays are the logits of the arguments. -/
theorem sK_eq (c : Dev nD) (r : Fin 2048) :
    Kern.sK m c r = logit (H := 1024) (m ((c : Thread nD τ).loc main_arg0)) (m ((c : Thread nD τ).loc main_arg3)) (m ((c : Thread nD τ).loc main_arg4)) r := by
  funext v
  have eX : Kern.aX m c = m ((c : Thread nD τ).loc main_arg0) := Host.entry_x m c
  have eW : Kern.aWs m c = m ((c : Thread nD τ).loc main_arg3) := V_main_arg3 m c
  have eB : Kern.aBs m c (ix2 0 v) = m ((c : Thread nD τ).loc main_arg4) (ix1 v) := Host.entry_bias_s m c v
  unfold Kern.sK logit
  rw [eX, eW, eB]

/-- The teacher logits likewise. -/
theorem tK_eq (c : Dev nD) (r : Fin 2048) :
    Kern.tK m c r = logit (H := 2048) (m ((c : Thread nD τ).loc main_arg1)) (m ((c : Thread nD τ).loc main_arg5)) (m ((c : Thread nD τ).loc main_arg6)) r := by
  funext v
  have eX : Kern.aY m c = m ((c : Thread nD τ).loc main_arg1) := Host.entry_t m c
  have eW : Kern.aWt m c = m ((c : Thread nD τ).loc main_arg5) := V_main_arg5 m c
  have eB : Kern.aBt m c (ix2 0 v) = m ((c : Thread nD τ).loc main_arg6) (ix1 v) := Host.entry_bias_t m c v
  unfold Kern.tK logit
  rw [eX, eW, eB]

/-- The streaming program's loss, for real inputs and labels in range, is the normalise-first loss. -/
theorem kernel_loss_eq (c : Dev nD)
    (h0 : ∀ i, ∃ r : ℝ, (m ((c : Thread nD τ).loc main_arg0) : S2048x1024.Idx → EReal) i = (r : EReal))
    (h1 : ∀ i, ∃ r : ℝ, (m ((c : Thread nD τ).loc main_arg1) : S2048x2048.Idx → EReal) i = (r : EReal))
    (h3 : ∀ i, ∃ r : ℝ, (m ((c : Thread nD τ).loc main_arg3) : S32000x1024.Idx → EReal) i = (r : EReal))
    (h4 : ∀ i, ∃ r : ℝ, (m ((c : Thread nD τ).loc main_arg4) : S32000.Idx → EReal) i = (r : EReal))
    (h5 : ∀ i, ∃ r : ℝ, (m ((c : Thread nD τ).loc main_arg5) : S32000x2048.Idx → EReal) i = (r : EReal))
    (h6 : ∀ i, ∃ r : ℝ, (m ((c : Thread nD τ).loc main_arg6) : S32000.Idx → EReal) i = (r : EReal))
    (hlab : LabelsInRange (m ((c : Thread nD τ).loc main_arg2))) :
    lossWeighted (fun r => nllOf (Host.statsArr m c (ix2 r 0)) (Host.statsArr m c (ix2 r 1)) (Host.statsArr m c (ix2 r 2)))
        (fun r => cosOf (Host.statsArr m c (ix2 r 3)) (Host.statsArr m c (ix2 r 4)) (Host.statsArr m c (ix2 r 5)))
        (weight (m ((c : Thread nD τ).loc main_arg2)))
      = lossSelected
          (fun r => refNll (logit (H := 1024) (m ((c : Thread nD τ).loc main_arg0)) (m ((c : Thread nD τ).loc main_arg3)) (m ((c : Thread nD τ).loc main_arg4)) r) (pick (m ((c : Thread nD τ).loc main_arg2)) r))
          (fun r => refCos (logit (H := 1024) (m ((c : Thread nD τ).loc main_arg0)) (m ((c : Thread nD τ).loc main_arg3)) (m ((c : Thread nD τ).loc main_arg4)) r)
            (logit (H := 2048) (m ((c : Thread nD τ).loc main_arg1)) (m ((c : Thread nD τ).loc main_arg5)) (m ((c : Thread nD τ).loc main_arg6)) r))
          (validBit (m ((c : Thread nD τ).loc main_arg2)))
          (max (zero + ∑ r : Fin 2048, weight (m ((c : Thread nD τ).loc main_arg2)) r) one) := by
  have hfin := Kern.final_stats m (pick (m ((c : Thread nD τ).loc main_arg2))) c (fun r => Host.entry_label m c hlab r)
  have hst : ∀ (r : Fin 2048) (q : Fin 8), Host.statsArr m c (ix2 r q)
      = (run (logit (H := 1024) (m ((c : Thread nD τ).loc main_arg0)) (m ((c : Thread nD τ).loc main_arg3)) (m ((c : Thread nD τ).loc main_arg4)) r)
          (logit (H := 2048) (m ((c : Thread nD τ).loc main_arg1)) (m ((c : Thread nD τ).loc main_arg5)) (m ((c : Thread nD τ).loc main_arg6)) r)
          (pick (m ((c : Thread nD τ).loc main_arg2)) r) 50).col q := by
    intro r q
    show ((dats m 0 c).arrAt 7 cfg0.N : S2048x8.Idx → EReal) (ix2 r q) = _
    rw [hfin]
    show (run (Kern.sK m c r) (Kern.tK m c r) (pick (m ((c : Thread nD τ).loc main_arg2)) r) 50).col q = _
    rw [sK_eq m c r, tK_eq m c r]
  have hσ : ∀ (r : Fin 2048) (v : Fin 32000), ∃ s : ℝ, logit (H := 1024) (m ((c : Thread nD τ).loc main_arg0)) (m ((c : Thread nD τ).loc main_arg3)) (m ((c : Thread nD τ).loc main_arg4)) r v = (s : EReal) :=
    fun r v => logit_real _ _ _ h0 h3 h4 r v
  have hθ : ∀ (r : Fin 2048) (v : Fin 32000), ∃ s : ℝ, logit (H := 2048) (m ((c : Thread nD τ).loc main_arg1)) (m ((c : Thread nD τ).loc main_arg5)) (m ((c : Thread nD τ).loc main_arg6)) r v = (s : EReal) :=
    fun r v => logit_real _ _ _ h1 h5 h6 r v
  have hn : (fun r : Fin 2048 => nllOf (Host.statsArr m c (ix2 r 0)) (Host.statsArr m c (ix2 r 1)) (Host.statsArr m c (ix2 r 2)))
      = fun r => refNll (logit (H := 1024) (m ((c : Thread nD τ).loc main_arg0)) (m ((c : Thread nD τ).loc main_arg3)) (m ((c : Thread nD τ).loc main_arg4)) r) (pick (m ((c : Thread nD τ).loc main_arg2)) r) := by
    funext r
    rw [hst r 0, hst r 1, hst r 2]
    exact row_nll _ _ _ (hσ r) (hθ r)
  have hc : (fun r : Fin 2048 => cosOf (Host.statsArr m c (ix2 r 3)) (Host.statsArr m c (ix2 r 4)) (Host.statsArr m c (ix2 r 5)))
      = fun r => refCos (logit (H := 1024) (m ((c : Thread nD τ).loc main_arg0)) (m ((c : Thread nD τ).loc main_arg3)) (m ((c : Thread nD τ).loc main_arg4)) r)
          (logit (H := 2048) (m ((c : Thread nD τ).loc main_arg1)) (m ((c : Thread nD τ).loc main_arg5)) (m ((c : Thread nD τ).loc main_arg6)) r) := by
    funext r
    rw [hst r 3, hst r 4, hst r 5]
    exact row_cos _ _ _ (hσ r) (hθ r)
  rw [hn, hc]
  exact loss_forms _ _ _

end Cert.Distill

end
-- ==== Proof.lean ====
/-
  A distillation loss over a vocabulary of 32000 entries for 2048 rows: half the mean cross entropy of the
  student logits against the labels (rows labelled -100 ignored) plus half the mean of one minus the cosine of
  the student and teacher logit vectors.

  The kernel program streams the vocabulary in 50 tiles of 640 entries, keeping per row a running maximum, a
  rescaled sum of exponentials, the logit picked by the label and three inner products, and finishes on the
  host; the reference program forms the full logit matrices, takes a log-softmax, gathers the label's entry, and
  normalises both logit vectors before their dot product.  On the extended reals, for finite inputs and labels
  that are -100 or vocabulary entries, the two results are the same number: the rescaling of the running sum is
  the law exp (a - b) · exp (x - a) = exp (x - b) summed over a tile, log ∑ exp (σ - m) + m does not depend on m,
  and dividing each vector by its (floored, positive) norm before the dot product divides the dot product by the
  product of the norms.  The kernel's clip of the label to the vocabulary and the reference's wrap of a negative
  label are both the identity on that domain.

  The three frames: the two kernel programs by the generated frame certificates, the reference by its run.
  The idealization rewrote no operation, so there is nothing to preserve.
-/
import proofs.«424027_j51376398794762_3_alg».proof.Defs
import proofs.«424027_j51376398794762_3_alg».proof.Proof.Gen.Kernel
import proofs.«424027_j51376398794762_3_alg».proof.Proof.Gen.Kernel.Frame
import proofs.«424027_j51376398794762_3_alg».proof.Proof.Gen.KernelIdeal
import proofs.«424027_j51376398794762_3_alg».proof.Proof.Gen.KernelIdeal.Frame
import proofs.«424027_j51376398794762_3_alg».proof.Proof.Gen.ReferenceIdeal
import proofs.«424027_j51376398794762_3_alg».proof.Proof.Gen.Pre_finite_inputs
import proofs.«424027_j51376398794762_3_alg».proof.Proof.RefRead
import proofs.«424027_j51376398794762_3_alg».proof.Proof.RefRunVal
import proofs.«424027_j51376398794762_3_alg».proof.Proof.RefValue
import proofs.«424027_j51376398794762_3_alg».proof.Proof.PreFacts
import proofs.«424027_j51376398794762_3_alg».proof.Proof.CountFacts
import proofs.«424027_j51376398794762_3_alg».proof.Proof.KernelRun
import proofs.«424027_j51376398794762_3_alg».proof.Proof.Bridge
import Idealize.ShloMosaic.Adequacy
import Idealize.ShloMosaic.Init

noncomputable section

open scoped BigOperators

namespace Cert.Proof

open Idealize.ShloMosaic Idealize.ShloMosaic.TcCoe Idealize.SL.Sem

/-- The loss of the arguments in a memory of the kernel program, in the normalise-first form. -/
def lossOf (m : (ℓ : Loc Cert.KernelIdeal.nD Cert.KernelIdeal.τ Cert.KernelIdeal.sig) → Buf (Elt Ideal) ℓ) (c : Dev Cert.KernelIdeal.nD) : EReal :=
  Cert.Distill.lossSelected
    (fun r => Cert.Distill.refNll (Cert.Distill.logit (H := 1024) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) r) (Cert.Distill.pick (m ((c.tc : Thread Cert.KernelIdeal.nD Cert.KernelIdeal.τ).loc Cert.KernelIdeal.main_arg2)) r))
    (fun r => Cert.Distill.refCos (Cert.Distill.logit (H := 1024) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) r)
      (Cert.Distill.logit (H := 2048) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) r))
    (Cert.Distill.validBit (m ((c.tc : Thread Cert.KernelIdeal.nD Cert.KernelIdeal.τ).loc Cert.KernelIdeal.main_arg2)))
    (max (Cert.Distill.zero + ∑ r : Fin 2048, Cert.Distill.weight (m ((c.tc : Thread Cert.KernelIdeal.nD Cert.KernelIdeal.τ).loc Cert.KernelIdeal.main_arg2)) r) Cert.Distill.one)

/-- The idealized kernel and the idealized reference end at the same loss. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hfacts : ∀ c : Dev Cert.KernelIdeal.nD, _ := fun c =>
    Cert.Distill.Pre.pre_facts _ _ _ _ _ _ _ (hpre c)
  refine ⟨fun c => fun _ => lossOf m c, ?_, ?_⟩
  · refine (θ_run (Cert.KernelIdeal.defs (F := Ideal)) _ _).mono (fun r h c => ?_) (Cert.Distill.Host.kernel_value m ρ)
    obtain ⟨h0, h1, h3, h4, h5, h6, hlab⟩ := hfacts c
    refine ⟨(h c).1.trans ?_, (h c).2⟩
    exact funext fun _ => Cert.Distill.kernel_loss_eq m c h0 h1 h3 h4 h5 h6 hlab
  · refine (θ_run (Cert.ReferenceIdeal.defs (F := Ideal)) _ _).mono (fun r h c => ?_) (Cert.Distill.Ref.run_val m' ρ')
    obtain ⟨h0, h1, h3, h4, h5, h6, hlab⟩ := hfacts c
    refine ⟨(h c).1.trans ?_, (h c).2⟩
    rw [(hagree c).1, (hagree c).2.1, (hagree c).2.2.1, (hagree c).2.2.2.1,
      (hagree c).2.2.2.2.1, (hagree c).2.2.2.2.2.1, (hagree c).2.2.2.2.2.2]
    rw [Cert.Distill.Ref.ref_value _ _ _ _ _ _ _ hlab, Cert.Distill.Pre.count_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.Distill.Ref.run_val m ρ),
  trivial,
  algebraic⟩

end Cert.Proof

end
